-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1600000x128 : Shape := ⟨2, ![1600000, 128]⟩
abbrev S6400x128 : Shape := ⟨2, ![6400, 128]⟩
abbrev S6400x1 : Shape := ⟨2, ![6400, 1]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩
abbrev S6400x64 : Shape := ⟨2, ![6400, 64]⟩
abbrev S256x64 : Shape := ⟨2, ![256, 64]⟩
abbrev S256 : Shape := ⟨1, ![256]⟩
abbrev S256x1 : Shape := ⟨2, ![256, 1]⟩

abbrev nBuf : Space → Nat
  | .hbm => 159
  | .vmem => 66
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000x1, .f32⟩
  | 46 => ⟨S1600000x1, .f32⟩
  | 47 => ⟨S1x128, .f32⟩
  | 48 => ⟨S100000x128, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1, .i32⟩
  | 59 => ⟨S_, .i32⟩
  | 60 => ⟨S1600000x1, .i32⟩
  | 61 => ⟨S1600000x1, .i1⟩
  | 62 => ⟨S1x1, .i32⟩
  | 63 => ⟨S1600000x1, .i32⟩
  | 64 => ⟨S1600000x1, .i1⟩
  | 65 => ⟨S1600000x1, .i1⟩
  | 66 => ⟨S_, .i1⟩
  | 67 => ⟨S1600000, .i1⟩
  | 68 => ⟨S1600000x128, .f32⟩
  | 69 => ⟨S1600000x128, .i1⟩
  | 70 => ⟨S_, .f32⟩
  | 71 => ⟨S1600000x128, .f32⟩
  | 72 => ⟨S1600000x128, .f32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1, .i32⟩
  | 91 => ⟨S_, .i32⟩
  | 92 => ⟨S1600000x1, .i32⟩
  | 93 => ⟨S1600000x1, .i1⟩
  | 94 => ⟨S1x1, .i32⟩
  | 95 => ⟨S1600000x1, .i32⟩
  | 96 => ⟨S1600000x1, .i1⟩
  | 97 => ⟨S1600000x1, .i1⟩
  | 98 => ⟨S_, .i1⟩
  | 99 => ⟨S1600000, .i1⟩
  | 100 => ⟨S1600000x128, .f32⟩
  | 101 => ⟨S1600000x128, .i1⟩
  | 102 => ⟨S_, .f32⟩
  | 103 => ⟨S1600000x128, .f32⟩
  | 104 => ⟨S1600000x128, .f32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000x128, .f32⟩
  | 111 => ⟨S1x64, .f32⟩
  | 112 => ⟨S100000x64, .f32⟩
  | 113 => ⟨S100000x64, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1, .i32⟩
  | 123 => ⟨S_, .i32⟩
  | 124 => ⟨S1600000x1, .i32⟩
  | 125 => ⟨S1600000x1, .i1⟩
  | 126 => ⟨S1x1, .i32⟩
  | 127 => ⟨S1600000x1, .i32⟩
  | _ => ⟨S100000x128, .f32⟩

abbrev hbmTy0_1 (i : Nat) : BufTy := match i % 128 with
  | 0 => ⟨S1600000x1, .i1⟩
  | 1 => ⟨S1600000x1, .i1⟩
  | 2 => ⟨S_, .i1⟩
  | 3 => ⟨S1600000, .i1⟩
  | 4 => ⟨S1600000x64, .f32⟩
  | 5 => ⟨S1600000x64, .i1⟩
  | 6 => ⟨S_, .f32⟩
  | 7 => ⟨S1600000x64, .f32⟩
  | 8 => ⟨S1600000x64, .f32⟩
  | 9 => ⟨S1600000x64, .f32⟩
  | 10 => ⟨S_, .f32⟩
  | 11 => ⟨S100000x64, .f32⟩
  | 12 => ⟨S1600000x1, .i32⟩
  | 13 => ⟨S100000x64, .f32⟩
  | 14 => ⟨S100000x64, .f32⟩
  | 15 => ⟨S_, .f32⟩
  | 16 => ⟨S256x64, .f32⟩
  | 17 => ⟨S100000x1, .i32⟩
  | 18 => ⟨S256x64, .f32⟩
  | 19 => ⟨S_, .f32⟩
  | 20 => ⟨S100000, .f32⟩
  | 21 => ⟨S_, .f32⟩
  | 22 => ⟨S256, .f32⟩
  | 23 => ⟨S100000x1, .i32⟩
  | 24 => ⟨S256, .f32⟩
  | 25 => ⟨S_, .f32⟩
  | 26 => ⟨S256, .f32⟩
  | 27 => ⟨S256, .f32⟩
  | 28 => ⟨S256x1, .f32⟩
  | 29 => ⟨S256x64, .f32⟩
  | 30 => ⟨S256x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S6400x128, .f32⟩
  | .local _ .vmem, ⟨11, _⟩ => ⟨S6400x128, .f32⟩
  | .local _ .vmem, ⟨12, _⟩ => ⟨S6400x1, .f32⟩
  | .local _ .vmem, ⟨13, _⟩ => ⟨S6400x1, .f32⟩
  | .local _ .vmem, ⟨14, _⟩ => ⟨S6400x128, .f32⟩
  | .local _ .vmem, ⟨15, _⟩ => ⟨S6400x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x1, .f32⟩
  | .local _ .vmem, ⟨27, _⟩ => ⟨S5000x1, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S6400x128, .f32⟩
  | .local _ .vmem, ⟨33, _⟩ => ⟨S6400x128, .f32⟩
  | .local _ .vmem, ⟨34, _⟩ => ⟨S6400x1, .f32⟩
  | .local _ .vmem, ⟨35, _⟩ => ⟨S6400x1, .f32⟩
  | .local _ .vmem, ⟨36, _⟩ => ⟨S6400x128, .f32⟩
  | .local _ .vmem, ⟨37, _⟩ => ⟨S6400x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x64, .f32⟩
  | .local _ .vmem, ⟨47, _⟩ => ⟨S1x64, .f32⟩
  | .local _ .vmem, ⟨48, _⟩ => ⟨S5000x1, .f32⟩
  | .local _ .vmem, ⟨49, _⟩ => ⟨S5000x1, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S6400x64, .f32⟩
  | .local _ .vmem, ⟨55, _⟩ => ⟨S6400x64, .f32⟩
  | .local _ .vmem, ⟨56, _⟩ => ⟨S6400x1, .f32⟩
  | .local _ .vmem, ⟨57, _⟩ => ⟨S6400x1, .f32⟩
  | .local _ .vmem, ⟨58, _⟩ => ⟨S6400x64, .f32⟩
  | .local _ .vmem, ⟨59, _⟩ => ⟨S6400x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v32 : Ref sig .tc := ⟨.hbm, 72, rfl⟩
abbrev main_v33 : Ref sig .tc := ⟨.hbm, 73, rfl⟩
abbrev main_cst_6 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39_0 : Ref sig .tc := ⟨.hbm, 80, rfl⟩
abbrev main_v39_1 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v40 : Ref sig .tc := ⟨.hbm, 104, rfl⟩
abbrev main_v41 : Ref sig .tc := ⟨.hbm, 105, rfl⟩
abbrev main_cst_7 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47_0 : Ref sig .tc := ⟨.hbm, 112, rfl⟩
abbrev main_v47_1 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v48 : Ref sig .tc := ⟨.hbm, 136, rfl⟩
abbrev main_v49 : Ref sig .tc := ⟨.hbm, 137, rfl⟩
abbrev main_cst_8 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_cst_9 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_cst_10 : Ref sig .tc := ⟨.hbm, 147, rfl⟩
abbrev main_v57 : Ref sig .tc := ⟨.hbm, 148, rfl⟩
abbrev main_cst_11 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_12 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc6_stg4_0 : Ref sig .tc := ⟨.vmem, 50, rfl⟩
abbrev cc6_stg4_1 : Ref sig .tc := ⟨.vmem, 51, rfl⟩
abbrev cc6_stg5_0 : Ref sig .tc := ⟨.vmem, 52, rfl⟩
abbrev cc6_stg5_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg2_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49
abbrev cc6_sem4_0 : DmaSem sig := 50
abbrev cc6_sem4_1 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem2_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6400x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![250], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6400x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6400x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S6400x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  broadcasts_S6400x1_S6400x128 : S6400x1.Broadcasts S6400x128
  bcast_S_S100000x128 : S_.BroadcastsInDim S100000x128 (![] : Fin 0 → Fin S100000x128.rank)
  shapeCasts_S5000x128_S5000x128 : S5000x128.ShapeCasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  broadcasts_S6400x1_S6400x64 : S6400x1.Broadcasts S6400x64
  bcast_S_S100000x64 : S_.BroadcastsInDim S100000x64 (![] : Fin 0 → Fin S100000x64.rank)
  shapeCasts_S5000x64_S5000x64 : S5000x64.ShapeCasts S5000x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S1600000x128.size a
  hwx1_0 : ∀ i : grid1.Coords, EltTy.bits .f32 = 32 ∨ (Rect.block (s := S1600000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S1600000x1.size a
  hwx1_1 : ∀ i : grid1.Coords, EltTy.bits .f32 = 32 ∨ (Rect.block (s := S1600000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S1600000x128.size a
  hwx1_2 : ∀ i : grid1.Coords, EltTy.bits .f32 = 32 ∨ (Rect.block (s := S1600000x128) S6400x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x128.size a ≤ S1600000x128.size a
  hwx4_0 : ∀ i : grid4.Coords, EltTy.bits .f32 = 32 ∨ (Rect.block (s := S1600000x128) S6400x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x1.size a ≤ S1600000x1.size a
  hwx4_1 : ∀ i : grid4.Coords, EltTy.bits .f32 = 32 ∨ (Rect.block (s := S1600000x1) S6400x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6400x128.size a ≤ S1600000x128.size a
  hwx4_2 : ∀ i : grid4.Coords, EltTy.bits .f32 = 32 ∨ (Rect.block (s := S1600000x128) S6400x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .f32 = 32 ∨ (Rect.block (s := S100000x1) S5000x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S100000x64.size a
  hwx6_5 : ∀ i : grid6.Coords, EltTy.bits .f32 = 32 ∨ (Rect.block (s := S100000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6400x64.size a ≤ S1600000x64.size a
  hwx7_0 : ∀ i : grid7.Coords, EltTy.bits .f32 = 32 ∨ (Rect.block (s := S1600000x64) S6400x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6400x1.size a ≤ S1600000x1.size a
  hwx7_1 : ∀ i : grid7.Coords, EltTy.bits .f32 = 32 ∨ (Rect.block (s := S1600000x1) S6400x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6400x64.size a ≤ S1600000x64.size a
  hwx7_2 : ∀ i : grid7.Coords, EltTy.bits .f32 = 32 ∨ (Rect.block (s := S1600000x64) S6400x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S6400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31_1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v39_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v39_1) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v40) S6400x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S6400x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S6400x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v44) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39_1) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v45) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v45) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v46) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v28) S5000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v47_0) S5000x64.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v47_1) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v48) S6400x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v29) S6400x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v49) S6400x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v52) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v47_1) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v53) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩

abbrev nBuf : Space → Nat
  | .hbm => 222
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S100000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S1600000x128, .f32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x1, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S100000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S1600000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S1600000x64, .f32⟩
  | 49 => ⟨S1600000x64, .f32⟩
  | 50 => ⟨S_, .f32⟩
  | 51 => ⟨S100000x64, .f32⟩
  | 52 => ⟨S1600000x1, .i32⟩
  | 53 => ⟨S100000x64, .f32⟩
  | 54 => ⟨S100000x1, .f32⟩
  | 55 => ⟨S100000x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S_, .f32⟩
  | 79 => ⟨S256x64, .f32⟩
  | 80 => ⟨S100000x1, .i32⟩
  | 81 => ⟨S256x64, .f32⟩
  | 82 => ⟨S_, .f32⟩
  | 83 => ⟨S100000, .f32⟩
  | 84 => ⟨S_, .f32⟩
  | 85 => ⟨S256, .f32⟩
  | 86 => ⟨S100000x1, .i32⟩
  | 87 => ⟨S256, .f32⟩
  | 88 => ⟨S_, .f32⟩
  | 89 => ⟨S256, .f32⟩
  | 90 => ⟨S256, .f32⟩
  | 91 => ⟨S256x1, .f32⟩
  | 92 => ⟨S256x64, .f32⟩
  | 93 => ⟨S256x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_15 : Ref sig .tc := ⟨.hbm, 96, rfl⟩
abbrev main_v70 : Ref sig .tc := ⟨.hbm, 97, rfl⟩
abbrev main_v71 : Ref sig .tc := ⟨.hbm, 98, rfl⟩
abbrev main_c_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_c_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_19 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_20 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_21 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_22 : Ref sig .tc := ⟨.hbm, 139, rfl⟩
abbrev main_v106 : Ref sig .tc := ⟨.hbm, 140, rfl⟩
abbrev main_v107 : Ref sig .tc := ⟨.hbm, 141, rfl⟩
abbrev main_cst_23 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_c_24 : Ref sig .tc := ⟨.hbm, 147, rfl⟩
abbrev main_v112 : Ref sig .tc := ⟨.hbm, 148, rfl⟩
abbrev main_v113 : Ref sig .tc := ⟨.hbm, 149, rfl⟩
abbrev main_c_25 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_c_26 : Ref sig .tc := ⟨.hbm, 156, rfl⟩
abbrev main_v119 : Ref sig .tc := ⟨.hbm, 157, rfl⟩
abbrev main_v120 : Ref sig .tc := ⟨.hbm, 158, rfl⟩
abbrev main_c_27 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_c_28 : Ref sig .tc := ⟨.hbm, 167, rfl⟩
abbrev main_v128 : Ref sig .tc := ⟨.hbm, 168, rfl⟩
abbrev main_v129 : Ref sig .tc := ⟨.hbm, 169, rfl⟩
abbrev main_c_29 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_30 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_31 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_32 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_33 : Ref sig .tc := ⟨.hbm, 199, rfl⟩
abbrev main_v155 : Ref sig .tc := ⟨.hbm, 200, rfl⟩
abbrev main_v156 : Ref sig .tc := ⟨.hbm, 201, rfl⟩
abbrev main_cst_34 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_cst_35 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_36 : Ref sig .tc := ⟨.hbm, 210, rfl⟩
abbrev main_v163 : Ref sig .tc := ⟨.hbm, 211, rfl⟩
abbrev main_cst_37 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_cst_38 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.RefTerms.lean ====
/-
  Names for the pieces of the reference's result that every layer shares, and the agreement of the two launch
  memories on the nine arguments.

  The reference reads its edge endpoints once (source and destination rows of the edge list), wraps a negative
  endpoint by the node count, and uses the wrapped source both to gather the inverse square-root degree and to
  gather a layer's feature rows; `idxSrc` and `idxDst` are those wrapped endpoints as index columns, `normR` the
  edge normalisation (the product of the two gathered inverse square roots), and `geluR128` / `geluR64` the tanh form
  of GELU as the reference spells it on a whole array: x · (½ · (1 + tanh (c₁ · (x + c₂ · ((x · x) · x))))).
-/
import proofs.«409755_j40252433498737_1_alg».proof.KernelIdeal
import proofs.«409755_j40252433498737_1_alg».proof.Proof.Gen.ReferenceIdeal.Run
import Idealize.ShloMosaic.PureOps.Ideal

set_option maxRecDepth 8192

noncomputable section

namespace Cert.Bridge

open Idealize.ShloMosaic Idealize.ShloMosaic.TcCoe Idealize.SL.Sem
open Cert.ReferenceIdeal Cert.ReferenceIdeal.Gen Cert.ReferenceIdeal.Value

/-- The reference's launch contents `V0` hold, argument by argument, what the kernel's launch memory `m` holds on
    core `c`. -/
structure Agree (m : (ℓ : Loc Cert.KernelIdeal.nD Cert.KernelIdeal.τ Cert.KernelIdeal.sig) → Buf (Elt Ideal) ℓ)
    (c : Dev Cert.KernelIdeal.nD) (V0 : Valuation τ sig (Elt Ideal)) : Prop where
  a0 : V0 (Proc.devRef .tc main_arg0) = m ((c.tc : Thread Cert.KernelIdeal.nD Cert.KernelIdeal.τ).loc Cert.KernelIdeal.main_arg0)
  a1 : V0 (Proc.devRef .tc main_arg1) = m ((c.tc : Thread Cert.KernelIdeal.nD Cert.KernelIdeal.τ).loc Cert.KernelIdeal.main_arg1)
  a2 : V0 (Proc.devRef .tc main_arg2) = m ((c.tc : Thread Cert.KernelIdeal.nD Cert.KernelIdeal.τ).loc Cert.KernelIdeal.main_arg2)
  a3 : V0 (Proc.devRef .tc main_arg3) = m ((c.tc : Thread Cert.KernelIdeal.nD Cert.KernelIdeal.τ).loc Cert.KernelIdeal.main_arg3)
  a4 : V0 (Proc.devRef .tc main_arg4) = m ((c.tc : Thread Cert.KernelIdeal.nD Cert.KernelIdeal.τ).loc Cert.KernelIdeal.main_arg4)
  a5 : V0 (Proc.devRef .tc main_arg5) = m ((c.tc : Thread Cert.KernelIdeal.nD Cert.KernelIdeal.τ).loc Cert.KernelIdeal.main_arg5)
  a6 : V0 (Proc.devRef .tc main_arg6) = m ((c.tc : Thread Cert.KernelIdeal.nD Cert.KernelIdeal.τ).loc Cert.KernelIdeal.main_arg6)
  a7 : V0 (Proc.devRef .tc main_arg7) = m ((c.tc : Thread Cert.KernelIdeal.nD Cert.KernelIdeal.τ).loc Cert.KernelIdeal.main_arg7)
  a8 : V0 (Proc.devRef .tc main_arg8) = m ((c.tc : Thread Cert.KernelIdeal.nD Cert.KernelIdeal.τ).loc Cert.KernelIdeal.main_arg8)

variable (V0 : Valuation τ sig (Elt Ideal))

/-- An endpoint list with each negative entry raised by the node count. -/
def wrapIdx (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

/-- The wrapped source endpoints as a column of start indices. -/
def idxSrc : IVec S1600000x1 32 := broadcastInDim S1600000x1 ![0] bcast_S1600000_S1600000x1_0 (wrapIdx (res_main_v1 V0))
/-- The wrapped destination endpoints as a column of start indices. -/
def idxDst : IVec S1600000x1 32 := broadcastInDim S1600000x1 ![0] bcast_S1600000_S1600000x1_0 (wrapIdx (res_main_v3 V0))

/-- The edge normalisation: the inverse square-root degree gathered at the source times that at the destination. -/
def normR : FVec Ideal S1600000 .f32 :=
  mulf (Host.gather gather_S100000_S1600000x1_S1600000_n_0_n_n_0_1_1 (res_main_v10 V0) (idxSrc V0))
    (Host.gather gather_S100000_S1600000x1_S1600000_n_0_n_n_0_1_1 (res_main_v10 V0) (idxDst V0))

/-- GELU (tanh form) on a whole [100000, 128] array, as the reference composes it. -/
def geluR128 (x : FVec Ideal S100000x128 .f32) : FVec Ideal S100000x128 .f32 :=
  mulf x (mulf (broadcastInDim S100000x128 ![] bcast_S_S100000x128 (constant S_ .f32 0x3F000000#32))
    (addf (broadcastInDim S100000x128 ![] bcast_S_S100000x128 (constant S_ .f32 0x3F800000#32))
      (Host.tanh (mulf (broadcastInDim S100000x128 ![] bcast_S_S100000x128 (constant S_ .f32 0x3F4C422A#32))
        (addf x (mulf (broadcastInDim S100000x128 ![] bcast_S_S100000x128 (constant S_ .f32 0x3D372713#32)) (mulf (mulf x x) x)))))))

/-- GELU (tanh form) on a whole [100000, 64] array. -/
def geluR64 (x : FVec Ideal S100000x64 .f32) : FVec Ideal S100000x64 .f32 :=
  mulf x (mulf (broadcastInDim S100000x64 ![] bcast_S_S100000x64 (constant S_ .f32 0x3F000000#32))
    (addf (broadcastInDim S100000x64 ![] bcast_S_S100000x64 (constant S_ .f32 0x3F800000#32))
      (Host.tanh (mulf (broadcastInDim S100000x64 ![] bcast_S_S100000x64 (constant S_ .f32 0x3F4C422A#32))
        (addf x (mulf (broadcastInDim S100000x64 ![] bcast_S_S100000x64 (constant S_ .f32 0x3D372713#32)) (mulf (mulf x x) x)))))))

/-- A layer's pre-activation as the reference composes it from the layer's product `xl`, a [100000, 128] layer:
    the messages scattered by destination, plus the self-loop term, plus the bias. -/
def preAct128 (xl : FVec Ideal S100000x128 .f32) (b : FVec Ideal S128 .f32) : FVec Ideal S100000x128 .f32 :=
  addf (addf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (res_main_v3 V0))
      (mulf (broadcastInDim S1600000x128 ![0, 1] bcast_S1600000x1_S1600000x128_0_1 (broadcastInDim S1600000x1 ![0] bcast_S1600000_S1600000x1_0 (normR V0)))
        (Host.gather gather_S100000x128_S1600000x1_S1600000x128_1_0_n_n_0_1_1128 xl (idxSrc V0))))
    (mulf (broadcastInDim S100000x128 ![0, 1] bcast_S100000x1_S100000x128_0_1 (broadcastInDim S100000x1 ![0] bcast_S100000_S100000x1_0 (res_main_v12 V0))) xl))
    (broadcastInDim S100000x128 ![0, 1] bcast_S1x128_S100000x128_0_1 (broadcastInDim S1x128 ![1] bcast_S128_S1x128_1 b))

theorem res_main_v48_eq : res_main_v48 V0 = preAct128 V0 (res_main_v13 V0) (V0 (Proc.devRef .tc main_arg4)) := rfl

end Cert.Bridge

end
-- ==== Proof.RefTerms2.lean ====
/-
  The reference's later layers in the same vocabulary as its first: a layer's input is the GELU of the previous
  layer's pre-activation, its product the whole-array matrix product with that layer's weight, and its
  pre-activation the scattered messages plus the self-loop term plus the bias; the last layer has 64 output
  columns. The result is the per-graph mean of the last layer's activations: their sum scattered by graph id,
  divided by the graph's node count (at least one).
-/
import proofs.«409755_j40252433498737_1_alg».proof.Proof.RefTerms

set_option maxRecDepth 8192

noncomputable section

namespace Cert.Bridge

open Idealize.ShloMosaic Idealize.ShloMosaic.TcCoe Idealize.SL.Sem
open Cert.ReferenceIdeal Cert.ReferenceIdeal.Gen Cert.ReferenceIdeal.Value

variable (V0 : Valuation τ sig (Elt Ideal))

/-- A [100000, 64] layer's pre-activation, as the reference composes it from the layer's product `xl`. -/
def preAct64 (xl : FVec Ideal S100000x64 .f32) (b : FVec Ideal S64 .f32) : FVec Ideal S100000x64 .f32 :=
  addf (addf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (res_main_v3 V0))
      (mulf (broadcastInDim S1600000x64 ![0, 1] bcast_S1600000x1_S1600000x64_0_1 (broadcastInDim S1600000x1 ![0] bcast_S1600000_S1600000x1_0 (normR V0)))
        (Host.gather gather_S100000x64_S1600000x1_S1600000x64_1_0_n_n_0_1_164 xl (idxSrc V0))))
    (mulf (broadcastInDim S100000x64 ![0, 1] bcast_S100000x1_S100000x64_0_1 (broadcastInDim S100000x1 ![0] bcast_S100000_S100000x1_0 (res_main_v12 V0))) xl))
    (broadcastInDim S100000x64 ![0, 1] bcast_S1x64_S100000x64_0_1 (broadcastInDim S1x64 ![1] bcast_S64_S1x64_1 b))

theorem res_main_v62_eq : res_main_v62 V0
    = Host.dotGeneral (φ₂ := .f32) dot_S100000x128_S128x128_S100000x128_1_0_0_1_n_n none (geluR128 (res_main_v48 V0)) (V0 (Proc.devRef .tc main_arg5) : FVec Ideal S128x128 .f32) := rfl

theorem res_main_v97_eq : res_main_v97 V0 = preAct128 V0 (res_main_v62 V0) (V0 (Proc.devRef .tc main_arg6)) := rfl

theorem res_main_v111_eq : res_main_v111 V0
    = Host.dotGeneral (φ₂ := .f32) dot_S100000x128_S128x64_S100000x64_1_0_0_1_n_n none (geluR128 (res_main_v97 V0)) (V0 (Proc.devRef .tc main_arg7) : FVec Ideal S128x64 .f32) := rfl

theorem res_main_v146_eq : res_main_v146 V0 = preAct64 V0 (res_main_v111 V0) (V0 (Proc.devRef .tc main_arg8)) := rfl

/-- The reference's result: the last layer's activations summed per graph, over the graph's node count (at least 1). -/
def resultR : FVec Ideal S256x64 .f32 :=
  Host.divf (Host.scatterAdd scatter_S256x64_S100000x1_S100000x64_1_0_0_1 (broadcastInDim S256x64 ![] bcast_S_S256x64 (constant S_ .f32 0x00000000#32))
      (broadcastInDim S100000x1 ![0] bcast_S100000_S100000x1_0 (V0 (Proc.devRef .tc main_arg2))) (geluR64 (res_main_v146 V0)))
    (broadcastInDim S256x64 ![0, 1] bcast_S256x1_S256x64_0_1 (broadcastInDim S256x1 ![0] bcast_S256_S256x1_0
      (maximumf (Host.scatterAdd scatter_S256_S100000x1_S100000_n_0_0_1 (broadcastInDim S256 ![] bcast_S_S256 (constant S_ .f32 0x00000000#32))
          (broadcastInDim S100000x1 ![0] bcast_S100000_S100000x1_0 (V0 (Proc.devRef .tc main_arg2))) (broadcastInDim S100000 ![] bcast_S_S100000 (constant S_ .f32 0x3F800000#32)))
        (broadcastInDim S256 ![] bcast_S_S256 (constant S_ .f32 0x3F800000#32)))))

end Cert.Bridge

end
-- ==== Proof.Spec.lean ====
/-
  The arithmetic of one graph-convolution layer, as functions on whole arrays of extended reals.

  A layer takes node features X [N, K], a weight W [K, M], a bias row b [1, M], the reciprocal degree as a column
  d [N, 1] and the edge normalisation as a column [E, 1]. Its dense part is the product X·W (`lin`) and the
  self-loop term (X·W)·d + b (`selfTerm`); every edge carries the gathered row scaled by its normalisation
  (`msg`); and a node's output is the tanh form of GELU applied to the scattered sum plus the self-loop term
  (`comb`, with `gel` its scalar form). Each function's value at a row depends on that row of its row-indexed
  operands only, which is what lets a row block of the result be computed from the same row block of the operands.
-/
import Idealize.ShloMosaic.PureOps.Ideal
import Idealize.ShloMosaic.Lib.ValueIdx

noncomputable section

namespace Cert.Gcn

open Idealize.ShloMosaic Idealize.ShloMosaic.ValueIdx

variable {N K M : Nat}

/-- The matrix product X·W at an index: the sum over the contracted axis. -/
def lin (X : FVec Ideal ⟨2, ![N, K]⟩ .f32) (W : FVec Ideal ⟨2, ![K, M]⟩ .f32) : FVec Ideal ⟨2, ![N, M]⟩ .f32 :=
  fun i => ∑ k : Fin K, X (ix2 (i 0) k) * W (ix2 k (i 1))

/-- The self-loop term (X·W)·d + b: the product's row scaled by the row's reciprocal degree, plus the bias. -/
def selfTerm (X : FVec Ideal ⟨2, ![N, K]⟩ .f32) (W : FVec Ideal ⟨2, ![K, M]⟩ .f32)
    (b : FVec Ideal ⟨2, ![1, M]⟩ .f32) (d : FVec Ideal ⟨2, ![N, 1]⟩ .f32) : FVec Ideal ⟨2, ![N, M]⟩ .f32 :=
  fun i => lin X W i * d (ix2 (i 0) 0) + b (ix2 0 (i 1))

/-- An edge's message: its gathered feature row scaled by the edge's normalisation. -/
def msg (xs : FVec Ideal ⟨2, ![N, M]⟩ .f32) (nrm : FVec Ideal ⟨2, ![N, 1]⟩ .f32) : FVec Ideal ⟨2, ![N, M]⟩ .f32 :=
  fun i => nrm (ix2 (i 0) 0) * xs i

/-- The tanh form of GELU on one extended real: x · (½ · (1 + tanh (c₁ · (x + c₂ · x³)))), the cube taken as
    x · (x · x) and the constants kept as their single-precision words. -/
def gel (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- A node's output: GELU of the aggregated messages plus the self-loop term. -/
def comb (a s : FVec Ideal ⟨2, ![N, M]⟩ .f32) : FVec Ideal ⟨2, ![N, M]⟩ .f32 :=
  fun i => gel (a i + s i)

end Cert.Gcn

end
-- ==== Proof.RefBridge.lean ====
/-
  The layer's arithmetic against the forms in which the reference composes the same values, as identities between
  whole arrays of extended reals.

  The reference's matrix product, contracting the columns of X with the rows of W, is the sum over the contracted
  coordinate (`dot128_eq`, `dot64_eq`). An edge's message, the normalisation read as a column times the gathered row,
  is the product of the normalisation broadcast along every column with the gathered rows (`msg128_eq`, `msg64_eq`):
  a vector cast to a column and the same vector broadcast to a column hold the same entry in each row. A node's
  output, GELU of the aggregate plus the self-loop term (X·W)·d + b, is the reference's chain applied to
  (aggregate + d·(X·W)) + b (`layer128_eq`, `layer64_eq`): the two arguments differ by commutativity of the product and
  associativity of the sum, the two cubes x·(x·x) and (x·x)·x by associativity of the product; no distributive law and
  no finiteness is used, and the constants stay the same single-precision words on both sides.
-/
import proofs.«409755_j40252433498737_1_alg».proof.Proof.RefTerms
import proofs.«409755_j40252433498737_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StackMember

set_option maxRecDepth 8192

noncomputable section

namespace Cert.Bridge

open Idealize.ShloMosaic Idealize.ShloMosaic.TcCoe Idealize.ShloMosaic.ValueIdx Idealize.SL.Sem
open Cert.ReferenceIdeal Cert.ReferenceIdeal.Gen Cert.ReferenceIdeal.Value

/-! ## Reading the layout operations at an index -/

section Layout
variable {α : Type} {N M : Nat}

/-- A vector of length N laid out as a column [N, 1] by a cast reads, at row p, the vector's entry p: both sit at
    row-major position p. -/
private theorem castCol_apply (v : (⟨1, ![N]⟩ : Shape).Idx → α) (h : (⟨1, ![N]⟩ : Shape).ShapeCasts ⟨2, ![N, 1]⟩)
    (p : Fin N) (z : Fin 1) : shapeCast ⟨2, ![N, 1]⟩ v h (ix2 p z) = v (ix1 p) := by
  refine shapeCast_apply v h (ix2 p z) (ix1 p) ?_
  rw [Shape.rowMajor_val_one, Shape.rowMajor_val_two]
  show p.val = p.val * 1 + z.val
  omega

/-- A vector of length M laid out as a row [1, M] by a cast reads, at column q, the vector's entry q. -/
private theorem castRow_apply (v : (⟨1, ![M]⟩ : Shape).Idx → α) (h : (⟨1, ![M]⟩ : Shape).ShapeCasts ⟨2, ![1, M]⟩)
    (z : Fin 1) (q : Fin M) : shapeCast ⟨2, ![1, M]⟩ v h (ix2 z q) = v (ix1 q) := by
  refine shapeCast_apply v h (ix2 z q) (ix1 q) ?_
  rw [Shape.rowMajor_val_one, Shape.rowMajor_val_two]
  show q.val = z.val * M + q.val
  have : z.val = 0 := by omega
  rw [this]; omega

/-- A vector of length N broadcast to a column and the column to every column of [N, M] reads, at (p, q), entry p. -/
private theorem bcastCol_apply (hN : N ≠ 1) (v : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, M]⟩ ![0, 1]) (p : Fin N) (q : Fin M) :
    broadcastInDim ⟨2, ![N, M]⟩ ![0, 1] h2 (broadcastInDim ⟨2, ![N, 1]⟩ ![0] h1 v) (ix2 p q) = v (ix1 p) := by
  rw [broadcastInDim_apply ![0, 1] h2 _ (ix2 p q) (ix2 p 0) (fun a => by
    match a with
    | ⟨0, _⟩ => exact (if_neg hN).symm
    | ⟨1, _⟩ => exact (if_pos rfl).symm)]
  exact broadcastInDim_apply ![0] h1 v (ix2 p 0) (ix1 p) (fun a => by
    match a with
    | ⟨0, _⟩ => exact (if_neg hN).symm)

/-- A vector of length M broadcast to a row and the row to every row of [N, M] reads, at (p, q), entry q. -/
private theorem bcastRow_apply (hM : M ≠ 1) (v : (⟨1, ![M]⟩ : Shape).Idx → α)
    (h1 : (⟨1, ![M]⟩ : Shape).BroadcastsInDim ⟨2, ![1, M]⟩ ![1])
    (h2 : (⟨2, ![1, M]⟩ : Shape).BroadcastsInDim ⟨2, ![N, M]⟩ ![0, 1]) (p : Fin N) (q : Fin M) :
    broadcastInDim ⟨2, ![N, M]⟩ ![0, 1] h2 (broadcastInDim ⟨2, ![1, M]⟩ ![1] h1 v) (ix2 p q) = v (ix1 q) := by
  rw [broadcastInDim_apply ![0, 1] h2 _ (ix2 p q) (ix2 0 q) (fun a => by
    match a with
    | ⟨0, _⟩ => exact (if_pos rfl).symm
    | ⟨1, _⟩ => exact (if_neg hM).symm)]
  exact broadcastInDim_apply ![1] h1 v (ix2 0 q) (ix1 q) (fun a => by
    match a with
    | ⟨0, _⟩ => exact (if_neg hM).symm)

end Layout

/-! ## The matrix product -/

theorem dot128_eq (X : FVec Ideal S100000x128 .f32) (W : FVec Ideal S128x128 .f32) :
    Host.dotGeneral dot_S100000x128_S128x128_S100000x128_1_0_0_1_n_n none X W = Cert.Gcn.lin X W := by
  funext i
  obtain ⟨p, q, rfl⟩ : ∃ p q, i = ix2 p q := ⟨i 0, i 1, eq_ix2 i⟩
  -- the record contracts axis 1 of the left operand with axis 0 of the right one: the plain product's record
  have hD : dot_S100000x128_S128x128_S100000x128_1_0_0_1_n_n = DotDims.plain 100000 128 128 := rfl
  rw [hD]
  exact StackMember.dotGeneral_plain_apply none X W p q

theorem dot64_eq (X : FVec Ideal S100000x128 .f32) (W : FVec Ideal S128x64 .f32) :
    Host.dotGeneral dot_S100000x128_S128x64_S100000x64_1_0_0_1_n_n none X W = Cert.Gcn.lin X W := by
  funext i
  obtain ⟨p, q, rfl⟩ : ∃ p q, i = ix2 p q := ⟨i 0, i 1, eq_ix2 i⟩
  have hD : dot_S100000x128_S128x64_S100000x64_1_0_0_1_n_n = DotDims.plain 100000 128 64 := rfl
  rw [hD]
  exact StackMember.dotGeneral_plain_apply none X W p q

/-! ## An edge's message -/

theorem msg128_eq (nrm : FVec Ideal S1600000 .f32) (xs : FVec Ideal S1600000x128 .f32) (h : S1600000.ShapeCasts S1600000x1) :
    Cert.Gcn.msg xs (shapeCast S1600000x1 nrm h)
      = mulf (broadcastInDim S1600000x128 ![0, 1] bcast_S1600000x1_S1600000x128_0_1 (broadcastInDim S1600000x1 ![0] bcast_S1600000_S1600000x1_0 nrm)) xs := by
  funext i
  obtain ⟨p, q, rfl⟩ : ∃ p q, i = ix2 p q := ⟨i 0, i 1, eq_ix2 i⟩
  show shapeCast S1600000x1 nrm h (ix2 p 0) * xs (ix2 p q) = broadcastInDim S1600000x128 ![0, 1] _ (broadcastInDim S1600000x1 ![0] _ nrm) (ix2 p q) * xs (ix2 p q)
  rw [castCol_apply nrm h p 0, bcastCol_apply (by decide) nrm _ _ p q]

theorem msg64_eq (nrm : FVec Ideal S1600000 .f32) (xs : FVec Ideal S1600000x64 .f32) (h : S1600000.ShapeCasts S1600000x1) :
    Cert.Gcn.msg xs (shapeCast S1600000x1 nrm h)
      = mulf (broadcastInDim S1600000x64 ![0, 1] bcast_S1600000x1_S1600000x64_0_1 (broadcastInDim S1600000x1 ![0] bcast_S1600000_S1600000x1_0 nrm)) xs := by
  funext i
  obtain ⟨p, q, rfl⟩ : ∃ p q, i = ix2 p q := ⟨i 0, i 1, eq_ix2 i⟩
  show shapeCast S1600000x1 nrm h (ix2 p 0) * xs (ix2 p q) = broadcastInDim S1600000x64 ![0, 1] _ (broadcastInDim S1600000x1 ![0] _ nrm) (ix2 p q) * xs (ix2 p q)
  rw [castCol_apply nrm h p 0, bcastCol_apply (by decide) nrm _ _ p q]

/-! ## A node's output -/

/-- The tanh form of GELU on one extended real with the cube taken as (x · x) · x: the scalar form of the reference's
    whole-array chain. -/
private def gelR (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * ((y * y) * y)))))

/-- The two scalar forms agree: the arguments by commutativity of the product and associativity of the sum, the
    cubes by associativity of the product. -/
private theorem gel_eq_gelR (a l d b : EReal) : Cert.Gcn.gel (a + (l * d + b)) = gelR ((a + d * l) + b) := by
  have e : a + (l * d + b) = (a + d * l) + b := by rw [mul_comm l d, add_assoc]
  unfold Cert.Gcn.gel gelR
  rw [e, mul_assoc ((a + d * l) + b) ((a + d * l) + b) ((a + d * l) + b)]

/-- The reference's whole-array chain read at an index is the scalar form at the entry. -/
private theorem geluR128_apply (Y : FVec Ideal S100000x128 .f32) (i : S100000x128.Idx) : geluR128 Y i = gelR (Y i) := rfl

private theorem geluR64_apply (Y : FVec Ideal S100000x64 .f32) (i : S100000x64.Idx) : geluR64 Y i = gelR (Y i) := rfl

theorem layer128_eq (agg X : FVec Ideal S100000x128 .f32) (W : FVec Ideal S128x128 .f32) (dinv : FVec Ideal S100000 .f32) (b : FVec Ideal S128 .f32)
    (h1 : S100000.ShapeCasts S100000x1) (h2 : S128.ShapeCasts S1x128) :
    Cert.Gcn.comb agg (Cert.Gcn.selfTerm X W (shapeCast S1x128 b h2) (shapeCast S100000x1 dinv h1))
      = geluR128 (addf (addf agg (mulf (broadcastInDim S100000x128 ![0, 1] bcast_S100000x1_S100000x128_0_1 (broadcastInDim S100000x1 ![0] bcast_S100000_S100000x1_0 dinv)) (Cert.Gcn.lin X W)))
          (broadcastInDim S100000x128 ![0, 1] bcast_S1x128_S100000x128_0_1 (broadcastInDim S1x128 ![1] bcast_S128_S1x128_1 b))) := by
  funext i
  obtain ⟨p, q, rfl⟩ : ∃ p q, i = ix2 p q := ⟨i 0, i 1, eq_ix2 i⟩
  rw [geluR128_apply]
  show Cert.Gcn.gel (agg (ix2 p q) + (Cert.Gcn.lin X W (ix2 p q) * shapeCast S100000x1 dinv h1 (ix2 p 0) + shapeCast S1x128 b h2 (ix2 0 q)))
    = gelR ((agg (ix2 p q) + broadcastInDim S100000x128 ![0, 1] _ (broadcastInDim S100000x1 ![0] _ dinv) (ix2 p q) * Cert.Gcn.lin X W (ix2 p q))
        + broadcastInDim S100000x128 ![0, 1] _ (broadcastInDim S1x128 ![1] _ b) (ix2 p q))
  rw [castCol_apply dinv h1 p 0, castRow_apply b h2 0 q, bcastCol_apply (by decide) dinv _ _ p q, bcastRow_apply (by decide) b _ _ p q]
  exact gel_eq_gelR _ _ _ _

theorem layer64_eq (agg : FVec Ideal S100000x64 .f32) (X : FVec Ideal S100000x128 .f32) (W : FVec Ideal S128x64 .f32) (dinv : FVec Ideal S100000 .f32) (b : FVec Ideal S64 .f32)
    (h1 : S100000.ShapeCasts S100000x1) (h2 : S64.ShapeCasts S1x64) :
    Cert.Gcn.comb agg (Cert.Gcn.selfTerm X W (shapeCast S1x64 b h2) (shapeCast S100000x1 dinv h1))
      = geluR64 (addf (addf agg (mulf (broadcastInDim S100000x64 ![0, 1] bcast_S100000x1_S100000x64_0_1 (broadcastInDim S100000x1 ![0] bcast_S100000_S100000x1_0 dinv)) (Cert.Gcn.lin X W)))
          (broadcastInDim S100000x64 ![0, 1] bcast_S1x64_S100000x64_0_1 (broadcastInDim S1x64 ![1] bcast_S64_S1x64_1 b))) := by
  funext i
  obtain ⟨p, q, rfl⟩ : ∃ p q, i = ix2 p q := ⟨i 0, i 1, eq_ix2 i⟩
  rw [geluR64_apply]
  show Cert.Gcn.gel (agg (ix2 p q) + (Cert.Gcn.lin X W (ix2 p q) * shapeCast S100000x1 dinv h1 (ix2 p 0) + shapeCast S1x64 b h2 (ix2 0 q)))
    = gelR ((agg (ix2 p q) + broadcastInDim S100000x64 ![0, 1] _ (broadcastInDim S100000x1 ![0] _ dinv) (ix2 p q) * Cert.Gcn.lin X W (ix2 p q))
        + broadcastInDim S100000x64 ![0, 1] _ (broadcastInDim S1x64 ![1] _ b) (ix2 p q))
  rw [castCol_apply dinv h1 p 0, castRow_apply b h2 0 q, bcastCol_apply (by decide) dinv _ _ p q, bcastRow_apply (by decide) b _ _ p q]
  exact gel_eq_gelR _ _ _ _

end Cert.Bridge

end
-- ==== Proof.PreTake.lean ====
/-
  Where the two programs differ: a take of rows. One program wraps a negative row index by the node count and
  gathers; the other also masks every row whose wrapped index falls outside [0, 99999] and fills it with a NaN.
  When every source endpoint of the edge list is a node index (at least 0, below 100000) — which the precondition's
  last conjunct says, once its all-reduction by `and` and its two signed compares are read back — the mask is all
  ones, the select keeps every gathered row, and the two takes agree, for each of the three layers.
-/
import proofs.«409755_j40252433498737_1_alg».proof.Proof.Gen.KernelIdeal.Frame
import proofs.«409755_j40252433498737_1_alg».proof.Proof.Gen.Pre_finite_inputs
import proofs.«409755_j40252433498737_1_alg».proof.Defs
import proofs.«409755_j40252433498737_1_alg».proof.Proof.RefTerms
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)
variable (V0 : Valuation Cert.ReferenceIdeal.τ Cert.ReferenceIdeal.sig (Elt Ideal))

/-- Every entry of an endpoint list is a node index: at least 0 and below 100000, read as a signed word. -/
def SrcOK (s : IVec S1600000 32) : Prop :=
  ∀ e : Fin 1600000, 0 ≤ (s (ix1 e)).toInt ∧ (s (ix1 e)).toInt < 100000

/-- A left fold by `and` from 1 over a list whose every entry is 1 ends at 1. -/
private theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l (fun n hn => h n (List.mem_cons_of_mem _ hn))

/-- A reduction by `and`, from an initial value of ones, of an array of ones is an array of ones. -/
private theorem reduce_andi_ones {s t u : Shape} {axes : List (Fin s.rank)} (x : s.Idx → BitVec 1)
    (init : u.Idx → BitVec 1) (hr : s.ReducesTo axes t) (hu : 0 < u.numel) (hx : ∀ i, x i = 1#1)
    (hi : ∀ k, init k = 1#1) : Host.reduce IntOp.andi x init hr hu = fun _ => 1#1 := by
  funext j
  rw [Host.reduce_eq_foldl, hi]
  exact foldl_andi_ones x _ (fun n _ => hx n)

private theorem toInt_zero32 : (0#32 : BitVec 32).toInt = 0 := by decide
private theorem toInt_top32 : (99999#32 : BitVec 32).toInt = 99999 := by decide
private theorem toInt_count32 : (100000#32 : BitVec 32).toInt = 100000 := by decide

/-- A nonnegative endpoint is left as it is by the wrap, so a wrapped node index is again a node index. -/
private theorem wrap_ok_ix (s : IVec S1600000 32) (h : SrcOK s) (e : Fin 1600000) :
    0 ≤ (Cert.Bridge.wrapIdx s (ix1 e)).toInt ∧ (Cert.Bridge.wrapIdx s (ix1 e)).toInt ≤ 99999 := by
  have hj := h e
  have hc : ¬ IntOp.cmpi .slt (s (ix1 e)) 0#32 = 1#1 := by
    rw [IntOp.cmpi_slt, toInt_zero32]; omega
  have hw : Cert.Bridge.wrapIdx s (ix1 e) = s (ix1 e) := by
    show Scalar.select (IntOp.cmpi .slt (s (ix1 e)) 0#32) (IntOp.addi (s (ix1 e)) 100000#32) (s (ix1 e)) = s (ix1 e)
    rw [ValueIdx.eq_zero_of_ne_one hc, ValueIdx.select_zero]
  rw [hw]; omega

private theorem wrap_ok (s : IVec S1600000 32) (h : SrcOK s) (j : S1600000.Idx) :
    0 ≤ (Cert.Bridge.wrapIdx s j).toInt ∧ (Cert.Bridge.wrapIdx s j).toInt ≤ 99999 := by
  rw [eq_ix1 j]; exact wrap_ok_ix s h _

/-- The row mask of a take: when every start index lies in [0, 99999] the two compares, their `and`, and the
    `and`-reduction over the unit axis are all ones, and the select keeps the gathered rows. -/
private theorem take_select {M : Nat} {α : Type}
    (bc : S1600000.BroadcastsInDim (⟨2, ![1600000, M]⟩ : Shape) ![0])
    (w : IVec S1600000 32) (hw : ∀ j, 0 ≤ (w j).toInt ∧ (w j).toInt ≤ 99999)
    (Z N : IVec S1600000x1 32) (hZ : ∀ j, Z j = 0#32) (hN : ∀ j, N j = 99999#32)
    (init : IVec S_ 1) (hinit : ∀ k, init k = 1#1)
    (A B : (⟨2, ![1600000, M]⟩ : Shape).Idx → α) :
    select (broadcastInDim (⟨2, ![1600000, M]⟩ : Shape) ![0] bc
      (Host.reduce IntOp.andi
        (andi (cmpi .sge (broadcastInDim S1600000x1 ![0] bcast_S1600000_S1600000x1_0 w) Z)
              (cmpi .sle (broadcastInDim S1600000x1 ![0] bcast_S1600000_S1600000x1_0 w) N))
        init reducesTo_S1600000x1_S1600000_d1 h_S_)) A B = A := by
  have hm : Host.reduce IntOp.andi
        (andi (cmpi .sge (broadcastInDim S1600000x1 ![0] bcast_S1600000_S1600000x1_0 w) Z)
              (cmpi .sle (broadcastInDim S1600000x1 ![0] bcast_S1600000_S1600000x1_0 w) N))
        init reducesTo_S1600000x1_S1600000_d1 h_S_ = fun _ => 1#1 := by
    refine reduce_andi_ones _ _ _ _ (fun j => ?_) hinit
    show IntOp.andi (IntOp.cmpi .sge (w _) (Z j)) (IntOp.cmpi .sle (w _) (N j)) = 1#1
    rw [hZ, hN, IntOp.andi_eq_one, IntOp.cmpi_sge, IntOp.cmpi_sle, toInt_zero32, toInt_top32]
    exact hw _
  rw [hm]
  funext j
  exact ValueIdx.select_one _ _

/-- Moving contents to a typed buffer's own type and back is the identity. -/
private theorem ofBuf_toBuf {Val : EltTy → Type} {T : BufTy} (x : TRef sig T) (v : T.Contents Val) :
    x.ofBuf (x.toBuf v) = v := by
  obtain ⟨r, rfl, _, _⟩ := x
  rfl

/-- Reading a buffer at its own type is the identity. -/
private theorem ofBuf_lit {Val : EltTy → Type} (r : Ref sig .tc) (h1 : r.ty = r.ty) (h2 : r.space ≠ .host)
    (h3 : r.isScoped = false) (v : r.ty.Contents Val) : (⟨r, h1, h2, h3⟩ : TRef sig r.ty).ofBuf v = v := rfl

/-- Writing a buffer at its own type is the identity. -/
private theorem toBuf_lit {Val : EltTy → Type} (r : Ref sig .tc) (h1 : r.ty = r.ty) (h2 : r.space ≠ .host)
    (h3 : r.isScoped = false) (v : r.ty.Contents Val) : (⟨r, h1, h2, h3⟩ : TRef sig r.ty).toBuf v = v := rfl

theorem src_ok (hpre : Cert.Pre_KernelIdeal m) (hA : Cert.Bridge.Agree m c V0) :
    SrcOK (Cert.ReferenceIdeal.Value.res_main_v1 V0) := by
  have h := congrFun (hpre c) ValueIdx.ix0
  unfold Cert.Pre_finite_inputs.fn Cert.Pre_finite_inputs.fn_part1 Cert.Pre_finite_inputs.fn_part2 at h
  have h2 := (IntOp.andi_eq_one.1 h).2
  haveI : Subsingleton Cert.Pre_finite_inputs.S_.Idx := ⟨fun a b => funext fun d => d.elim0⟩
  intro e
  have h3 := Host.reduce_andi_all _ _ _ _ _ h2 (ix1 e)
  obtain ⟨h4, h5⟩ := IntOp.andi_eq_one.1 h3
  have h6 : (0#32 : BitVec 32).toInt ≤ BitVec.toInt _ := IntOp.cmpi_sge.1 h4
  have h7 : BitVec.toInt _ < (100000#32 : BitVec 32).toInt := IntOp.cmpi_slt.1 h5
  rw [toInt_zero32] at h6
  rw [toInt_count32] at h7
  unfold Cert.ReferenceIdeal.Value.res_main_v1
  rw [hA.a1]
  exact ⟨h6, h7⟩

set_option maxHeartbeats 2000000 in
theorem W3_v32 (XL : FVec Ideal S100000x128 .f32) (hx : W2 m ρ c (Proc.devRef .tc main_v31_0) = XL)
    (s : IVec S1600000 32) (hs : W2 m ρ c (Proc.devRef .tc main_v1) = s) (h : SrcOK s) :
    W3 m ρ c (Proc.devRef .tc main_v32)
      = Host.gather Cert.ReferenceIdeal.gather_S100000x128_S1600000x1_S1600000x128_1_0_n_n_0_1_1128 XL
          (broadcastInDim S1600000x1 ![0] bcast_S1600000_S1600000x1_0 (Cert.Bridge.wrapIdx s)) := by
  show StableHlo.after hostOps1 _ (Proc.devRef .tc main_v32) = _
  after_results_simp
  rw [hx, hs]
  repeat rw [ofBuf_toBuf]
  repeat rw [ofBuf_lit]
  rw [toBuf_lit]
  refine (take_select _ (Cert.Bridge.wrapIdx s) (wrap_ok s h) _ _ (fun _ => rfl) (fun _ => rfl) _ (fun _ => rfl) _ _).trans ?_
  rfl

set_option maxHeartbeats 2000000 in
theorem W9_v40 (XL : FVec Ideal S100000x128 .f32) (hx : W8 m ρ c (Proc.devRef .tc main_v39_0) = XL)
    (s : IVec S1600000 32) (hs : W8 m ρ c (Proc.devRef .tc main_v1) = s) (h : SrcOK s) :
    W9 m ρ c (Proc.devRef .tc main_v40)
      = Host.gather Cert.ReferenceIdeal.gather_S100000x128_S1600000x1_S1600000x128_1_0_n_n_0_1_1128 XL
          (broadcastInDim S1600000x1 ![0] bcast_S1600000_S1600000x1_0 (Cert.Bridge.wrapIdx s)) := by
  show StableHlo.after hostOps4 _ (Proc.devRef .tc main_v40) = _
  after_results_simp
  rw [hx, hs]
  repeat rw [ofBuf_toBuf]
  repeat rw [ofBuf_lit]
  rw [toBuf_lit]
  refine (take_select _ (Cert.Bridge.wrapIdx s) (wrap_ok s h) _ _ (fun _ => rfl) (fun _ => rfl) _ (fun _ => rfl) _ _).trans ?_
  rfl

set_option maxHeartbeats 2000000 in
theorem W15_v48 (XL : FVec Ideal S100000x64 .f32) (hx : W14 m ρ c (Proc.devRef .tc main_v47_0) = XL)
    (s : IVec S1600000 32) (hs : W14 m ρ c (Proc.devRef .tc main_v1) = s) (h : SrcOK s) :
    W15 m ρ c (Proc.devRef .tc main_v48)
      = Host.gather Cert.ReferenceIdeal.gather_S100000x64_S1600000x1_S1600000x64_1_0_n_n_0_1_164 XL
          (broadcastInDim S1600000x1 ![0] bcast_S1600000_S1600000x1_0 (Cert.Bridge.wrapIdx s)) := by
  show StableHlo.after hostOps7 _ (Proc.devRef .tc main_v48) = _
  after_results_simp
  rw [hx, hs]
  repeat rw [ofBuf_toBuf]
  repeat rw [ofBuf_lit]
  rw [toBuf_lit]
  refine (take_select _ (Cert.Bridge.wrapIdx s) (wrap_ok s h) _ _ (fun _ => rfl) (fun _ => rfl) _ (fun _ => rfl) _ _).trans ?_
  rfl

end Cert.KernelIdeal.Val

end
-- ==== Proof.FoldKeep.lean ====
import proofs.«409755_j40252433498737_1_alg».proof.Proof.Gen.KernelIdeal.Frame

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- A stretch of host operations none of which writes the buffer leaves it as it was: each operation's written
    buffer is another one. -/
macro "host_keep" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-- `main_arg0` is written by no segment between boundaries 0 and 1. -/
theorem keep_main_arg0_0_1 : W1 m ρ c (Proc.devRef .tc main_arg0) = W0 m ρ c (Proc.devRef .tc main_arg0) :=
  calc W1 m ρ c (Proc.devRef .tc main_arg0)
    _ = W0 m ρ c (Proc.devRef .tc main_arg0) := by host_keep hostOps0

/-- `main_arg3` is written by no segment between boundaries 0 and 1. -/
theorem keep_main_arg3_0_1 : W1 m ρ c (Proc.devRef .tc main_arg3) = W0 m ρ c (Proc.devRef .tc main_arg3) :=
  calc W1 m ρ c (Proc.devRef .tc main_arg3)
    _ = W0 m ρ c (Proc.devRef .tc main_arg3) := by host_keep hostOps0

/-- `main_arg5` is written by no segment between boundaries 0 and 7. -/
theorem keep_main_arg5_0_7 : W7 m ρ c (Proc.devRef .tc main_arg5) = W0 m ρ c (Proc.devRef .tc main_arg5) :=
  calc W7 m ρ c (Proc.devRef .tc main_arg5)
    _ = W6 m ρ c (Proc.devRef .tc main_arg5) := by host_keep hostOps3
    _ = W5 m ρ c (Proc.devRef .tc main_arg5) := W6_of_ne m ρ c main_arg5 (by decide)
    _ = W4 m ρ c (Proc.devRef .tc main_arg5) := by host_keep hostOps2
    _ = W3 m ρ c (Proc.devRef .tc main_arg5) := W4_of_ne m ρ c main_arg5 (by decide)
    _ = W2 m ρ c (Proc.devRef .tc main_arg5) := by host_keep hostOps1
    _ = W1 m ρ c (Proc.devRef .tc main_arg5) := W2_of_ne m ρ c main_arg5 (by decide)
    _ = W0 m ρ c (Proc.devRef .tc main_arg5) := by host_keep hostOps0

/-- `main_arg6` is written by no segment between boundaries 0 and 6. -/
theorem keep_main_arg6_0_6 : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keep hostOps2
    _ = W3 m ρ c (Proc.devRef .tc main_arg6) := W4_of_ne m ρ c main_arg6 (by decide)
    _ = W2 m ρ c (Proc.devRef .tc main_arg6) := by host_keep hostOps1
    _ = W1 m ρ c (Proc.devRef .tc main_arg6) := W2_of_ne m ρ c main_arg6 (by decide)
    _ = W0 m ρ c (Proc.devRef .tc main_arg6) := by host_keep hostOps0

/-- `main_arg7` is written by no segment between boundaries 0 and 13. -/
theorem keep_main_arg7_0_13 : W13 m ρ c (Proc.devRef .tc main_arg7) = W0 m ρ c (Proc.devRef .tc main_arg7) :=
  calc W13 m ρ c (Proc.devRef .tc main_arg7)
    _ = W12 m ρ c (Proc.devRef .tc main_arg7) := by host_keep hostOps6
    _ = W11 m ρ c (Proc.devRef .tc main_arg7) := W12_of_ne m ρ c main_arg7 (by decide)
    _ = W10 m ρ c (Proc.devRef .tc main_arg7) := by host_keep hostOps5
    _ = W9 m ρ c (Proc.devRef .tc main_arg7) := W10_of_ne m ρ c main_arg7 (by decide)
    _ = W8 m ρ c (Proc.devRef .tc main_arg7) := by host_keep hostOps4
    _ = W7 m ρ c (Proc.devRef .tc main_arg7) := W8_of_ne m ρ c main_arg7 (by decide)
    _ = W6 m ρ c (Proc.devRef .tc main_arg7) := by host_keep hostOps3
    _ = W5 m ρ c (Proc.devRef .tc main_arg7) := W6_of_ne m ρ c main_arg7 (by decide)
    _ = W4 m ρ c (Proc.devRef .tc main_arg7) := by host_keep hostOps2
    _ = W3 m ρ c (Proc.devRef .tc main_arg7) := W4_of_ne m ρ c main_arg7 (by decide)
    _ = W2 m ρ c (Proc.devRef .tc main_arg7) := by host_keep hostOps1
    _ = W1 m ρ c (Proc.devRef .tc main_arg7) := W2_of_ne m ρ c main_arg7 (by decide)
    _ = W0 m ρ c (Proc.devRef .tc main_arg7) := by host_keep hostOps0

/-- `main_arg8` is written by no segment between boundaries 0 and 12. -/
theorem keep_main_arg8_0_12 : W12 m ρ c (Proc.devRef .tc main_arg8) = W0 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := by host_keep hostOps5
    _ = W9 m ρ c (Proc.devRef .tc main_arg8) := W10_of_ne m ρ c main_arg8 (by decide)
    _ = W8 m ρ c (Proc.devRef .tc main_arg8) := by host_keep hostOps4
    _ = W7 m ρ c (Proc.devRef .tc main_arg8) := W8_of_ne m ρ c main_arg8 (by decide)
    _ = W6 m ρ c (Proc.devRef .tc main_arg8) := by host_keep hostOps3
    _ = W5 m ρ c (Proc.devRef .tc main_arg8) := W6_of_ne m ρ c main_arg8 (by decide)
    _ = W4 m ρ c (Proc.devRef .tc main_arg8) := by host_keep hostOps2
    _ = W3 m ρ c (Proc.devRef .tc main_arg8) := W4_of_ne m ρ c main_arg8 (by decide)
    _ = W2 m ρ c (Proc.devRef .tc main_arg8) := by host_keep hostOps1
    _ = W1 m ρ c (Proc.devRef .tc main_arg8) := W2_of_ne m ρ c main_arg8 (by decide)
    _ = W0 m ρ c (Proc.devRef .tc main_arg8) := by host_keep hostOps0

/-- `main_arg2` is written by no segment between boundaries 0 and 18. -/
theorem keep_main_arg2_0_18 : W18 m ρ c (Proc.devRef .tc main_arg2) = W0 m ρ c (Proc.devRef .tc main_arg2) :=
  calc W18 m ρ c (Proc.devRef .tc main_arg2)
    _ = W17 m ρ c (Proc.devRef .tc main_arg2) := W18_of_ne m ρ c main_arg2 (by decide)
    _ = W16 m ρ c (Proc.devRef .tc main_arg2) := by host_keep hostOps8
    _ = W15 m ρ c (Proc.devRef .tc main_arg2) := W16_of_ne m ρ c main_arg2 (by decide)
    _ = W14 m ρ c (Proc.devRef .tc main_arg2) := by host_keep hostOps7
    _ = W13 m ρ c (Proc.devRef .tc main_arg2) := W14_of_ne m ρ c main_arg2 (by decide)
    _ = W12 m ρ c (Proc.devRef .tc main_arg2) := by host_keep hostOps6
    _ = W11 m ρ c (Proc.devRef .tc main_arg2) := W12_of_ne m ρ c main_arg2 (by decide)
    _ = W10 m ρ c (Proc.devRef .tc main_arg2) := by host_keep hostOps5
    _ = W9 m ρ c (Proc.devRef .tc main_arg2) := W10_of_ne m ρ c main_arg2 (by decide)
    _ = W8 m ρ c (Proc.devRef .tc main_arg2) := by host_keep hostOps4
    _ = W7 m ρ c (Proc.devRef .tc main_arg2) := W8_of_ne m ρ c main_arg2 (by decide)
    _ = W6 m ρ c (Proc.devRef .tc main_arg2) := by host_keep hostOps3
    _ = W5 m ρ c (Proc.devRef .tc main_arg2) := W6_of_ne m ρ c main_arg2 (by decide)
    _ = W4 m ρ c (Proc.devRef .tc main_arg2) := by host_keep hostOps2
    _ = W3 m ρ c (Proc.devRef .tc main_arg2) := W4_of_ne m ρ c main_arg2 (by decide)
    _ = W2 m ρ c (Proc.devRef .tc main_arg2) := by host_keep hostOps1
    _ = W1 m ρ c (Proc.devRef .tc main_arg2) := W2_of_ne m ρ c main_arg2 (by decide)
    _ = W0 m ρ c (Proc.devRef .tc main_arg2) := by host_keep hostOps0

/-- `main_v1` is written by no segment between boundaries 1 and 2. -/
theorem keep_main_v1_1_2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- `main_v1` is written by no segment between boundaries 2 and 8. -/
theorem keep_main_v1_2_8 : W8 m ρ c (Proc.devRef .tc main_v1) = W2 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keep hostOps3
    _ = W5 m ρ c (Proc.devRef .tc main_v1) := W6_of_ne m ρ c main_v1 (by decide)
    _ = W4 m ρ c (Proc.devRef .tc main_v1) := by host_keep hostOps2
    _ = W3 m ρ c (Proc.devRef .tc main_v1) := W4_of_ne m ρ c main_v1 (by decide)
    _ = W2 m ρ c (Proc.devRef .tc main_v1) := by host_keep hostOps1

/-- `main_v1` is written by no segment between boundaries 8 and 14. -/
theorem keep_main_v1_8_14 : W14 m ρ c (Proc.devRef .tc main_v1) = W8 m ρ c (Proc.devRef .tc main_v1) :=
  calc W14 m ρ c (Proc.devRef .tc main_v1)
    _ = W13 m ρ c (Proc.devRef .tc main_v1) := W14_of_ne m ρ c main_v1 (by decide)
    _ = W12 m ρ c (Proc.devRef .tc main_v1) := by host_keep hostOps6
    _ = W11 m ρ c (Proc.devRef .tc main_v1) := W12_of_ne m ρ c main_v1 (by decide)
    _ = W10 m ρ c (Proc.devRef .tc main_v1) := by host_keep hostOps5
    _ = W9 m ρ c (Proc.devRef .tc main_v1) := W10_of_ne m ρ c main_v1 (by decide)
    _ = W8 m ρ c (Proc.devRef .tc main_v1) := by host_keep hostOps4

/-- `main_v3` is written by no segment between boundaries 1 and 4. -/
theorem keep_main_v3_1_4 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)

/-- `main_v3` is written by no segment between boundaries 4 and 10. -/
theorem keep_main_v3_4_10 : W10 m ρ c (Proc.devRef .tc main_v3) = W4 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keep hostOps4
    _ = W7 m ρ c (Proc.devRef .tc main_v3) := W8_of_ne m ρ c main_v3 (by decide)
    _ = W6 m ρ c (Proc.devRef .tc main_v3) := by host_keep hostOps3
    _ = W5 m ρ c (Proc.devRef .tc main_v3) := W6_of_ne m ρ c main_v3 (by decide)
    _ = W4 m ρ c (Proc.devRef .tc main_v3) := by host_keep hostOps2

/-- `main_v3` is written by no segment between boundaries 10 and 16. -/
theorem keep_main_v3_10_16 : W16 m ρ c (Proc.devRef .tc main_v3) = W10 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := by host_keep hostOps7
    _ = W13 m ρ c (Proc.devRef .tc main_v3) := W14_of_ne m ρ c main_v3 (by decide)
    _ = W12 m ρ c (Proc.devRef .tc main_v3) := by host_keep hostOps6
    _ = W11 m ρ c (Proc.devRef .tc main_v3) := W12_of_ne m ρ c main_v3 (by decide)
    _ = W10 m ρ c (Proc.devRef .tc main_v3) := by host_keep hostOps5

/-- `main_v28` is written by no segment between boundaries 1 and 7. -/
theorem keep_main_v28_1_7 : W7 m ρ c (Proc.devRef .tc main_v28) = W1 m ρ c (Proc.devRef .tc main_v28) :=
  calc W7 m ρ c (Proc.devRef .tc main_v28)
    _ = W6 m ρ c (Proc.devRef .tc main_v28) := by host_keep hostOps3
    _ = W5 m ρ c (Proc.devRef .tc main_v28) := W6_of_ne m ρ c main_v28 (by decide)
    _ = W4 m ρ c (Proc.devRef .tc main_v28) := by host_keep hostOps2
    _ = W3 m ρ c (Proc.devRef .tc main_v28) := W4_of_ne m ρ c main_v28 (by decide)
    _ = W2 m ρ c (Proc.devRef .tc main_v28) := by host_keep hostOps1
    _ = W1 m ρ c (Proc.devRef .tc main_v28) := (W2_arr m ρ c 3).trans (((dat0 (V1 m ρ) c).arrAt_in 3 rfl _).trans (A_eq0 (V1 m ρ) c 3))

/-- `main_v28` is written by no segment between boundaries 7 and 13. -/
theorem keep_main_v28_7_13 : W13 m ρ c (Proc.devRef .tc main_v28) = W7 m ρ c (Proc.devRef .tc main_v28) :=
  calc W13 m ρ c (Proc.devRef .tc main_v28)
    _ = W12 m ρ c (Proc.devRef .tc main_v28) := by host_keep hostOps6
    _ = W11 m ρ c (Proc.devRef .tc main_v28) := W12_of_ne m ρ c main_v28 (by decide)
    _ = W10 m ρ c (Proc.devRef .tc main_v28) := by host_keep hostOps5
    _ = W9 m ρ c (Proc.devRef .tc main_v28) := W10_of_ne m ρ c main_v28 (by decide)
    _ = W8 m ρ c (Proc.devRef .tc main_v28) := by host_keep hostOps4
    _ = W7 m ρ c (Proc.devRef .tc main_v28) := (W8_arr m ρ c 3).trans (((dat3 (V7 m ρ) c).arrAt_in 3 rfl _).trans (A_eq3 (V7 m ρ) c 3))

/-- `main_v29` is written by no segment between boundaries 1 and 3. -/
theorem keep_main_v29_1_3 : W3 m ρ c (Proc.devRef .tc main_v29) = W1 m ρ c (Proc.devRef .tc main_v29) :=
  calc W3 m ρ c (Proc.devRef .tc main_v29)
    _ = W2 m ρ c (Proc.devRef .tc main_v29) := by host_keep hostOps1
    _ = W1 m ρ c (Proc.devRef .tc main_v29) := W2_of_ne m ρ c main_v29 (by decide)

/-- `main_v29` is written by no segment between boundaries 3 and 9. -/
theorem keep_main_v29_3_9 : W9 m ρ c (Proc.devRef .tc main_v29) = W3 m ρ c (Proc.devRef .tc main_v29) :=
  calc W9 m ρ c (Proc.devRef .tc main_v29)
    _ = W8 m ρ c (Proc.devRef .tc main_v29) := by host_keep hostOps4
    _ = W7 m ρ c (Proc.devRef .tc main_v29) := W8_of_ne m ρ c main_v29 (by decide)
    _ = W6 m ρ c (Proc.devRef .tc main_v29) := by host_keep hostOps3
    _ = W5 m ρ c (Proc.devRef .tc main_v29) := W6_of_ne m ρ c main_v29 (by decide)
    _ = W4 m ρ c (Proc.devRef .tc main_v29) := by host_keep hostOps2
    _ = W3 m ρ c (Proc.devRef .tc main_v29) := (W4_arr m ρ c 1).trans (((dat1 (V3 m ρ) c).arrAt_in 1 rfl _).trans (A_eq1 (V3 m ρ) c 1))

/-- `main_v29` is written by no segment between boundaries 9 and 15. -/
theorem keep_main_v29_9_15 : W15 m ρ c (Proc.devRef .tc main_v29) = W9 m ρ c (Proc.devRef .tc main_v29) :=
  calc W15 m ρ c (Proc.devRef .tc main_v29)
    _ = W14 m ρ c (Proc.devRef .tc main_v29) := by host_keep hostOps7
    _ = W13 m ρ c (Proc.devRef .tc main_v29) := W14_of_ne m ρ c main_v29 (by decide)
    _ = W12 m ρ c (Proc.devRef .tc main_v29) := by host_keep hostOps6
    _ = W11 m ρ c (Proc.devRef .tc main_v29) := W12_of_ne m ρ c main_v29 (by decide)
    _ = W10 m ρ c (Proc.devRef .tc main_v29) := by host_keep hostOps5
    _ = W9 m ρ c (Proc.devRef .tc main_v29) := (W10_arr m ρ c 1).trans (((dat4 (V9 m ρ) c).arrAt_in 1 rfl _).trans (A_eq4 (V9 m ρ) c 1))

/-- `main_v31_1` is written by no segment between boundaries 2 and 5. -/
theorem keep_main_v31_1_2_5 : W5 m ρ c (Proc.devRef .tc main_v31_1) = W2 m ρ c (Proc.devRef .tc main_v31_1) :=
  calc W5 m ρ c (Proc.devRef .tc main_v31_1)
    _ = W4 m ρ c (Proc.devRef .tc main_v31_1) := by host_keep hostOps2
    _ = W3 m ρ c (Proc.devRef .tc main_v31_1) := W4_of_ne m ρ c main_v31_1 (by decide)
    _ = W2 m ρ c (Proc.devRef .tc main_v31_1) := by host_keep hostOps1

/-- `main_v39_1` is written by no segment between boundaries 8 and 11. -/
theorem keep_main_v39_1_8_11 : W11 m ρ c (Proc.devRef .tc main_v39_1) = W8 m ρ c (Proc.devRef .tc main_v39_1) :=
  calc W11 m ρ c (Proc.devRef .tc main_v39_1)
    _ = W10 m ρ c (Proc.devRef .tc main_v39_1) := by host_keep hostOps5
    _ = W9 m ρ c (Proc.devRef .tc main_v39_1) := W10_of_ne m ρ c main_v39_1 (by decide)
    _ = W8 m ρ c (Proc.devRef .tc main_v39_1) := by host_keep hostOps4

/-- `main_v47_1` is written by no segment between boundaries 14 and 17. -/
theorem keep_main_v47_1_14_17 : W17 m ρ c (Proc.devRef .tc main_v47_1) = W14 m ρ c (Proc.devRef .tc main_v47_1) :=
  calc W17 m ρ c (Proc.devRef .tc main_v47_1)
    _ = W16 m ρ c (Proc.devRef .tc main_v47_1) := by host_keep hostOps8
    _ = W15 m ρ c (Proc.devRef .tc main_v47_1) := W16_of_ne m ρ c main_v47_1 (by decide)
    _ = W14 m ρ c (Proc.devRef .tc main_v47_1) := by host_keep hostOps7

/-- `main_v37` is written by no segment between boundaries 6 and 7. -/
theorem keep_main_v37_6_7 : W7 m ρ c (Proc.devRef .tc main_v37) = W6 m ρ c (Proc.devRef .tc main_v37) :=
  calc W7 m ρ c (Proc.devRef .tc main_v37)
    _ = W6 m ρ c (Proc.devRef .tc main_v37) := by host_keep hostOps3

/-- `main_v45` is written by no segment between boundaries 12 and 13. -/
theorem keep_main_v45_12_13 : W13 m ρ c (Proc.devRef .tc main_v45) = W12 m ρ c (Proc.devRef .tc main_v45) :=
  calc W13 m ρ c (Proc.devRef .tc main_v45)
    _ = W12 m ρ c (Proc.devRef .tc main_v45) := by host_keep hostOps6

end Cert.KernelIdeal.Val

end
-- ==== Proof.PayLin.lean ====
/-
  The dense part of a graph-convolution layer, for the first layer (5000×128 by 128×128): the arithmetic of the
  linear kernel's two stored values is the layer's product X·W and its self-loop term (X·W)·d + b.

  The product is accumulated into a zero array, so at an index (p, q) it is the bare sum over the contraction index of
  the two operands' entries; the contraction runs over one axis, and the sum is re-indexed by that axis's coordinate
  k, where the left operand is read at (p, k) and the right one at (k, q). A change of float format is the identity on
  extended reals, and a reshape to the same shape is the identity. The self-loop term multiplies the product by the
  reciprocal-degree column laid along every column and adds the bias row laid along every row: read at (p, q) these
  are the column's entry (p, 0) and the row's entry (0, q).
-/
import proofs.«409755_j40252433498737_1_alg».proof.Proof.Gen.KernelIdeal.Skeleton
import proofs.«409755_j40252433498737_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## Layer 0: where the two operands of the product 5000×128 by 128×128 are read -/

/-- The left operand's row coordinate is the result's row. -/
private theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column coordinate is the contraction position. -/
private theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row coordinate is the contraction position. -/
private theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column coordinate is the result's column. -/
private theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## Layer 0: the two stored values -/

/-- The product into the zero accumulator, read at (p, q): the sum over the contracted axis of row p of the left
    operand against column q of the right one. -/
private theorem lin0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  show FloatOps.matmul dot_S5000x128_S128x128_S5000x128_1_0_0_1_n_n none
    (truncf .bf16 x0 bitsLt_bf16_f32 : FVec Ideal S5000x128 .bf16) (truncf .bf16 x1 bitsLt_bf16_f32 : FVec Ideal S128x128 .bf16)
    (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs0_0 _ _
      | ⟨1, _⟩ => exact (lhs0_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs0_0 _ _).trans hk
      | ⟨1, _⟩ => exact rhs0_1 _ _)
  rw [truncf_apply, truncf_apply, el, er]

theorem pay_lin0 (x0 : Vec Ideal S5000x128 .f32) (x1 : Vec Ideal S128x128 .f32) :
    k0_pay1 x0 x1 = Cert.Gcn.lin x0 x1 := by
  funext j
  obtain ⟨p, q, rfl⟩ : ∃ (p : Fin 5000) (q : Fin 128), j = ix2 p q := ⟨j 0, j 1, eq_ix2 j⟩
  exact lin0_apply x0 x1 p q

theorem pay_self0 (x0 : Vec Ideal S5000x128 .f32) (x1 : Vec Ideal S128x128 .f32) (x3 : Vec Ideal S5000x1 .f32) (x2 : Vec Ideal S1x128 .f32) :
    k0_pay2 x0 x1 x3 x2 = Cert.Gcn.selfTerm x0 x1 x2 x3 := by
  funext j
  obtain ⟨p, q, rfl⟩ : ∃ (p : Fin 5000) (q : Fin 128), j = ix2 p q := ⟨j 0, j 1, eq_ix2 j⟩
  unfold k0_pay2
  rw [shapeCast_self, shapeCast_self, pay_lin0]
  show Cert.Gcn.lin x0 x1 (ix2 p q) * broadcastTo S5000x128 x3 broadcasts_S5000x1_S5000x128 (ix2 p q)
      + broadcastTo S5000x128 x2 broadcasts_S1x128_S5000x128 (ix2 p q)
    = Cert.Gcn.lin x0 x1 (ix2 p q) * x3 (ix2 p 0) + x2 (ix2 0 q)
  rw [broadcastTo_apply x3 broadcasts_S5000x1_S5000x128 (ix2 p q) (ix2 p 0) (by
        intro a
        match a with
        | ⟨0, _⟩ => rfl
        | ⟨1, _⟩ => rfl),
    broadcastTo_apply x2 broadcasts_S1x128_S5000x128 (ix2 p q) (ix2 0 q) (by
        intro a
        match a with
        | ⟨0, _⟩ => rfl
        | ⟨1, _⟩ => rfl)]

end Cert.KernelIdeal.Val

end
-- ==== Proof.Reg0.lean ====
/-
  The dense part of graph-convolution layer one, read as whole arrays. The linear kernel runs over 20 row blocks of
  5000 rows; on each block it forms the product of the block's feature rows with the whole weight, and that product
  scaled by the rows' reciprocal degrees plus the bias row. Because both functions, at a row, read only that row of the
  row-indexed operands, block t of the result is the same function of block t of the features and degrees and of the whole
  weight and bias; the 20 blocks tile the 100000 rows (row r lies in block r / 5000), so the two output arrays end as
  the product X·W and the self-loop term (X·W)·d + b of the whole input arrays.
-/
import proofs.«409755_j40252433498737_1_alg».proof.Proof.Gen.KernelIdeal.Frame
import proofs.«409755_j40252433498737_1_alg».proof.Proof.Gen.KernelIdeal.Points
import proofs.«409755_j40252433498737_1_alg».proof.Proof.Spec
import proofs.«409755_j40252433498737_1_alg».proof.Proof.PayLin
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

private theorem hz0 : (![0, 0] : Fin 2 → Nat) = fun _ => 0 := funext fun a => by fin_cases a <;> rfl

/-- The block index maps over the grid: the row-blocked arrays (features, reciprocal degrees, both outputs) are at
    row block t and column block 0 at point t; the weight and the bias are whole (block 0, 0). -/
private theorem idx_facts0 : ∀ t : Fin cfg0.N, win0_0.index t (0 : Fin 2) = t.val
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- An input block at an index is the input array at the block's image of that index. -/
private theorem blk0_0 (c : Dev nD) (t : Fin cfg0.N) (y : S5000x128.Idx) :
    iblk0 V c 0 t y = V c main_arg0 (((cfg0.win 0).blk t).view.emb y) := rfl
private theorem blk0_1 (c : Dev nD) (t : Fin cfg0.N) (y : S128x128.Idx) :
    iblk0 V c 1 t y = V c main_arg3 (((cfg0.win 1).blk t).view.emb y) := rfl
private theorem blk0_2 (c : Dev nD) (t : Fin cfg0.N) (y : S1x128.Idx) :
    iblk0 V c 2 t y = V c main_v30 (((cfg0.win 2).blk t).view.emb y) := rfl
private theorem blk0_3 (c : Dev nD) (t : Fin cfg0.N) (y : S5000x1.Idx) :
    iblk0 V c 3 t y = V c main_v28 (((cfg0.win 3).blk t).view.emb y) := rfl

/-- The product of block t's feature rows with the weight, at row p of the block, is the whole product at row
    5000·t + p: the sum over the contracted axis reads the same entries. -/
private theorem lin_blk0 (c : Dev nD) (t : Fin cfg0.N) (j : S5000x128.Idx) (i : S100000x128.Idx)
    (hr : (i 0).val = t.val * 5000 + (j 0).val) (hc : (i 1).val = (j 1).val) :
    Cert.Gcn.lin (iblk0 V c 0 t) (iblk0 V c 1 t) j = Cert.Gcn.lin (V c main_arg0) (V c main_arg3) i := by
  obtain ⟨e00, e01, e10, e11, e20, e21, e30, e31, e40, e41, e50, e51⟩ := idx_facts0 t
  unfold Cert.Gcn.lin
  refine Finset.sum_congr rfl fun k _ => ?_
  rw [blk0_0, blk0_1]
  have h0 : ((cfg0.win 0).blk t).view.emb (ix2 (j 0) k) = ix2 (i 0) k := by
    funext a; apply Fin.ext
    match a with
    | ⟨0, _⟩ => show win0_0.index t (0 : Fin 2) * 5000 + 1 * (j 0).val = (i 0).val; omega
    | ⟨1, _⟩ => show win0_0.index t (1 : Fin 2) * 128 + 1 * k.val = k.val; omega
  have h1 : ((cfg0.win 1).blk t).view.emb (ix2 k (j 1)) = ix2 k (i 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = (i 1).val; omega
  rw [h0, h1]
  rfl

/-- What point t writes back to the product array is block t of the whole product. -/
private theorem flushed0_4 (c : Dev nD) (t : Fin cfg0.N) :
    (dat0 V c).flushed 4 t = ((cfg0.win 4).blk t).view.read (Elt Ideal) (Cert.Gcn.lin (V c main_arg0) (V c main_arg3)) := by
  show (cfg0.win 4).cut (grid0.coords t) ((dat0 V c).after 4 t) = _
  rw [after0_4]
  unfold out0_4
  rw [View.canon_unit_zero hz0]
  simp only [View.ld_unit_zero (S := S5000x128) hz0, View.ld_unit_zero (S := S128x128) hz0]
  rw [pay_lin0]
  obtain ⟨e00, e01, e10, e11, e20, e21, e30, e31, e40, e41, e50, e51⟩ := idx_facts0 t
  funext j
  show Cert.Gcn.lin (iblk0 V c 0 t) (iblk0 V c 1 t) j = Cert.Gcn.lin (V c main_arg0) (V c main_arg3) (((cfg0.win 4).blk t).view.emb j)
  exact lin_blk0 V c t j _
    (by show win0_4.index t (0 : Fin 2) * 5000 + 1 * (j 0).val = t.val * 5000 + (j 0).val; omega)
    (by show win0_4.index t (1 : Fin 2) * 128 + 1 * (j 1).val = (j 1).val; omega)

/-- The self-loop term of block t's rows, at row p of the block, is the whole self-loop term at row 5000·t + p: the
    product as above, the reciprocal degree of that row, the bias at the same column. -/
private theorem self_blk0 (c : Dev nD) (t : Fin cfg0.N) (j : S5000x128.Idx) (i : S100000x128.Idx)
    (hr : (i 0).val = t.val * 5000 + (j 0).val) (hc : (i 1).val = (j 1).val) :
    Cert.Gcn.selfTerm (iblk0 V c 0 t) (iblk0 V c 1 t) (iblk0 V c 2 t) (iblk0 V c 3 t) j
      = Cert.Gcn.selfTerm (V c main_arg0) (V c main_arg3) (V c main_v30) (V c main_v28) i := by
  obtain ⟨e00, e01, e10, e11, e20, e21, e30, e31, e40, e41, e50, e51⟩ := idx_facts0 t
  unfold Cert.Gcn.selfTerm
  rw [lin_blk0 V c t j i hr hc, blk0_3, blk0_2]
  have h3 : ((cfg0.win 3).blk t).view.emb (ix2 (j 0) 0 : S5000x1.Idx) = (ix2 (i 0) 0 : S100000x1.Idx) := by
    funext a; apply Fin.ext
    match a with
    | ⟨0, _⟩ => show win0_3.index t (0 : Fin 2) * 5000 + 1 * (j 0).val = (i 0).val; omega
    | ⟨1, _⟩ => show win0_3.index t (1 : Fin 2) * 1 + 1 * 0 = 0; omega
  have h2 : ((cfg0.win 2).blk t).view.emb (ix2 0 (j 1) : S1x128.Idx) = (ix2 0 (i 1) : S1x128.Idx) := by
    funext a; apply Fin.ext
    match a with
    | ⟨0, _⟩ => show win0_2.index t (0 : Fin 2) * 1 + 1 * 0 = 0; omega
    | ⟨1, _⟩ => show win0_2.index t (1 : Fin 2) * 128 + 1 * (j 1).val = (i 1).val; omega
  rw [h3, h2]

/-- What point t writes back to the self-loop array is block t of the whole self-loop term. -/
private theorem flushed0_5 (c : Dev nD) (t : Fin cfg0.N) :
    (dat0 V c).flushed 5 t = ((cfg0.win 5).blk t).view.read (Elt Ideal)
      (Cert.Gcn.selfTerm (V c main_arg0) (V c main_arg3) (V c main_v30) (V c main_v28)) := by
  show (cfg0.win 5).cut (grid0.coords t) ((dat0 V c).after 5 t) = _
  rw [after0_5]
  unfold out0_5
  rw [View.canon_unit_zero hz0]
  simp only [View.ld_unit_zero (S := S5000x128) hz0, View.ld_unit_zero (S := S128x128) hz0,
    View.ld_unit_zero (S := S5000x1) hz0, View.ld_unit_zero (S := S1x128) hz0]
  rw [pay_self0]
  obtain ⟨e00, e01, e10, e11, e20, e21, e30, e31, e40, e41, e50, e51⟩ := idx_facts0 t
  funext j
  show Cert.Gcn.selfTerm (iblk0 V c 0 t) (iblk0 V c 1 t) (iblk0 V c 2 t) (iblk0 V c 3 t) j
    = Cert.Gcn.selfTerm (V c main_arg0) (V c main_arg3) (V c main_v30) (V c main_v28) (((cfg0.win 5).blk t).view.emb j)
  exact self_blk0 V c t j _
    (by show win0_5.index t (0 : Fin 2) * 5000 + 1 * (j 0).val = t.val * 5000 + (j 0).val; omega)
    (by show win0_5.index t (1 : Fin 2) * 128 + 1 * (j 1).val = (j 1).val; omega)

/-- An index of an output array is in point t's block iff each coordinate is in the block's range on its axis. -/
private theorem mem_blk0_4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v31_0).slice (win0_4.rect t)).set ↔ _
  rw [View.set_slice_whole, Rect.mem_set_unit]
  exact Iff.rfl

private theorem mem_blk0_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31_1).slice (win0_5.rect t)).set ↔ _
  rw [View.set_slice_whole, Rect.mem_set_unit]
  exact Iff.rfl

/-- The blocks tile the array: row r lies in the block of point r / 5000. -/
private theorem covered0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have ht : (i 0).val / 5000 < 20 := by omega
  obtain ⟨e00, e01, e10, e11, e20, e21, e30, e31, e40, e41, e50, e51⟩ := idx_facts0 ⟨(i 0).val / 5000, ht⟩
  refine ⟨⟨(i 0).val / 5000, ht⟩, flush0_4 _, ?_⟩
  rw [mem_blk0_4]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    rw [e41]; omega

private theorem covered0_5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < 20 := by omega
  obtain ⟨e00, e01, e10, e11, e20, e21, e30, e31, e40, e41, e50, e51⟩ := idx_facts0 ⟨(i 0).val / 5000, ht⟩
  refine ⟨⟨(i 0).val / 5000, ht⟩, flush0_5 _, ?_⟩
  rw [mem_blk0_5]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

theorem reg0_xl (c : Dev nD) :
    (dat0 V c).arrAt 4 cfg0.N = Cert.Gcn.lin (V c main_arg0) (V c main_arg3) :=
  (dat0 V c).arrAt_eq_of_cover 4 _ (fun t _ => flushed0_4 V c t) covered0_4

theorem reg0_self (c : Dev nD) :
    (dat0 V c).arrAt 5 cfg0.N = Cert.Gcn.selfTerm (V c main_arg0) (V c main_arg3) (V c main_v30) (V c main_v28) :=
  (dat0 V c).arrAt_eq_of_cover 5 _ (fun t _ => flushed0_5 V c t) covered0_5

end Cert.KernelIdeal.Val

end
-- ==== Proof.PayMsg.lean ====
/-
  The first layer's message kernel computes the edge message of the layer.

  The kernel multiplies, entry by entry, the edge-normalisation column stretched along the feature axis with the
  block of gathered feature rows. Read at an entry (p, q) the stretched column is the column's entry (p, 0), the
  reshapes to the same shape are identities, and the product of two arrays is the product of their entries: so
  the kernel's value at (p, q) is nrm (p, 0) · xs (p, q), which is `Cert.Gcn.msg`.
-/
import proofs.«409755_j40252433498737_1_alg».proof.Proof.Gen.KernelIdeal.Skeleton
import proofs.«409755_j40252433498737_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- Message kernel 1: the column of normalisations stretched over 128 features, times the gathered rows,
    is the edge message. -/
theorem pay_msg1 (nrm : Vec Ideal S6400x1 .f32) (xs : Vec Ideal S6400x128 .f32) :
    k1_pay1 nrm xs = Cert.Gcn.msg xs nrm := by
  funext j
  obtain ⟨p, q, rfl⟩ : ∃ (p : Fin 6400) (q : Fin 128), j = ix2 p q := ⟨j 0, j 1, eq_ix2 j⟩
  unfold k1_pay1 Cert.Gcn.msg
  -- the product reads entrywise; a reshape to the same shape is the identity
  rw [mulf_apply, shapeCast_self, shapeCast_self]
  refine congrArg (· * xs (ix2 p q)) ?_
  -- the stretched column at (p, q) is the column at (p, 0): the row axis is kept, the unit axis reads 0
  refine broadcastTo_apply nrm _ (ix2 p q) (ix2 p 0) ?_
  intro a
  match a with
  | ⟨0, _⟩ => rfl
  | ⟨1, _⟩ => rfl

end Cert.KernelIdeal.Val

end
-- ==== Proof.Reg1.lean ====
/-
  The message kernel of layer one, as one function of whole arrays.

  The kernel runs over 250 row blocks of 6400 edges. At a block it multiplies each gathered feature row [6400, 128]
  by the edge's normalisation [6400, 1] and writes the block back. A message at a row reads the normalisation and
  the features at that row only, so the block a point writes is the same block of the messages of the whole
  arrays; the 250 blocks tile the 1600000 rows (row r lies in block r / 6400), so after the region the output
  array is the messages of the whole gathered-feature array and the whole normalisation column.
-/
import proofs.«409755_j40252433498737_1_alg».proof.Proof.Gen.KernelIdeal.Frame
import proofs.«409755_j40252433498737_1_alg».proof.Proof.Spec
import proofs.«409755_j40252433498737_1_alg».proof.Proof.PayMsg
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- A message at an index is determined by the normalisation at the index's row and the feature at the index. -/
private theorem msg_congr {N N' M : Nat} (xs : FVec Ideal ⟨2, ![N, M]⟩ .f32) (nrm : FVec Ideal ⟨2, ![N, 1]⟩ .f32)
    (xs' : FVec Ideal ⟨2, ![N', M]⟩ .f32) (nrm' : FVec Ideal ⟨2, ![N', 1]⟩ .f32)
    (j : (⟨2, ![N, M]⟩ : Shape).Idx) (i : (⟨2, ![N', M]⟩ : Shape).Idx)
    (h1 : nrm (ix2 (j 0) 0) = nrm' (ix2 (i 0) 0)) (h2 : xs j = xs' i) :
    Cert.Gcn.msg xs nrm j = Cert.Gcn.msg xs' nrm' i := by
  unfold Cert.Gcn.msg; rw [h1, h2]

private theorem hz1 : (![0, 0] : Fin 2 → Nat) = fun _ => 0 := funext fun a => by fin_cases a <;> rfl

/-- The printed index maps, decided over the grid: at point t each window's block is block t along the rows and
    block 0 along the columns. -/
private theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the messages of the whole arrays: a message at a row reads the
    normalisation and the features at that row only, and the three windows' blocks are the same rows. -/
private theorem flushed_eq1 (c : Dev nD) (t : Fin cfg1.N) :
    (dat1 V c).flushed 2 t = ((cfg1.win 2).blk t).view.read (Elt Ideal) (Cert.Gcn.msg (V c main_v32) (V c main_v29)) := by
  show (cfg1.win 2).cut (grid1.coords t) ((dat1 V c).after 2 t) = _
  rw [after1_2]
  unfold out1_2
  rw [View.canon_unit_zero hz1]
  simp only [View.ld_unit_zero (S := S6400x1) hz1, View.ld_unit_zero (S := S6400x128) hz1]
  rw [pay_msg1]
  obtain ⟨e0, e1, e2, e3, e4, e5⟩ := idx_facts1 t
  funext j
  show Cert.Gcn.msg (iblk1 V c 0 t) (iblk1 V c 1 t) j = Cert.Gcn.msg (V c main_v32) (V c main_v29) (((cfg1.win 2).blk t).view.emb j)
  refine msg_congr _ _ _ _ _ _ ?_ ?_
  · show V c main_v29 (((cfg1.win 1).blk t).view.emb (ix2 ((j : S6400x128.Idx) 0) (0 : Fin 1))) = V c main_v29 (ix2 ((((cfg1.win 2).blk t).view.emb j) 0) (0 : Fin 1))
    refine congrArg (V c main_v29) ?_
    · funext a; apply Fin.ext
      match a with
      | ⟨0, _⟩ => show win1_1.index t (0 : Fin 2) * 6400 + 1 * (j 0).val = win1_2.index t (0 : Fin 2) * 6400 + 1 * (j 0).val; omega
      | ⟨1, _⟩ => show win1_1.index t (1 : Fin 2) * 1 + 1 * 0 = 0; omega
  · show V c main_v32 (((cfg1.win 0).blk t).view.emb j) = V c main_v32 (((cfg1.win 2).blk t).view.emb j)
    have h0 : ((cfg1.win 0).blk t).view.emb j = ((cfg1.win 2).blk t).view.emb j := by
      funext a; apply Fin.ext
      match a with
      | ⟨0, _⟩ => show win1_0.index t (0 : Fin 2) * 6400 + 1 * (j 0).val = win1_2.index t (0 : Fin 2) * 6400 + 1 * (j 0).val; omega
      | ⟨1, _⟩ => show win1_0.index t (1 : Fin 2) * 128 + 1 * (j 1).val = win1_2.index t (1 : Fin 2) * 128 + 1 * (j 1).val; omega
    rw [h0]

/-- An index of the array is in point t's block iff each coordinate is in the block's range on its axis. -/
private theorem mem_blk1 (t : Fin cfg1.N) (i : S1600000x128.Idx) :
    i ∈ ((cfg1.win 2).blk t).view.set ↔ ∀ a : Fin 2, win1_2.index t a * S6400x128.size a ≤ (i a).val ∧ (i a).val < win1_2.index t a * S6400x128.size a + S6400x128.size a := by
  show i ∈ ((View.whole main_v33).slice (win1_2.rect t)).set ↔ _
  rw [View.set_slice_whole, Rect.mem_set_unit]
  exact Iff.rfl

/-- The blocks tile the array: row r is in the block of point r / 6400. -/
private theorem cover1 (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  have hN : cfg1.N = 250 := by decide +kernel
  have ht : (i 0).val / 6400 < cfg1.N := by rw [hN]; omega
  obtain ⟨e0, e1, e2, e3, e4, e5⟩ := idx_facts1 ⟨(i 0).val / 6400, ht⟩
  have e4' : win1_2.index ⟨(i 0).val / 6400, ht⟩ (0 : Fin 2) = (i 0).val / 6400 := e4
  refine ⟨⟨(i 0).val / 6400, ht⟩, flush1_2 _, ?_⟩
  rw [mem_blk1]
  intro a
  match a with
  | ⟨0, _⟩ => show win1_2.index ⟨(i 0).val / 6400, ht⟩ (0 : Fin 2) * 6400 ≤ (i 0).val ∧ (i 0).val < win1_2.index ⟨(i 0).val / 6400, ht⟩ (0 : Fin 2) * 6400 + 6400; omega
  | ⟨1, _⟩ => show win1_2.index ⟨(i 0).val / 6400, ht⟩ (1 : Fin 2) * 128 ≤ (i 1).val ∧ (i 1).val < win1_2.index ⟨(i 0).val / 6400, ht⟩ (1 : Fin 2) * 128 + 128; omega

/-- The message kernel's output array after the region: the messages of the gathered features and the normalisation. -/
theorem reg1_msg (c : Dev nD) :
    (dat1 V c).arrAt 2 cfg1.N = Cert.Gcn.msg (V c main_v32) (V c main_v29) :=
  (dat1 V c).arrAt_eq_of_cover 2 _ (fun t _ => flushed_eq1 V c t) (fun i => cover1 i)

end Cert.KernelIdeal.Val

end
-- ==== Proof.PayGelu.lean ====
/-
  The first layer's combine kernel computes the layer's node output: GELU of the aggregated messages plus the
  self term.

  The kernel is entrywise. With x = a + s at an entry it forms x · x, then x · (x · x), scales by the constant c₂,
  adds x, scales by c₁, takes tanh, adds 1, halves, and multiplies by x. Sums, products and tanh of arrays read
  entrywise, an array filled with a constant reads as that constant, and the reshapes to the same shape are
  identities; `Cert.Gcn.gel` is written in this very order of operations, so the two sides agree at every entry
  by unfolding alone, with no law of arithmetic used.
-/
import proofs.«409755_j40252433498737_1_alg».proof.Proof.Gen.KernelIdeal.Skeleton
import proofs.«409755_j40252433498737_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- Combine kernel 2 (128 features): the entrywise tanh-form GELU of a + s. -/
theorem pay_gelu2 (a s : Vec Ideal S5000x128 .f32) :
    k2_pay1 a s = Cert.Gcn.comb a s := by
  funext j
  unfold k2_pay1 Cert.Gcn.comb Cert.Gcn.gel
  -- a reshape to the same shape is the identity
  rw [shapeCast_self, shapeCast_self]
  -- every remaining operation reads entrywise, in the same order on both sides
  rfl

end Cert.KernelIdeal.Val

end
-- ==== Proof.Reg2.lean ====
/-
  The output array of the combine-and-GELU step of a graph-convolution layer, as one function of its two inputs.

  The step walks 20 row blocks of 5000 rows. At block t it reads rows [5000·t, 5000·t + 5000) of the aggregated
  messages and of the self-loop term and writes the tanh form of GELU of their sum to the same rows of the output.
  Because that function's value at a row depends on that row of its operands only, a row block of the result is the
  function of the operands' row blocks; and the 20 blocks cover every row (row r lies in block r / 5000). So the whole
  output array is GELU of the sum, index by index.
-/
import proofs.«409755_j40252433498737_1_alg».proof.Proof.Gen.KernelIdeal.Frame
import proofs.«409755_j40252433498737_1_alg».proof.Proof.Spec
import proofs.«409755_j40252433498737_1_alg».proof.Proof.PayGelu
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The zero offset of a whole-block access, as a constant function. -/
private theorem hz2 : (![0, 0] : Fin 2 → Nat) = fun _ => 0 := funext fun a => by fin_cases a <;> rfl

/-- The block index maps, decided over the 20 points: all three windows sit at row block t, column block 0. -/
private theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0 :=
  (by decide +kernel : ∀ t : Fin grid2.N, _)

/-- What point t writes back is row block t of GELU of the sum of the two input arrays: the inputs' blocks sit at
    the same rows as the output's block. -/
private theorem flushed2_eq (c : Dev nD) (t : Fin cfg2.N) :
    (dat2 V c).flushed 2 t
      = ((cfg2.win 2).blk t).view.read (Elt Ideal) (Cert.Gcn.comb (V c main_v36) (V c main_v31_1)) := by
  show (cfg2.win 2).cut (grid2.coords t) ((dat2 V c).after 2 t) = _
  rw [after2_2]
  unfold out2_2
  rw [View.canon_unit_zero hz2]
  simp only [View.ld_unit_zero (S := S5000x128) hz2]
  rw [pay_gelu2]
  obtain ⟨e0, e1, e2, e3, e4, e5⟩ := idx_facts2 t
  funext j
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  have key : ∀ (A S : FVec Ideal S100000x128 .f32) (p q r : S100000x128.Idx), p = r → q = r →
      Cert.Gcn.gel (A p + S q) = Cert.Gcn.gel (A r + S r) := by
    intro A S p q r hp hq; rw [hp, hq]
  exact key (V c main_v36) (V c main_v31_1) _ _ _ h0 h1

/-- An index of the output array is in point t's block iff each coordinate is in the block's range on its axis. -/
private theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v37).slice (win2_2.rect t)).set ↔ _
  rw [View.set_slice_whole, Rect.mem_set_unit]
  exact Iff.rfl

/-- Every index of the output array lies in some point's block: row r in block r / 5000. -/
private theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 5000, by show (i 0).val / 5000 < 20; omega⟩
  obtain ⟨e0, e1, e2, e3, e4, e5⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the step: GELU of the aggregated messages plus the self-loop term, at every index. -/
theorem reg2_comb (c : Dev nD) :
    (dat2 V c).arrAt 2 cfg2.N = Cert.Gcn.comb (V c main_v36) (V c main_v31_1) :=
  (dat2 V c).arrAt_eq_of_cover 2 _ (fun t _ => flushed2_eq V c t) covered2

end Cert.KernelIdeal.Val

end
-- ==== Proof.Fold1.lean ====
/-
  The first layer, read off the kernel program's run boundary by boundary, in the reference's own terms.

  Before the first kernel the host prepares the edge endpoints, the reciprocal degree as a column, the edge
  normalisation as a column and the bias as a row: the same operations as the reference's, so the same values.
  The linear kernel's product is the reference's matrix product (both are the sum over the contracted axis); the
  taken rows are the reference's gathered rows because every source endpoint is a node index; the message kernel's
  product is the reference's broadcast product; the scatter is the same scatter; and the combining kernel's GELU of
  (aggregate + (product · reciprocal degree + bias)) is the reference's GELU of ((aggregate + reciprocal degree ·
  product) + bias), by associativity and commutativity on the extended reals.
-/
import proofs.«409755_j40252433498737_1_alg».proof.Proof.Gen.KernelIdeal.Frame
import proofs.«409755_j40252433498737_1_alg».proof.Proof.RefTerms
import proofs.«409755_j40252433498737_1_alg».proof.Proof.RefBridge
import proofs.«409755_j40252433498737_1_alg».proof.Proof.PreTake
import proofs.«409755_j40252433498737_1_alg».proof.Proof.FoldKeep
import proofs.«409755_j40252433498737_1_alg».proof.Proof.Spec
import proofs.«409755_j40252433498737_1_alg».proof.Proof.Reg0
import proofs.«409755_j40252433498737_1_alg».proof.Proof.Reg1
import proofs.«409755_j40252433498737_1_alg».proof.Proof.Reg2
import Idealize.ShloMosaic.Lib.StableHlo.Run
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Value (res_main_v1 res_main_v3 res_main_v9 res_main_v10 res_main_v12 res_main_v13 res_main_v48 res_main_v62 res_main_v97 res_main_v111 res_main_v146)

variable (m : (ℓ : Loc nD τ sig) → Buf (Elt Ideal) ℓ) (ρ : Dev nD → PrngReg) (c : Dev nD)
variable (V0 : Valuation Cert.ReferenceIdeal.τ Cert.ReferenceIdeal.sig (Elt Ideal))

/-! ## What the host prepares before the first kernel -/

theorem W1_arg0 (hA : Cert.Bridge.Agree m c V0) : W1 m ρ c (Proc.devRef .tc main_arg0) = V0 (Proc.devRef .tc Cert.ReferenceIdeal.main_arg0) :=
  (keep_main_arg0_0_1 m ρ c).trans hA.a0.symm

theorem W1_arg3 (hA : Cert.Bridge.Agree m c V0) : W1 m ρ c (Proc.devRef .tc main_arg3) = V0 (Proc.devRef .tc Cert.ReferenceIdeal.main_arg3) :=
  (keep_main_arg3_0_1 m ρ c).trans hA.a3.symm

theorem W1_v1 (hA : Cert.Bridge.Agree m c V0) : W1 m ρ c (Proc.devRef .tc main_v1) = res_main_v1 V0 := by
  show StableHlo.after hostOps0 _ (Proc.devRef .tc main_v1) = _
  after_results
  unfold res_main_v1
  rw [hA.a1]
  rfl

theorem W1_v3 (hA : Cert.Bridge.Agree m c V0) : W1 m ρ c (Proc.devRef .tc main_v3) = res_main_v3 V0 := by
  show StableHlo.after hostOps0 _ (Proc.devRef .tc main_v3) = _
  after_results
  unfold res_main_v3
  rw [hA.a1]
  rfl

set_option maxHeartbeats 2000000 in
theorem W1_v28 (hA : Cert.Bridge.Agree m c V0) :
    W1 m ρ c (Proc.devRef .tc main_v28) = shapeCast S100000x1 (res_main_v12 V0) shapeCasts_S100000_S100000x1 := by
  show StableHlo.after hostOps0 _ (Proc.devRef .tc main_v28) = _
  after_results_simp
  unfold res_main_v12 res_main_v9 res_main_v3
  rw [hA.a1]
  rfl

set_option maxHeartbeats 2000000 in
theorem W1_v29 (hA : Cert.Bridge.Agree m c V0) :
    W1 m ρ c (Proc.devRef .tc main_v29) = shapeCast S1600000x1 (Cert.Bridge.normR V0) shapeCasts_S1600000_S1600000x1 := by
  show StableHlo.after hostOps0 _ (Proc.devRef .tc main_v29) = _
  after_results_simp
  unfold Cert.Bridge.normR Cert.Bridge.idxSrc Cert.Bridge.idxDst Cert.Bridge.wrapIdx res_main_v10 res_main_v9 res_main_v3 res_main_v1
  rw [hA.a1]
  rfl

set_option maxHeartbeats 2000000 in
theorem W1_v30 (hA : Cert.Bridge.Agree m c V0) :
    W1 m ρ c (Proc.devRef .tc main_v30) = shapeCast S1x128 (V0 (Proc.devRef .tc Cert.ReferenceIdeal.main_arg4)) shapeCasts_S128_S1x128 := by
  show StableHlo.after hostOps0 _ (Proc.devRef .tc main_v30) = _
  after_results_simp
  rw [hA.a4]
  rfl

/-! ## The linear kernel -/

theorem W2_v31_0 (hA : Cert.Bridge.Agree m c V0) : W2 m ρ c (Proc.devRef .tc main_v31_0) = res_main_v13 V0 := by
  refine (W2_arr m ρ c 4).trans ((reg0_xl (V1 m ρ) c).trans ?_)
  show Cert.Gcn.lin (W1 m ρ c (Proc.devRef .tc main_arg0)) (W1 m ρ c (Proc.devRef .tc main_arg3)) = _
  rw [W1_arg0 m ρ c V0 hA, W1_arg3 m ρ c V0 hA]
  exact (Cert.Bridge.dot128_eq _ _).symm

theorem W2_v31_1 (hA : Cert.Bridge.Agree m c V0) :
    W2 m ρ c (Proc.devRef .tc main_v31_1)
      = Cert.Gcn.selfTerm (V0 (Proc.devRef .tc Cert.ReferenceIdeal.main_arg0)) (V0 (Proc.devRef .tc Cert.ReferenceIdeal.main_arg3))
          (shapeCast S1x128 (V0 (Proc.devRef .tc Cert.ReferenceIdeal.main_arg4)) shapeCasts_S128_S1x128)
          (shapeCast S100000x1 (res_main_v12 V0) shapeCasts_S100000_S100000x1) := by
  refine (W2_arr m ρ c 5).trans ((reg0_self (V1 m ρ) c).trans ?_)
  show Cert.Gcn.selfTerm (W1 m ρ c (Proc.devRef .tc main_arg0)) (W1 m ρ c (Proc.devRef .tc main_arg3))
      (W1 m ρ c (Proc.devRef .tc main_v30)) (W1 m ρ c (Proc.devRef .tc main_v28)) = _
  rw [W1_arg0 m ρ c V0 hA, W1_arg3 m ρ c V0 hA, W1_v30 m ρ c V0 hA, W1_v28 m ρ c V0 hA]

/-! ## The taken rows -/

theorem W2_v1 (hA : Cert.Bridge.Agree m c V0) : W2 m ρ c (Proc.devRef .tc main_v1) = res_main_v1 V0 :=
  (keep_main_v1_1_2 m ρ c).trans (W1_v1 m ρ c V0 hA)

theorem W3_v32R (hpre : Cert.Pre_KernelIdeal m) (hA : Cert.Bridge.Agree m c V0) :
    W3 m ρ c (Proc.devRef .tc main_v32)
      = Host.gather Cert.ReferenceIdeal.gather_S100000x128_S1600000x1_S1600000x128_1_0_n_n_0_1_1128 (res_main_v13 V0) (Cert.Bridge.idxSrc V0) :=
  W3_v32 m ρ c (res_main_v13 V0) (W2_v31_0 m ρ c V0 hA) (res_main_v1 V0) (W2_v1 m ρ c V0 hA) (src_ok m c V0 hpre hA)

/-! ## The message kernel -/

theorem W3_v29 (hA : Cert.Bridge.Agree m c V0) :
    W3 m ρ c (Proc.devRef .tc main_v29) = shapeCast S1600000x1 (Cert.Bridge.normR V0) shapeCasts_S1600000_S1600000x1 :=
  (keep_main_v29_1_3 m ρ c).trans (W1_v29 m ρ c V0 hA)

theorem W4_v33 (hpre : Cert.Pre_KernelIdeal m) (hA : Cert.Bridge.Agree m c V0) :
    W4 m ρ c (Proc.devRef .tc main_v33)
      = mulf (broadcastInDim S1600000x128 ![0, 1] Cert.ReferenceIdeal.Gen.bcast_S1600000x1_S1600000x128_0_1 (broadcastInDim S1600000x1 ![0] Cert.ReferenceIdeal.Gen.bcast_S1600000_S1600000x1_0 (Cert.Bridge.normR V0)))
          (Host.gather Cert.ReferenceIdeal.gather_S100000x128_S1600000x1_S1600000x128_1_0_n_n_0_1_1128 (res_main_v13 V0) (Cert.Bridge.idxSrc V0)) := by
  refine (W4_arr m ρ c 2).trans ((reg1_msg (V3 m ρ) c).trans ?_)
  show Cert.Gcn.msg (W3 m ρ c (Proc.devRef .tc main_v32)) (W3 m ρ c (Proc.devRef .tc main_v29)) = _
  rw [W3_v32R m ρ c V0 hpre hA, W3_v29 m ρ c V0 hA]
  exact Cert.Bridge.msg128_eq _ _ _

/-! ## The scatter by destination -/

theorem W4_v3 (hA : Cert.Bridge.Agree m c V0) : W4 m ρ c (Proc.devRef .tc main_v3) = res_main_v3 V0 :=
  (keep_main_v3_1_4 m ρ c).trans (W1_v3 m ρ c V0 hA)

/-- The aggregate of layer 1, as the reference composes it. -/
abbrev agg1 : FVec Ideal S100000x128 .f32 :=
  Host.scatterAdd Cert.ReferenceIdeal.scatter_S100000x128_S1600000x1_S1600000x128_1_0_0_1
    (broadcastInDim S100000x128 ![] Cert.ReferenceIdeal.Gen.bcast_S_S100000x128 (constant S_ .f32 0x00000000#32))
    (broadcastInDim S1600000x1 ![0] Cert.ReferenceIdeal.Gen.bcast_S1600000_S1600000x1_0 (res_main_v3 V0))
    (mulf (broadcastInDim S1600000x128 ![0, 1] Cert.ReferenceIdeal.Gen.bcast_S1600000x1_S1600000x128_0_1 (broadcastInDim S1600000x1 ![0] Cert.ReferenceIdeal.Gen.bcast_S1600000_S1600000x1_0 (Cert.Bridge.normR V0)))
      (Host.gather Cert.ReferenceIdeal.gather_S100000x128_S1600000x1_S1600000x128_1_0_n_n_0_1_1128 (res_main_v13 V0) (Cert.Bridge.idxSrc V0)))

theorem W5_v36 (hpre : Cert.Pre_KernelIdeal m) (hA : Cert.Bridge.Agree m c V0) :
    W5 m ρ c (Proc.devRef .tc main_v36) = agg1 V0 := by
  show StableHlo.after hostOps2 _ (Proc.devRef .tc main_v36) = _
  after_results
  rw [W4_v33 m ρ c V0 hpre hA, W4_v3 m ρ c V0 hA]
  rfl

/-! ## The combining kernel -/

theorem W5_v31_1 (hA : Cert.Bridge.Agree m c V0) :
    W5 m ρ c (Proc.devRef .tc main_v31_1)
      = Cert.Gcn.selfTerm (V0 (Proc.devRef .tc Cert.ReferenceIdeal.main_arg0)) (V0 (Proc.devRef .tc Cert.ReferenceIdeal.main_arg3))
          (shapeCast S1x128 (V0 (Proc.devRef .tc Cert.ReferenceIdeal.main_arg4)) shapeCasts_S128_S1x128)
          (shapeCast S100000x1 (res_main_v12 V0) shapeCasts_S100000_S100000x1) :=
  (keep_main_v31_1_2_5 m ρ c).trans (W2_v31_1 m ρ c V0 hA)

theorem W6_v37 (hpre : Cert.Pre_KernelIdeal m) (hA : Cert.Bridge.Agree m c V0) :
    W6 m ρ c (Proc.devRef .tc main_v37) = Cert.Bridge.geluR128 (res_main_v48 V0) := by
  refine (W6_arr m ρ c 2).trans ((reg2_comb (V5 m ρ) c).trans ?_)
  show Cert.Gcn.comb (W5 m ρ c (Proc.devRef .tc main_v36)) (W5 m ρ c (Proc.devRef .tc main_v31_1)) = _
  rw [W5_v36 m ρ c V0 hpre hA, W5_v31_1 m ρ c V0 hA]
  have hXL : res_main_v13 V0 = Cert.Gcn.lin (V0 (Proc.devRef .tc Cert.ReferenceIdeal.main_arg0)) (V0 (Proc.devRef .tc Cert.ReferenceIdeal.main_arg3)) :=
    Cert.Bridge.dot128_eq _ _
  refine (Cert.Bridge.layer128_eq _ _ _ _ _ _ _).trans ?_
  rw [← hXL, Cert.Bridge.res_main_v48_eq]
  rfl

end Cert.KernelIdeal.Val

end
-- ==== Proof.PayLinSib.lean ====
/-
  The dense part of a graph-convolution layer, for the second layer (5000×128 by 128×128) and the third
  (5000×128 by 128×64): the arithmetic of the linear kernel's two stored values is the layer's product X·W and its
  self-loop term (X·W)·d + b.

  The product is accumulated into a zero array, so at an index (p, q) it is the bare sum over the contraction index of
  the two operands' entries; the contraction runs over one axis, and the sum is re-indexed by that axis's coordinate
  k, where the left operand is read at (p, k) and the right one at (k, q). A change of float format is the identity on
  extended reals, and a reshape to the same shape is the identity. The self-loop term multiplies the product by the
  reciprocal-degree column laid along every column and adds the bias row laid along every row: read at (p, q) these
  are the column's entry (p, 0) and the row's entry (0, q).
-/
import proofs.«409755_j40252433498737_1_alg».proof.Proof.Gen.KernelIdeal.Skeleton
import proofs.«409755_j40252433498737_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## Layer 3: where the two operands of the product 5000×128 by 128×128 are read -/

/-- The left operand's row coordinate is the result's row. -/
private theorem lhs3_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column coordinate is the contraction position. -/
private theorem lhs3_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row coordinate is the contraction position. -/
private theorem rhs3_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column coordinate is the result's column. -/
private theorem rhs3_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## Layer 3: the two stored values -/

/-- The product into the zero accumulator, read at (p, q): the sum over the contracted axis of row p of the left
    operand against column q of the right one. -/
private theorem lin3_apply (x0 : Vec Ideal S5000x128 .f32) (x1 : Vec Ideal S128x128 .f32) (p : Fin 5000) (q : Fin 128) :
    k3_pay1 x0 x1 (ix2 p q) = ∑ k : Fin 128, x0 (ix2 p k) * x1 (ix2 k q) := by
  unfold k3_pay1
  rw [shapeCast_self]
  show FloatOps.matmul dot_S5000x128_S128x128_S5000x128_1_0_0_1_n_n none
    (truncf .bf16 x0 bitsLt_bf16_f32 : FVec Ideal S5000x128 .bf16) (truncf .bf16 x1 bitsLt_bf16_f32 : FVec Ideal S128x128 .bf16)
    (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs3_0 _ _
      | ⟨1, _⟩ => exact (lhs3_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs3_0 _ _).trans hk
      | ⟨1, _⟩ => exact rhs3_1 _ _)
  rw [truncf_apply, truncf_apply, el, er]

theorem pay_lin3 (x0 : Vec Ideal S5000x128 .f32) (x1 : Vec Ideal S128x128 .f32) :
    k3_pay1 x0 x1 = Cert.Gcn.lin x0 x1 := by
  funext j
  obtain ⟨p, q, rfl⟩ : ∃ (p : Fin 5000) (q : Fin 128), j = ix2 p q := ⟨j 0, j 1, eq_ix2 j⟩
  exact lin3_apply x0 x1 p q

theorem pay_self3 (x0 : Vec Ideal S5000x128 .f32) (x1 : Vec Ideal S128x128 .f32) (x3 : Vec Ideal S5000x1 .f32) (x2 : Vec Ideal S1x128 .f32) :
    k3_pay2 x0 x1 x3 x2 = Cert.Gcn.selfTerm x0 x1 x2 x3 := by
  funext j
  obtain ⟨p, q, rfl⟩ : ∃ (p : Fin 5000) (q : Fin 128), j = ix2 p q := ⟨j 0, j 1, eq_ix2 j⟩
  unfold k3_pay2
  rw [shapeCast_self, shapeCast_self, pay_lin3]
  show Cert.Gcn.lin x0 x1 (ix2 p q) * broadcastTo S5000x128 x3 broadcasts_S5000x1_S5000x128 (ix2 p q)
      + broadcastTo S5000x128 x2 broadcasts_S1x128_S5000x128 (ix2 p q)
    = Cert.Gcn.lin x0 x1 (ix2 p q) * x3 (ix2 p 0) + x2 (ix2 0 q)
  rw [broadcastTo_apply x3 broadcasts_S5000x1_S5000x128 (ix2 p q) (ix2 p 0) (by
        intro a
        match a with
        | ⟨0, _⟩ => rfl
        | ⟨1, _⟩ => rfl),
    broadcastTo_apply x2 broadcasts_S1x128_S5000x128 (ix2 p q) (ix2 0 q) (by
        intro a
        match a with
        | ⟨0, _⟩ => rfl
        | ⟨1, _⟩ => rfl)]

/-! ## Layer 6: where the two operands of the product 5000×128 by 128×64 are read -/

/-- The left operand's row coordinate is the result's row. -/
private theorem lhs6_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- The left operand's column coordinate is the contraction position. -/
private theorem lhs6_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

/-- The right operand's row coordinate is the contraction position. -/
private theorem rhs6_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

/-- The right operand's column coordinate is the result's column. -/
private theorem rhs6_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## Layer 6: the two stored values -/

/-- The product into the zero accumulator, read at (p, q): the sum over the contracted axis of row p of the left
    operand against column q of the right one. -/
private theorem lin6_apply (x0 : Vec Ideal S5000x128 .f32) (x1 : Vec Ideal S128x64 .f32) (p : Fin 5000) (q : Fin 64) :
    k6_pay1 x0 x1 (ix2 p q) = ∑ k : Fin 128, x0 (ix2 p k) * x1 (ix2 k q) := by
  unfold k6_pay1
  rw [shapeCast_self]
  show FloatOps.matmul dot_S5000x128_S128x64_S5000x64_1_0_0_1_n_n none
    (truncf .bf16 x0 bitsLt_bf16_f32 : FVec Ideal S5000x128 .bf16) (truncf .bf16 x1 bitsLt_bf16_f32 : FVec Ideal S128x64 .bf16)
    (constant S5000x64 .f32 0x00000000#32) (ix2 p q) = _
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact lhs6_0 _ _
      | ⟨1, _⟩ => exact (lhs6_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (rhs6_0 _ _).trans hk
      | ⟨1, _⟩ => exact rhs6_1 _ _)
  rw [truncf_apply, truncf_apply, el, er]

theorem pay_lin6 (x0 : Vec Ideal S5000x128 .f32) (x1 : Vec Ideal S128x64 .f32) :
    k6_pay1 x0 x1 = Cert.Gcn.lin x0 x1 := by
  funext j
  obtain ⟨p, q, rfl⟩ : ∃ (p : Fin 5000) (q : Fin 64), j = ix2 p q := ⟨j 0, j 1, eq_ix2 j⟩
  exact lin6_apply x0 x1 p q

theorem pay_self6 (x0 : Vec Ideal S5000x128 .f32) (x1 : Vec Ideal S128x64 .f32) (x3 : Vec Ideal S5000x1 .f32) (x2 : Vec Ideal S1x64 .f32) :
    k6_pay2 x0 x1 x3 x2 = Cert.Gcn.selfTerm x0 x1 x2 x3 := by
  funext j
  obtain ⟨p, q, rfl⟩ : ∃ (p : Fin 5000) (q : Fin 64), j = ix2 p q := ⟨j 0, j 1, eq_ix2 j⟩
  unfold k6_pay2
  rw [shapeCast_self, shapeCast_self, pay_lin6]
  show Cert.Gcn.lin x0 x1 (ix2 p q) * broadcastTo S5000x64 x3 broadcasts_S5000x1_S5000x64 (ix2 p q)
      + broadcastTo S5000x64 x2 broadcasts_S1x64_S5000x64 (ix2 p q)
    = Cert.Gcn.lin x0 x1 (ix2 p q) * x3 (ix2 p 0) + x2 (ix2 0 q)
  rw [broadcastTo_apply x3 broadcasts_S5000x1_S5000x64 (ix2 p q) (ix2 p 0) (by
        intro a
        match a with
        | ⟨0, _⟩ => rfl
        | ⟨1, _⟩ => rfl),
    broadcastTo_apply x2 broadcasts_S1x64_S5000x64 (ix2 p q) (ix2 0 q) (by
        intro a
        match a with
        | ⟨0, _⟩ => rfl
        | ⟨1, _⟩ => rfl)]

end Cert.KernelIdeal.Val

end
-- ==== Proof.Reg3.lean ====
/-
  The dense part of graph-convolution layer two, read as whole arrays. The linear kernel runs over 20 row blocks of
  5000 rows; on each block it forms the product of the block's feature rows with the whole weight, and that product
  scaled by the rows' reciprocal degrees plus the bias row. Because both functions, at a row, read only that row of the
  row-indexed operands, block t of the result is the same function of block t of the features and degrees and of the whole
  weight and bias; the 20 blocks tile the 100000 rows (row r lies in block r / 5000), so the two output arrays end as
  the product X·W and the self-loop term (X·W)·d + b of the whole input arrays.
-/
import proofs.«409755_j40252433498737_1_alg».proof.Proof.Gen.KernelIdeal.Frame
import proofs.«409755_j40252433498737_1_alg».proof.Proof.Gen.KernelIdeal.Points
import proofs.«409755_j40252433498737_1_alg».proof.Proof.Spec
import proofs.«409755_j40252433498737_1_alg».proof.Proof.PayLinSib
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

private theorem hz3 : (![0, 0] : Fin 2 → Nat) = fun _ => 0 := funext fun a => by fin_cases a <;> rfl

/-- The block index maps over the grid: the row-blocked arrays (features, reciprocal degrees, both outputs) are at
    row block t and column block 0 at point t; the weight and the bias are whole (block 0, 0). -/
private theorem idx_facts3 : ∀ t : Fin cfg3.N, win3_0.index t (0 : Fin 2) = t.val
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- An input block at an index is the input array at the block's image of that index. -/
private theorem blk3_0 (c : Dev nD) (t : Fin cfg3.N) (y : S5000x128.Idx) :
    iblk3 V c 0 t y = V c main_v37 (((cfg3.win 0).blk t).view.emb y) := rfl
private theorem blk3_1 (c : Dev nD) (t : Fin cfg3.N) (y : S128x128.Idx) :
    iblk3 V c 1 t y = V c main_arg5 (((cfg3.win 1).blk t).view.emb y) := rfl
private theorem blk3_2 (c : Dev nD) (t : Fin cfg3.N) (y : S1x128.Idx) :
    iblk3 V c 2 t y = V c main_v38 (((cfg3.win 2).blk t).view.emb y) := rfl
private theorem blk3_3 (c : Dev nD) (t : Fin cfg3.N) (y : S5000x1.Idx) :
    iblk3 V c 3 t y = V c main_v28 (((cfg3.win 3).blk t).view.emb y) := rfl

/-- The product of block t's feature rows with the weight, at row p of the block, is the whole product at row
    5000·t + p: the sum over the contracted axis reads the same entries. -/
private theorem lin_blk3 (c : Dev nD) (t : Fin cfg3.N) (j : S5000x128.Idx) (i : S100000x128.Idx)
    (hr : (i 0).val = t.val * 5000 + (j 0).val) (hc : (i 1).val = (j 1).val) :
    Cert.Gcn.lin (iblk3 V c 0 t) (iblk3 V c 1 t) j = Cert.Gcn.lin (V c main_v37) (V c main_arg5) i := by
  obtain ⟨e00, e01, e10, e11, e20, e21, e30, e31, e40, e41, e50, e51⟩ := idx_facts3 t
  unfold Cert.Gcn.lin
  refine Finset.sum_congr rfl fun k _ => ?_
  rw [blk3_0, blk3_1]
  have h0 : ((cfg3.win 0).blk t).view.emb (ix2 (j 0) k) = ix2 (i 0) k := by
    funext a; apply Fin.ext
    match a with
    | ⟨0, _⟩ => show win3_0.index t (0 : Fin 2) * 5000 + 1 * (j 0).val = (i 0).val; omega
    | ⟨1, _⟩ => show win3_0.index t (1 : Fin 2) * 128 + 1 * k.val = k.val; omega
  have h1 : ((cfg3.win 1).blk t).view.emb (ix2 k (j 1)) = ix2 k (i 1) := by
    funext a; apply Fin.ext
    match a with
    | ⟨0, _⟩ => show win3_1.index t (0 : Fin 2) * 128 + 1 * k.val = k.val; omega
    | ⟨1, _⟩ => show win3_1.index t (1 : Fin 2) * 128 + 1 * (j 1).val = (i 1).val; omega
  rw [h0, h1]
  rfl

/-- What point t writes back to the product array is block t of the whole product. -/
private theorem flushed3_4 (c : Dev nD) (t : Fin cfg3.N) :
    (dat3 V c).flushed 4 t = ((cfg3.win 4).blk t).view.read (Elt Ideal) (Cert.Gcn.lin (V c main_v37) (V c main_arg5)) := by
  show (cfg3.win 4).cut (grid3.coords t) ((dat3 V c).after 4 t) = _
  rw [after3_4]
  unfold out3_4
  rw [View.canon_unit_zero hz3]
  simp only [View.ld_unit_zero (S := S5000x128) hz3, View.ld_unit_zero (S := S128x128) hz3]
  rw [pay_lin3]
  obtain ⟨e00, e01, e10, e11, e20, e21, e30, e31, e40, e41, e50, e51⟩ := idx_facts3 t
  funext j
  show Cert.Gcn.lin (iblk3 V c 0 t) (iblk3 V c 1 t) j = Cert.Gcn.lin (V c main_v37) (V c main_arg5) (((cfg3.win 4).blk t).view.emb j)
  exact lin_blk3 V c t j _
    (by show win3_4.index t (0 : Fin 2) * 5000 + 1 * (j 0).val = t.val * 5000 + (j 0).val; omega)
    (by show win3_4.index t (1 : Fin 2) * 128 + 1 * (j 1).val = (j 1).val; omega)

/-- The self-loop term of block t's rows, at row p of the block, is the whole self-loop term at row 5000·t + p: the
    product as above, the reciprocal degree of that row, the bias at the same column. -/
private theorem self_blk3 (c : Dev nD) (t : Fin cfg3.N) (j : S5000x128.Idx) (i : S100000x128.Idx)
    (hr : (i 0).val = t.val * 5000 + (j 0).val) (hc : (i 1).val = (j 1).val) :
    Cert.Gcn.selfTerm (iblk3 V c 0 t) (iblk3 V c 1 t) (iblk3 V c 2 t) (iblk3 V c 3 t) j
      = Cert.Gcn.selfTerm (V c main_v37) (V c main_arg5) (V c main_v38) (V c main_v28) i := by
  obtain ⟨e00, e01, e10, e11, e20, e21, e30, e31, e40, e41, e50, e51⟩ := idx_facts3 t
  unfold Cert.Gcn.selfTerm
  rw [lin_blk3 V c t j i hr hc, blk3_3, blk3_2]
  have h3 : ((cfg3.win 3).blk t).view.emb (ix2 (j 0) 0 : S5000x1.Idx) = (ix2 (i 0) 0 : S100000x1.Idx) := by
    funext a; apply Fin.ext
    match a with
    | ⟨0, _⟩ => show win3_3.index t (0 : Fin 2) * 5000 + 1 * (j 0).val = (i 0).val; omega
    | ⟨1, _⟩ => show win3_3.index t (1 : Fin 2) * 1 + 1 * 0 = 0; omega
  have h2 : ((cfg3.win 2).blk t).view.emb (ix2 0 (j 1) : S1x128.Idx) = (ix2 0 (i 1) : S1x128.Idx) := by
    funext a; apply Fin.ext
    match a with
    | ⟨0, _⟩ => show win3_2.index t (0 : Fin 2) * 1 + 1 * 0 = 0; omega
    | ⟨1, _⟩ => show win3_2.index t (1 : Fin 2) * 128 + 1 * (j 1).val = (i 1).val; omega
  rw [h3, h2]

/-- What point t writes back to the self-loop array is block t of the whole self-loop term. -/
private theorem flushed3_5 (c : Dev nD) (t : Fin cfg3.N) :
    (dat3 V c).flushed 5 t = ((cfg3.win 5).blk t).view.read (Elt Ideal)
      (Cert.Gcn.selfTerm (V c main_v37) (V c main_arg5) (V c main_v38) (V c main_v28)) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S128x128) hz3,
    View.ld_unit_zero (S := S5000x1) hz3, View.ld_unit_zero (S := S1x128) hz3]
  rw [pay_self3]
  obtain ⟨e00, e01, e10, e11, e20, e21, e30, e31, e40, e41, e50, e51⟩ := idx_facts3 t
  funext j
  show Cert.Gcn.selfTerm (iblk3 V c 0 t) (iblk3 V c 1 t) (iblk3 V c 2 t) (iblk3 V c 3 t) j
    = Cert.Gcn.selfTerm (V c main_v37) (V c main_arg5) (V c main_v38) (V c main_v28) (((cfg3.win 5).blk t).view.emb j)
  exact self_blk3 V c t j _
    (by show win3_5.index t (0 : Fin 2) * 5000 + 1 * (j 0).val = t.val * 5000 + (j 0).val; omega)
    (by show win3_5.index t (1 : Fin 2) * 128 + 1 * (j 1).val = (j 1).val; omega)

/-- An index of an output array is in point t's block iff each coordinate is in the block's range on its axis. -/
private theorem mem_blk3_4 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v39_0).slice (win3_4.rect t)).set ↔ _
  rw [View.set_slice_whole, Rect.mem_set_unit]
  exact Iff.rfl

private theorem mem_blk3_5 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v39_1).slice (win3_5.rect t)).set ↔ _
  rw [View.set_slice_whole, Rect.mem_set_unit]
  exact Iff.rfl

/-- The blocks tile the array: row r lies in the block of point r / 5000. -/
private theorem covered3_4 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have ht : (i 0).val / 5000 < 20 := by omega
  obtain ⟨e00, e01, e10, e11, e20, e21, e30, e31, e40, e41, e50, e51⟩ := idx_facts3 ⟨(i 0).val / 5000, ht⟩
  refine ⟨⟨(i 0).val / 5000, ht⟩, flush3_4 _, ?_⟩
  rw [mem_blk3_4]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val ∧ (i 1).val < win3_4.index ⟨(i 0).val / 5000, ht⟩ (1 : Fin 2) * 128 + 128
    rw [e41]; omega

private theorem covered3_5 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have ht : (i 0).val / 5000 < 20 := by omega
  obtain ⟨e00, e01, e10, e11, e20, e21, e30, e31, e40, e41, e50, e51⟩ := idx_facts3 ⟨(i 0).val / 5000, ht⟩
  refine ⟨⟨(i 0).val / 5000, ht⟩, flush3_5 _, ?_⟩
  rw [mem_blk3_5]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e51]; omega

theorem reg3_xl (c : Dev nD) :
    (dat3 V c).arrAt 4 cfg3.N = Cert.Gcn.lin (V c main_v37) (V c main_arg5) :=
  (dat3 V c).arrAt_eq_of_cover 4 _ (fun t _ => flushed3_4 V c t) covered3_4

theorem reg3_self (c : Dev nD) :
    (dat3 V c).arrAt 5 cfg3.N = Cert.Gcn.selfTerm (V c main_v37) (V c main_arg5) (V c main_v38) (V c main_v28) :=
  (dat3 V c).arrAt_eq_of_cover 5 _ (fun t _ => flushed3_5 V c t) covered3_5

end Cert.KernelIdeal.Val

end
-- ==== Proof.PayMsgSib.lean ====
/-
  The second and third layers' message kernels compute the edge message of the layer.

  Each kernel multiplies, entry by entry, the edge-normalisation column stretched along the feature axis with
  the block of gathered feature rows (128 features in the second layer, 64 in the third); at an entry (p, q)
  that is nrm (p, 0) · xs (p, q), which is `Cert.Gcn.msg`.
-/
import proofs.«409755_j40252433498737_1_alg».proof.Proof.Gen.KernelIdeal.Skeleton
import proofs.«409755_j40252433498737_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- Message kernel 4: the column of normalisations stretched over 128 features, times the gathered rows,
    is the edge message. -/
theorem pay_msg4 (nrm : Vec Ideal S6400x1 .f32) (xs : Vec Ideal S6400x128 .f32) :
    k4_pay1 nrm xs = Cert.Gcn.msg xs nrm := by
  funext j
  obtain ⟨p, q, rfl⟩ : ∃ (p : Fin 6400) (q : Fin 128), j = ix2 p q := ⟨j 0, j 1, eq_ix2 j⟩
  unfold k4_pay1 Cert.Gcn.msg
  -- the product reads entrywise; a reshape to the same shape is the identity
  rw [mulf_apply, shapeCast_self, shapeCast_self]
  refine congrArg (· * xs (ix2 p q)) ?_
  -- the stretched column at (p, q) is the column at (p, 0): the row axis is kept, the unit axis reads 0
  refine broadcastTo_apply nrm _ (ix2 p q) (ix2 p 0) ?_
  intro a
  match a with
  | ⟨0, _⟩ => rfl
  | ⟨1, _⟩ => rfl

/-- Message kernel 7: the column of normalisations stretched over 64 features, times the gathered rows,
    is the edge message. -/
theorem pay_msg7 (nrm : Vec Ideal S6400x1 .f32) (xs : Vec Ideal S6400x64 .f32) :
    k7_pay1 nrm xs = Cert.Gcn.msg xs nrm := by
  funext j
  obtain ⟨p, q, rfl⟩ : ∃ (p : Fin 6400) (q : Fin 64), j = ix2 p q := ⟨j 0, j 1, eq_ix2 j⟩
  unfold k7_pay1 Cert.Gcn.msg
  -- the product reads entrywise; a reshape to the same shape is the identity
  rw [mulf_apply, shapeCast_self, shapeCast_self]
  refine congrArg (· * xs (ix2 p q)) ?_
  -- the stretched column at (p, q) is the column at (p, 0): the row axis is kept, the unit axis reads 0
  refine broadcastTo_apply nrm _ (ix2 p q) (ix2 p 0) ?_
  intro a
  match a with
  | ⟨0, _⟩ => rfl
  | ⟨1, _⟩ => rfl

end Cert.KernelIdeal.Val

end
-- ==== Proof.Reg4.lean ====
/-
  The message kernel of layer two, as one function of whole arrays.

  The kernel runs over 250 row blocks of 6400 edges. At a block it multiplies each gathered feature row [6400, 128]
  by the edge's normalisation [6400, 1] and writes the block back. A message at a row reads the normalisation and
  the features at that row only, so the block a point writes is the same block of the messages of the whole
  arrays; the 250 blocks tile the 1600000 rows (row r lies in block r / 6400), so after the region the output
  array is the messages of the whole gathered-feature array and the whole normalisation column.
-/
import proofs.«409755_j40252433498737_1_alg».proof.Proof.Gen.KernelIdeal.Frame
import proofs.«409755_j40252433498737_1_alg».proof.Proof.Spec
import proofs.«409755_j40252433498737_1_alg».proof.Proof.PayMsgSib
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- A message at an index is determined by the normalisation at the index's row and the feature at the index. -/
private theorem msg_congr {N N' M : Nat} (xs : FVec Ideal ⟨2, ![N, M]⟩ .f32) (nrm : FVec Ideal ⟨2, ![N, 1]⟩ .f32)
    (xs' : FVec Ideal ⟨2, ![N', M]⟩ .f32) (nrm' : FVec Ideal ⟨2, ![N', 1]⟩ .f32)
    (j : (⟨2, ![N, M]⟩ : Shape).Idx) (i : (⟨2, ![N', M]⟩ : Shape).Idx)
    (h1 : nrm (ix2 (j 0) 0) = nrm' (ix2 (i 0) 0)) (h2 : xs j = xs' i) :
    Cert.Gcn.msg xs nrm j = Cert.Gcn.msg xs' nrm' i := by
  unfold Cert.Gcn.msg; rw [h1, h2]

private theorem hz4 : (![0, 0] : Fin 2 → Nat) = fun _ => 0 := funext fun a => by fin_cases a <;> rfl

/-- The printed index maps, decided over the grid: at point t each window's block is block t along the rows and
    block 0 along the columns. -/
private theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0 :=
  (by decide +kernel : ∀ t : Fin grid4.N, _)

/-- What point t writes back is block t of the messages of the whole arrays: a message at a row reads the
    normalisation and the features at that row only, and the three windows' blocks are the same rows. -/
private theorem flushed_eq4 (c : Dev nD) (t : Fin cfg4.N) :
    (dat4 V c).flushed 2 t = ((cfg4.win 2).blk t).view.read (Elt Ideal) (Cert.Gcn.msg (V c main_v40) (V c main_v29)) := by
  show (cfg4.win 2).cut (grid4.coords t) ((dat4 V c).after 2 t) = _
  rw [after4_2]
  unfold out4_2
  rw [View.canon_unit_zero hz4]
  simp only [View.ld_unit_zero (S := S6400x1) hz4, View.ld_unit_zero (S := S6400x128) hz4]
  rw [pay_msg4]
  obtain ⟨e0, e1, e2, e3, e4, e5⟩ := idx_facts4 t
  funext j
  show Cert.Gcn.msg (iblk4 V c 0 t) (iblk4 V c 1 t) j = Cert.Gcn.msg (V c main_v40) (V c main_v29) (((cfg4.win 2).blk t).view.emb j)
  refine msg_congr _ _ _ _ _ _ ?_ ?_
  · show V c main_v29 (((cfg4.win 1).blk t).view.emb (ix2 ((j : S6400x128.Idx) 0) (0 : Fin 1))) = V c main_v29 (ix2 ((((cfg4.win 2).blk t).view.emb j) 0) (0 : Fin 1))
    refine congrArg (V c main_v29) ?_
    · funext a; apply Fin.ext
      match a with
      | ⟨0, _⟩ => show win4_1.index t (0 : Fin 2) * 6400 + 1 * (j 0).val = win4_2.index t (0 : Fin 2) * 6400 + 1 * (j 0).val; omega
      | ⟨1, _⟩ => show win4_1.index t (1 : Fin 2) * 1 + 1 * 0 = 0; omega
  · show V c main_v40 (((cfg4.win 0).blk t).view.emb j) = V c main_v40 (((cfg4.win 2).blk t).view.emb j)
    have h0 : ((cfg4.win 0).blk t).view.emb j = ((cfg4.win 2).blk t).view.emb j := by
      funext a; apply Fin.ext
      match a with
      | ⟨0, _⟩ => show win4_0.index t (0 : Fin 2) * 6400 + 1 * (j 0).val = win4_2.index t (0 : Fin 2) * 6400 + 1 * (j 0).val; omega
      | ⟨1, _⟩ => show win4_0.index t (1 : Fin 2) * 128 + 1 * (j 1).val = win4_2.index t (1 : Fin 2) * 128 + 1 * (j 1).val; omega
    rw [h0]

/-- An index of the array is in point t's block iff each coordinate is in the block's range on its axis. -/
private theorem mem_blk4 (t : Fin cfg4.N) (i : S1600000x128.Idx) :
    i ∈ ((cfg4.win 2).blk t).view.set ↔ ∀ a : Fin 2, win4_2.index t a * S6400x128.size a ≤ (i a).val ∧ (i a).val < win4_2.index t a * S6400x128.size a + S6400x128.size a := by
  show i ∈ ((View.whole main_v41).slice (win4_2.rect t)).set ↔ _
  rw [View.set_slice_whole, Rect.mem_set_unit]
  exact Iff.rfl

/-- The blocks tile the array: row r is in the block of point r / 6400. -/
private theorem cover4 (i : S1600000x128.Idx) :
    ∃ t : Fin cfg4.N, (cfg4.win 2).flush t = true ∧ i ∈ ((cfg4.win 2).blk t).view.set := by
  have hi0 : (i 0).val < 1600000 := (i 0).isLt
  have hi1 : (i 1).val < 128 := (i 1).isLt
  have hN : cfg4.N = 250 := by decide +kernel
  have ht : (i 0).val / 6400 < cfg4.N := by rw [hN]; omega
  obtain ⟨e0, e1, e2, e3, e4, e5⟩ := idx_facts4 ⟨(i 0).val / 6400, ht⟩
  have e4' : win4_2.index ⟨(i 0).val / 6400, ht⟩ (0 : Fin 2) = (i 0).val / 6400 := e4
  refine ⟨⟨(i 0).val / 6400, ht⟩, flush4_2 _, ?_⟩
  rw [mem_blk4]
  intro a
  match a with
  | ⟨0, _⟩ => show win4_2.index ⟨(i 0).val / 6400, ht⟩ (0 : Fin 2) * 6400 ≤ (i 0).val ∧ (i 0).val < win4_2.index ⟨(i 0).val / 6400, ht⟩ (0 : Fin 2) * 6400 + 6400; omega
  | ⟨1, _⟩ => show win4_2.index ⟨(i 0).val / 6400, ht⟩ (1 : Fin 2) * 128 ≤ (i 1).val ∧ (i 1).val < win4_2.index ⟨(i 0).val / 6400, ht⟩ (1 : Fin 2) * 128 + 128; omega

/-- The message kernel's output array after the region: the messages of the gathered features and the normalisation. -/
theorem reg4_msg (c : Dev nD) :
    (dat4 V c).arrAt 2 cfg4.N = Cert.Gcn.msg (V c main_v40) (V c main_v29) :=
  (dat4 V c).arrAt_eq_of_cover 2 _ (fun t _ => flushed_eq4 V c t) (fun i => cover4 i)

end Cert.KernelIdeal.Val

end
-- ==== Proof.PayGeluSib.lean ====
/-
  The second and third layers' combine kernels compute the layer's node output: GELU of the aggregated
  messages plus the self term.

  Each kernel is entrywise (128 features in the second layer, 64 in the third) and performs the operations of
  `Cert.Gcn.gel` in the order in which `gel` is written, so the two sides agree at every entry by unfolding.
-/
import proofs.«409755_j40252433498737_1_alg».proof.Proof.Gen.KernelIdeal.Skeleton
import proofs.«409755_j40252433498737_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- Combine kernel 5 (128 features): the entrywise tanh-form GELU of a + s. -/
theorem pay_gelu5 (a s : Vec Ideal S5000x128 .f32) :
    k5_pay1 a s = Cert.Gcn.comb a s := by
  funext j
  unfold k5_pay1 Cert.Gcn.comb Cert.Gcn.gel
  -- a reshape to the same shape is the identity
  rw [shapeCast_self, shapeCast_self]
  -- every remaining operation reads entrywise, in the same order on both sides
  rfl

/-- Combine kernel 8 (64 features): the entrywise tanh-form GELU of a + s. -/
theorem pay_gelu8 (a s : Vec Ideal S5000x64 .f32) :
    k8_pay1 a s = Cert.Gcn.comb a s := by
  funext j
  unfold k8_pay1 Cert.Gcn.comb Cert.Gcn.gel
  -- a reshape to the same shape is the identity
  rw [shapeCast_self, shapeCast_self]
  -- every remaining operation reads entrywise, in the same order on both sides
  rfl

end Cert.KernelIdeal.Val

end
-- ==== Proof.Reg5.lean ====
/-
  The output array of the combine-and-GELU step of a graph-convolution layer, as one function of its two inputs.

  The step walks 20 row blocks of 5000 rows. At block t it reads rows [5000·t, 5000·t + 5000) of the aggregated
  messages and of the self-loop term and writes the tanh form of GELU of their sum to the same rows of the output.
  Because that function's value at a row depends on that row of its operands only, a row block of the result is the
  function of the operands' row blocks; and the 20 blocks cover every row (row r lies in block r / 5000). So the whole
  output array is GELU of the sum, index by index.
-/
import proofs.«409755_j40252433498737_1_alg».proof.Proof.Gen.KernelIdeal.Frame
import proofs.«409755_j40252433498737_1_alg».proof.Proof.Spec
import proofs.«409755_j40252433498737_1_alg».proof.Proof.PayGeluSib
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The zero offset of a whole-block access, as a constant function. -/
private theorem hz5 : (![0, 0] : Fin 2 → Nat) = fun _ => 0 := funext fun a => by fin_cases a <;> rfl

/-- The block index maps, decided over the 20 points: all three windows sit at row block t, column block 0. -/
private theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0 :=
  (by decide +kernel : ∀ t : Fin grid5.N, _)

/-- What point t writes back is row block t of GELU of the sum of the two input arrays: the inputs' blocks sit at
    the same rows as the output's block. -/
private theorem flushed5_eq (c : Dev nD) (t : Fin cfg5.N) :
    (dat5 V c).flushed 2 t
      = ((cfg5.win 2).blk t).view.read (Elt Ideal) (Cert.Gcn.comb (V c main_v44) (V c main_v39_1)) := by
  show (cfg5.win 2).cut (grid5.coords t) ((dat5 V c).after 2 t) = _
  rw [after5_2]
  unfold out5_2
  rw [View.canon_unit_zero hz5]
  simp only [View.ld_unit_zero (S := S5000x128) hz5]
  rw [pay_gelu5]
  obtain ⟨e0, e1, e2, e3, e4, e5⟩ := idx_facts5 t
  funext j
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 128 + 1 * (j 1).val = win5_2.index t (1 : Fin 2) * 128 + 1 * (j 1).val; omega
  have key : ∀ (A S : FVec Ideal S100000x128 .f32) (p q r : S100000x128.Idx), p = r → q = r →
      Cert.Gcn.gel (A p + S q) = Cert.Gcn.gel (A r + S r) := by
    intro A S p q r hp hq; rw [hp, hq]
  exact key (V c main_v44) (V c main_v39_1) _ _ _ h0 h1

/-- An index of the output array is in point t's block iff each coordinate is in the block's range on its axis. -/
private theorem mem_blk5 (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v45).slice (win5_2.rect t)).set ↔ _
  rw [View.set_slice_whole, Rect.mem_set_unit]
  exact Iff.rfl

/-- Every index of the output array lies in some point's block: row r in block r / 5000. -/
private theorem covered5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  let t : Fin cfg5.N := ⟨(i 0).val / 5000, by show (i 0).val / 5000 < 20; omega⟩
  obtain ⟨e0, e1, e2, e3, e4, e5⟩ := idx_facts5 t
  have ht : t.val = (i 0).val / 5000 := rfl
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array after the step: GELU of the aggregated messages plus the self-loop term, at every index. -/
theorem reg5_comb (c : Dev nD) :
    (dat5 V c).arrAt 2 cfg5.N = Cert.Gcn.comb (V c main_v44) (V c main_v39_1) :=
  (dat5 V c).arrAt_eq_of_cover 2 _ (fun t _ => flushed5_eq V c t) covered5

end Cert.KernelIdeal.Val

end
-- ==== Proof.Fold2.lean ====
/-
  The second layer, read off the kernel program's run in the reference's terms. Its input is the first layer's
  output, GELU of the first pre-activation; the weight and bias are the second pair of arguments; the edge
  endpoints, the reciprocal degree and the edge normalisation are the ones the host prepared before the first
  kernel, which no segment in between writes. The five steps are the first layer's: product, taken rows,
  messages, scatter, GELU of the sum.
-/
import proofs.«409755_j40252433498737_1_alg».proof.Proof.Gen.KernelIdeal.Frame
import proofs.«409755_j40252433498737_1_alg».proof.Proof.RefTerms
import proofs.«409755_j40252433498737_1_alg».proof.Proof.RefTerms2
import proofs.«409755_j40252433498737_1_alg».proof.Proof.RefBridge
import proofs.«409755_j40252433498737_1_alg».proof.Proof.PreTake
import proofs.«409755_j40252433498737_1_alg».proof.Proof.FoldKeep
import proofs.«409755_j40252433498737_1_alg».proof.Proof.Spec
import proofs.«409755_j40252433498737_1_alg».proof.Proof.Fold1
import proofs.«409755_j40252433498737_1_alg».proof.Proof.Reg3
import proofs.«409755_j40252433498737_1_alg».proof.Proof.Reg4
import proofs.«409755_j40252433498737_1_alg».proof.Proof.Reg5
import Idealize.ShloMosaic.Lib.StableHlo.Run
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Value (res_main_v1 res_main_v3 res_main_v9 res_main_v10 res_main_v12 res_main_v13 res_main_v48 res_main_v62 res_main_v97 res_main_v111 res_main_v146)

variable (m : (ℓ : Loc nD τ sig) → Buf (Elt Ideal) ℓ) (ρ : Dev nD → PrngReg) (c : Dev nD)
variable (V0 : Valuation Cert.ReferenceIdeal.τ Cert.ReferenceIdeal.sig (Elt Ideal))

/-! ## The layer's input, weight, bias row and degree column -/

theorem W7_v37 (hpre : Cert.Pre_KernelIdeal m) (hA : Cert.Bridge.Agree m c V0) : W7 m ρ c (Proc.devRef .tc main_v37) = Cert.Bridge.geluR128 (res_main_v48 V0) :=
  (keep_main_v37_6_7 m ρ c).trans (W6_v37 m ρ c V0 hpre hA)

theorem W7_arg5 (hA : Cert.Bridge.Agree m c V0) : W7 m ρ c (Proc.devRef .tc main_arg5) = (V0 (Proc.devRef .tc Cert.ReferenceIdeal.main_arg5)) :=
  (keep_main_arg5_0_7 m ρ c).trans hA.a5.symm

theorem W6_arg6 (hA : Cert.Bridge.Agree m c V0) : W6 m ρ c (Proc.devRef .tc main_arg6) = (V0 (Proc.devRef .tc Cert.ReferenceIdeal.main_arg6)) :=
  (keep_main_arg6_0_6 m ρ c).trans hA.a6.symm

theorem W7_v38 (hA : Cert.Bridge.Agree m c V0) :
    W7 m ρ c (Proc.devRef .tc main_v38) = shapeCast S1x128 (V0 (Proc.devRef .tc Cert.ReferenceIdeal.main_arg6)) shapeCasts_S128_S1x128 := by
  show StableHlo.after hostOps3 _ (Proc.devRef .tc main_v38) = _
  after_results
  rw [W6_arg6 m ρ c V0 hA]
  rfl

theorem W7_v28 (hA : Cert.Bridge.Agree m c V0) :
    W7 m ρ c (Proc.devRef .tc main_v28) = shapeCast S100000x1 (res_main_v12 V0) shapeCasts_S100000_S100000x1 :=
  (keep_main_v28_1_7 m ρ c).trans (W1_v28 m ρ c V0 hA)

/-! ## The linear kernel -/

theorem W8_v39_0 (hpre : Cert.Pre_KernelIdeal m) (hA : Cert.Bridge.Agree m c V0) : W8 m ρ c (Proc.devRef .tc main_v39_0) = res_main_v62 V0 := by
  refine (W8_arr m ρ c 4).trans ((reg3_xl (V7 m ρ) c).trans ?_)
  show Cert.Gcn.lin (W7 m ρ c (Proc.devRef .tc main_v37)) (W7 m ρ c (Proc.devRef .tc main_arg5)) = _
  rw [W7_v37 m ρ c V0 hpre hA, W7_arg5 m ρ c V0 hA, Cert.Bridge.res_main_v62_eq]
  exact (Cert.Bridge.dot128_eq _ _).symm

theorem W8_v39_1 (hpre : Cert.Pre_KernelIdeal m) (hA : Cert.Bridge.Agree m c V0) :
    W8 m ρ c (Proc.devRef .tc main_v39_1)
      = Cert.Gcn.selfTerm (Cert.Bridge.geluR128 (res_main_v48 V0)) (V0 (Proc.devRef .tc Cert.ReferenceIdeal.main_arg5))
          (shapeCast S1x128 (V0 (Proc.devRef .tc Cert.ReferenceIdeal.main_arg6)) shapeCasts_S128_S1x128)
          (shapeCast S100000x1 (res_main_v12 V0) shapeCasts_S100000_S100000x1) := by
  refine (W8_arr m ρ c 5).trans ((reg3_self (V7 m ρ) c).trans ?_)
  show Cert.Gcn.selfTerm (W7 m ρ c (Proc.devRef .tc main_v37)) (W7 m ρ c (Proc.devRef .tc main_arg5))
      (W7 m ρ c (Proc.devRef .tc main_v38)) (W7 m ρ c (Proc.devRef .tc main_v28)) = _
  rw [W7_v37 m ρ c V0 hpre hA, W7_arg5 m ρ c V0 hA, W7_v38 m ρ c V0 hA, W7_v28 m ρ c V0 hA]

/-! ## The taken rows -/

theorem W8_v1 (hA : Cert.Bridge.Agree m c V0) : W8 m ρ c (Proc.devRef .tc main_v1) = res_main_v1 V0 :=
  (keep_main_v1_2_8 m ρ c).trans (W2_v1 m ρ c V0 hA)

theorem W9_v40R (hpre : Cert.Pre_KernelIdeal m) (hA : Cert.Bridge.Agree m c V0) :
    W9 m ρ c (Proc.devRef .tc main_v40)
      = Host.gather Cert.ReferenceIdeal.gather_S100000x128_S1600000x1_S1600000x128_1_0_n_n_0_1_1128 (res_main_v62 V0) (Cert.Bridge.idxSrc V0) :=
  W9_v40 m ρ c (res_main_v62 V0) (W8_v39_0 m ρ c V0 hpre hA) (res_main_v1 V0) (W8_v1 m ρ c V0 hA) (src_ok m c V0 hpre hA)

/-! ## The message kernel -/

theorem W9_v29 (hA : Cert.Bridge.Agree m c V0) :
    W9 m ρ c (Proc.devRef .tc main_v29) = shapeCast S1600000x1 (Cert.Bridge.normR V0) shapeCasts_S1600000_S1600000x1 :=
  (keep_main_v29_3_9 m ρ c).trans (W3_v29 m ρ c V0 hA)

theorem W10_v41 (hpre : Cert.Pre_KernelIdeal m) (hA : Cert.Bridge.Agree m c V0) :
    W10 m ρ c (Proc.devRef .tc main_v41)
      = mulf (broadcastInDim S1600000x128 ![0, 1] Cert.ReferenceIdeal.Gen.bcast_S1600000x1_S1600000x128_0_1 (broadcastInDim S1600000x1 ![0] Cert.ReferenceIdeal.Gen.bcast_S1600000_S1600000x1_0 (Cert.Bridge.normR V0)))
          (Host.gather Cert.ReferenceIdeal.gather_S100000x128_S1600000x1_S1600000x128_1_0_n_n_0_1_1128 (res_main_v62 V0) (Cert.Bridge.idxSrc V0)) := by
  refine (W10_arr m ρ c 2).trans ((reg4_msg (V9 m ρ) c).trans ?_)
  show Cert.Gcn.msg (W9 m ρ c (Proc.devRef .tc main_v40)) (W9 m ρ c (Proc.devRef .tc main_v29)) = _
  rw [W9_v40R m ρ c V0 hpre hA, W9_v29 m ρ c V0 hA]
  exact Cert.Bridge.msg128_eq _ _ _

/-! ## The scatter by destination -/

theorem W10_v3 (hA : Cert.Bridge.Agree m c V0) : W10 m ρ c (Proc.devRef .tc main_v3) = res_main_v3 V0 :=
  (keep_main_v3_4_10 m ρ c).trans (W4_v3 m ρ c V0 hA)

/-- The aggregate of layer 2, as the reference composes it. -/
abbrev agg2 : FVec Ideal S100000x128 .f32 :=
  Host.scatterAdd Cert.ReferenceIdeal.scatter_S100000x128_S1600000x1_S1600000x128_1_0_0_1
    (broadcastInDim S100000x128 ![] Cert.ReferenceIdeal.Gen.bcast_S_S100000x128 (constant S_ .f32 0x00000000#32))
    (broadcastInDim S1600000x1 ![0] Cert.ReferenceIdeal.Gen.bcast_S1600000_S1600000x1_0 (res_main_v3 V0))
    (mulf (broadcastInDim S1600000x128 ![0, 1] Cert.ReferenceIdeal.Gen.bcast_S1600000x1_S1600000x128_0_1 (broadcastInDim S1600000x1 ![0] Cert.ReferenceIdeal.Gen.bcast_S1600000_S1600000x1_0 (Cert.Bridge.normR V0)))
      (Host.gather Cert.ReferenceIdeal.gather_S100000x128_S1600000x1_S1600000x128_1_0_n_n_0_1_1128 (res_main_v62 V0) (Cert.Bridge.idxSrc V0)))

theorem W11_v44 (hpre : Cert.Pre_KernelIdeal m) (hA : Cert.Bridge.Agree m c V0) :
    W11 m ρ c (Proc.devRef .tc main_v44) = agg2 V0 := by
  show StableHlo.after hostOps5 _ (Proc.devRef .tc main_v44) = _
  after_results
  rw [W10_v41 m ρ c V0 hpre hA, W10_v3 m ρ c V0 hA]
  rfl

/-! ## The combining kernel -/

theorem W11_v39_1 (hpre : Cert.Pre_KernelIdeal m) (hA : Cert.Bridge.Agree m c V0) :
    W11 m ρ c (Proc.devRef .tc main_v39_1)
      = Cert.Gcn.selfTerm (Cert.Bridge.geluR128 (res_main_v48 V0)) (V0 (Proc.devRef .tc Cert.ReferenceIdeal.main_arg5))
          (shapeCast S1x128 (V0 (Proc.devRef .tc Cert.ReferenceIdeal.main_arg6)) shapeCasts_S128_S1x128)
          (shapeCast S100000x1 (res_main_v12 V0) shapeCasts_S100000_S100000x1) :=
  (keep_main_v39_1_8_11 m ρ c).trans (W8_v39_1 m ρ c V0 hpre hA)

theorem W12_v45 (hpre : Cert.Pre_KernelIdeal m) (hA : Cert.Bridge.Agree m c V0) :
    W12 m ρ c (Proc.devRef .tc main_v45) = Cert.Bridge.geluR128 (res_main_v97 V0) := by
  refine (W12_arr m ρ c 2).trans ((reg5_comb (V11 m ρ) c).trans ?_)
  show Cert.Gcn.comb (W11 m ρ c (Proc.devRef .tc main_v44)) (W11 m ρ c (Proc.devRef .tc main_v39_1)) = _
  rw [W11_v44 m ρ c V0 hpre hA, W11_v39_1 m ρ c V0 hpre hA]
  have hXL : res_main_v62 V0 = Cert.Gcn.lin (Cert.Bridge.geluR128 (res_main_v48 V0)) (V0 (Proc.devRef .tc Cert.ReferenceIdeal.main_arg5)) :=
    Cert.Bridge.dot128_eq _ _
  refine (Cert.Bridge.layer128_eq _ _ _ _ _ _ _).trans ?_
  rw [← hXL, Cert.Bridge.res_main_v97_eq]
  rfl

end Cert.KernelIdeal.Val

end
-- ==== Proof.Reg6.lean ====
/-
  The dense part of graph-convolution layer three, read as whole arrays. The linear kernel runs over 20 row blocks of
  5000 rows; on each block it forms the product of the block's feature rows with the whole weight, and that product
  scaled by the rows' reciprocal degrees plus the bias row. Because both functions, at a row, read only that row of the
  row-indexed operands, block t of the result is the same function of block t of the features and degrees and of the whole
  weight and bias; the 20 blocks tile the 100000 rows (row r lies in block r / 5000), so the two output arrays end as
  the product X·W and the self-loop term (X·W)·d + b of the whole input arrays.
-/
import proofs.«409755_j40252433498737_1_alg».proof.Proof.Gen.KernelIdeal.Frame
import proofs.«409755_j40252433498737_1_alg».proof.Proof.Gen.KernelIdeal.Points
import proofs.«409755_j40252433498737_1_alg».proof.Proof.Spec
import proofs.«409755_j40252433498737_1_alg».proof.Proof.PayLinSib
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

private theorem hz6 : (![0, 0] : Fin 2 → Nat) = fun _ => 0 := funext fun a => by fin_cases a <;> rfl

/-- The block index maps over the grid: the row-blocked arrays (features, reciprocal degrees, both outputs) are at
    row block t and column block 0 at point t; the weight and the bias are whole (block 0, 0). -/
private theorem idx_facts6 : ∀ t : Fin cfg6.N, win6_0.index t (0 : Fin 2) = t.val
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-- An input block at an index is the input array at the block's image of that index. -/
private theorem blk6_0 (c : Dev nD) (t : Fin cfg6.N) (y : S5000x128.Idx) :
    iblk6 V c 0 t y = V c main_v45 (((cfg6.win 0).blk t).view.emb y) := rfl
private theorem blk6_1 (c : Dev nD) (t : Fin cfg6.N) (y : S128x64.Idx) :
    iblk6 V c 1 t y = V c main_arg7 (((cfg6.win 1).blk t).view.emb y) := rfl
private theorem blk6_2 (c : Dev nD) (t : Fin cfg6.N) (y : S1x64.Idx) :
    iblk6 V c 2 t y = V c main_v46 (((cfg6.win 2).blk t).view.emb y) := rfl
private theorem blk6_3 (c : Dev nD) (t : Fin cfg6.N) (y : S5000x1.Idx) :
    iblk6 V c 3 t y = V c main_v28 (((cfg6.win 3).blk t).view.emb y) := rfl

/-- The product of block t's feature rows with the weight, at row p of the block, is the whole product at row
    5000·t + p: the sum over the contracted axis reads the same entries. -/
private theorem lin_blk6 (c : Dev nD) (t : Fin cfg6.N) (j : S5000x64.Idx) (i : S100000x64.Idx)
    (hr : (i 0).val = t.val * 5000 + (j 0).val) (hc : (i 1).val = (j 1).val) :
    Cert.Gcn.lin (iblk6 V c 0 t) (iblk6 V c 1 t) j = Cert.Gcn.lin (V c main_v45) (V c main_arg7) i := by
  obtain ⟨e00, e01, e10, e11, e20, e21, e30, e31, e40, e41, e50, e51⟩ := idx_facts6 t
  unfold Cert.Gcn.lin
  refine Finset.sum_congr rfl fun k _ => ?_
  rw [blk6_0, blk6_1]
  have h0 : ((cfg6.win 0).blk t).view.emb (ix2 (j 0) k) = ix2 (i 0) k := by
    funext a; apply Fin.ext
    match a with
    | ⟨0, _⟩ => show win6_0.index t (0 : Fin 2) * 5000 + 1 * (j 0).val = (i 0).val; omega
    | ⟨1, _⟩ => show win6_0.index t (1 : Fin 2) * 128 + 1 * k.val = k.val; omega
  have h1 : ((cfg6.win 1).blk t).view.emb (ix2 k (j 1)) = ix2 k (i 1) := by
    funext a; apply Fin.ext
    match a with
    | ⟨0, _⟩ => show win6_1.index t (0 : Fin 2) * 128 + 1 * k.val = k.val; omega
    | ⟨1, _⟩ => show win6_1.index t (1 : Fin 2) * 64 + 1 * (j 1).val = (i 1).val; omega
  rw [h0, h1]
  rfl

/-- What point t writes back to the product array is block t of the whole product. -/
private theorem flushed6_4 (c : Dev nD) (t : Fin cfg6.N) :
    (dat6 V c).flushed 4 t = ((cfg6.win 4).blk t).view.read (Elt Ideal) (Cert.Gcn.lin (V c main_v45) (V c main_arg7)) := by
  show (cfg6.win 4).cut (grid6.coords t) ((dat6 V c).after 4 t) = _
  rw [after6_4]
  unfold out6_4
  rw [View.canon_unit_zero hz6]
  simp only [View.ld_unit_zero (S := S5000x128) hz6, View.ld_unit_zero (S := S128x64) hz6]
  rw [pay_lin6]
  obtain ⟨e00, e01, e10, e11, e20, e21, e30, e31, e40, e41, e50, e51⟩ := idx_facts6 t
  funext j
  show Cert.Gcn.lin (iblk6 V c 0 t) (iblk6 V c 1 t) j = Cert.Gcn.lin (V c main_v45) (V c main_arg7) (((cfg6.win 4).blk t).view.emb j)
  exact lin_blk6 V c t j _
    (by show win6_4.index t (0 : Fin 2) * 5000 + 1 * (j 0).val = t.val * 5000 + (j 0).val; omega)
    (by show win6_4.index t (1 : Fin 2) * 64 + 1 * (j 1).val = (j 1).val; omega)

/-- The self-loop term of block t's rows, at row p of the block, is the whole self-loop term at row 5000·t + p: the
    product as above, the reciprocal degree of that row, the bias at the same column. -/
private theorem self_blk6 (c : Dev nD) (t : Fin cfg6.N) (j : S5000x64.Idx) (i : S100000x64.Idx)
    (hr : (i 0).val = t.val * 5000 + (j 0).val) (hc : (i 1).val = (j 1).val) :
    Cert.Gcn.selfTerm (iblk6 V c 0 t) (iblk6 V c 1 t) (iblk6 V c 2 t) (iblk6 V c 3 t) j
      = Cert.Gcn.selfTerm (V c main_v45) (V c main_arg7) (V c main_v46) (V c main_v28) i := by
  obtain ⟨e00, e01, e10, e11, e20, e21, e30, e31, e40, e41, e50, e51⟩ := idx_facts6 t
  unfold Cert.Gcn.selfTerm
  rw [lin_blk6 V c t j i hr hc, blk6_3, blk6_2]
  have h3 : ((cfg6.win 3).blk t).view.emb (ix2 (j 0) 0 : S5000x1.Idx) = (ix2 (i 0) 0 : S100000x1.Idx) := by
    funext a; apply Fin.ext
    match a with
    | ⟨0, _⟩ => show win6_3.index t (0 : Fin 2) * 5000 + 1 * (j 0).val = (i 0).val; omega
    | ⟨1, _⟩ => show win6_3.index t (1 : Fin 2) * 1 + 1 * 0 = 0; omega
  have h2 : ((cfg6.win 2).blk t).view.emb (ix2 0 (j 1) : S1x64.Idx) = (ix2 0 (i 1) : S1x64.Idx) := by
    funext a; apply Fin.ext
    match a with
    | ⟨0, _⟩ => show win6_2.index t (0 : Fin 2) * 1 + 1 * 0 = 0; omega
    | ⟨1, _⟩ => show win6_2.index t (1 : Fin 2) * 64 + 1 * (j 1).val = (i 1).val; omega
  rw [h3, h2]

/-- What point t writes back to the self-loop array is block t of the whole self-loop term. -/
private theorem flushed6_5 (c : Dev nD) (t : Fin cfg6.N) :
    (dat6 V c).flushed 5 t = ((cfg6.win 5).blk t).view.read (Elt Ideal)
      (Cert.Gcn.selfTerm (V c main_v45) (V c main_arg7) (V c main_v46) (V c main_v28)) := by
  show (cfg6.win 5).cut (grid6.coords t) ((dat6 V c).after 5 t) = _
  rw [after6_5]
  unfold out6_5
  rw [View.canon_unit_zero hz6]
  simp only [View.ld_unit_zero (S := S5000x128) hz6, View.ld_unit_zero (S := S128x64) hz6,
    View.ld_unit_zero (S := S5000x1) hz6, View.ld_unit_zero (S := S1x64) hz6]
  rw [pay_self6]
  obtain ⟨e00, e01, e10, e11, e20, e21, e30, e31, e40, e41, e50, e51⟩ := idx_facts6 t
  funext j
  show Cert.Gcn.selfTerm (iblk6 V c 0 t) (iblk6 V c 1 t) (iblk6 V c 2 t) (iblk6 V c 3 t) j
    = Cert.Gcn.selfTerm (V c main_v45) (V c main_arg7) (V c main_v46) (V c main_v28) (((cfg6.win 5).blk t).view.emb j)
  exact self_blk6 V c t j _
    (by show win6_5.index t (0 : Fin 2) * 5000 + 1 * (j 0).val = t.val * 5000 + (j 0).val; omega)
    (by show win6_5.index t (1 : Fin 2) * 64 + 1 * (j 1).val = (j 1).val; omega)

/-- An index of an output array is in point t's block iff each coordinate is in the block's range on its axis. -/
private theorem mem_blk6_4 (t : Fin cfg6.N) (i : S100000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v47_0).slice (win6_4.rect t)).set ↔ _
  rw [View.set_slice_whole, Rect.mem_set_unit]
  exact Iff.rfl

private theorem mem_blk6_5 (t : Fin cfg6.N) (i : S100000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v47_1).slice (win6_5.rect t)).set ↔ _
  rw [View.set_slice_whole, Rect.mem_set_unit]
  exact Iff.rfl

/-- The blocks tile the array: row r lies in the block of point r / 5000. -/
private theorem covered6_4 (i : S100000x64.Idx) :
    ∃ t : Fin cfg6.N, (cfg6.win 4).flush t = true ∧ i ∈ ((cfg6.win 4).blk t).view.set := by
  have hi0 : (i 0).val < 100000 := (i 0).isLt
  have hi1 : (i 1).val < 64 := (i 1).isLt
  have ht : (i 0).val / 5000 < 20 := by omega
  obtain ⟨e00, e01, e10, e11, e20, e21, e30, e31, e40, e41, e50, e51⟩ := idx_facts6 ⟨(i 0).val / 5000, ht⟩
  refine ⟨⟨(i 0).val / 5000, ht⟩, flush6_4 _, ?_⟩
  rw [mem_blk6_4]
  intro a
  match a with
  | ⟨0, _⟩ =>
    show win6_4.index ⟨(i 0).val / 5000, ht⟩ (0 : Fin 2) * 5000 ≤ (i 0).val ∧ (i 0).val < win6_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win6_4.index ⟨(i 0).val / 5000, ht⟩ (1 : Fin 2) * 64 ≤ (i 1).val ∧ (i 1).val < win6_4.index ⟨(i 0).val / 5000, ht⟩ (1 : Fin 2) * 64 + 64
    rw [e41]; omega

private theorem covered6_5 (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have ht : (i 0).val / 5000 < 20 := by omega
  obtain ⟨e00, e01, e10, e11, e20, e21, e30, e31, e40, e41, e50, e51⟩ := idx_facts6 ⟨(i 0).val / 5000, ht⟩
  refine ⟨⟨(i 0).val / 5000, ht⟩, flush6_5 _, ?_⟩
  rw [mem_blk6_5]
  intro a
  match a with
  | ⟨0, _⟩ =>
    show win6_5.index ⟨(i 0).val / 5000, ht⟩ (0 : Fin 2) * 5000 ≤ (i 0).val ∧ (i 0).val < win6_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win6_5.index ⟨(i 0).val / 5000, ht⟩ (1 : Fin 2) * 64 ≤ (i 1).val ∧ (i 1).val < win6_5.index ⟨(i 0).val / 5000, ht⟩ (1 : Fin 2) * 64 + 64
    rw [e51]; omega

theorem reg6_xl (c : Dev nD) :
    (dat6 V c).arrAt 4 cfg6.N = Cert.Gcn.lin (V c main_v45) (V c main_arg7) :=
  (dat6 V c).arrAt_eq_of_cover 4 _ (fun t _ => flushed6_4 V c t) covered6_4

theorem reg6_self (c : Dev nD) :
    (dat6 V c).arrAt 5 cfg6.N = Cert.Gcn.selfTerm (V c main_v45) (V c main_arg7) (V c main_v46) (V c main_v28) :=
  (dat6 V c).arrAt_eq_of_cover 5 _ (fun t _ => flushed6_5 V c t) covered6_5

end Cert.KernelIdeal.Val

end
-- ==== Proof.Reg7.lean ====
/-
  The message kernel of layer three, as one function of whole arrays.

  The kernel runs over 250 row blocks of 6400 edges. At a block it multiplies each gathered feature row [6400, 64]
  by the edge's normalisation [6400, 1] and writes the block back. A message at a row reads the normalisation and
  the features at that row only, so the block a point writes is the same block of the messages of the whole
  arrays; the 250 blocks tile the 1600000 rows (row r lies in block r / 6400), so after the region the output
  array is the messages of the whole gathered-feature array and the whole normalisation column.
-/
import proofs.«409755_j40252433498737_1_alg».proof.Proof.Gen.KernelIdeal.Frame
import proofs.«409755_j40252433498737_1_alg».proof.Proof.Spec
import proofs.«409755_j40252433498737_1_alg».proof.Proof.PayMsgSib
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- A message at an index is determined by the normalisation at the index's row and the feature at the index. -/
private theorem msg_congr {N N' M : Nat} (xs : FVec Ideal ⟨2, ![N, M]⟩ .f32) (nrm : FVec Ideal ⟨2, ![N, 1]⟩ .f32)
    (xs' : FVec Ideal ⟨2, ![N', M]⟩ .f32) (nrm' : FVec Ideal ⟨2, ![N', 1]⟩ .f32)
    (j : (⟨2, ![N, M]⟩ : Shape).Idx) (i : (⟨2, ![N', M]⟩ : Shape).Idx)
    (h1 : nrm (ix2 (j 0) 0) = nrm' (ix2 (i 0) 0)) (h2 : xs j = xs' i) :
    Cert.Gcn.msg xs nrm j = Cert.Gcn.msg xs' nrm' i := by
  unfold Cert.Gcn.msg; rw [h1, h2]

private theorem hz7 : (![0, 0] : Fin 2 → Nat) = fun _ => 0 := funext fun a => by fin_cases a <;> rfl

/-- The printed index maps, decided over the grid: at point t each window's block is block t along the rows and
    block 0 along the columns. -/
private theorem idx_facts7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0 :=
  (by decide +kernel : ∀ t : Fin grid7.N, _)

/-- What point t writes back is block t of the messages of the whole arrays: a message at a row reads the
    normalisation and the features at that row only, and the three windows' blocks are the same rows. -/
private theorem flushed_eq7 (c : Dev nD) (t : Fin cfg7.N) :
    (dat7 V c).flushed 2 t = ((cfg7.win 2).blk t).view.read (Elt Ideal) (Cert.Gcn.msg (V c main_v48) (V c main_v29)) := by
  show (cfg7.win 2).cut (grid7.coords t) ((dat7 V c).after 2 t) = _
  rw [after7_2]
  unfold out7_2
  rw [View.canon_unit_zero hz7]
  simp only [View.ld_unit_zero (S := S6400x1) hz7, View.ld_unit_zero (S := S6400x64) hz7]
  rw [pay_msg7]
  obtain ⟨e0, e1, e2, e3, e4, e5⟩ := idx_facts7 t
  funext j
  show Cert.Gcn.msg (iblk7 V c 0 t) (iblk7 V c 1 t) j = Cert.Gcn.msg (V c main_v48) (V c main_v29) (((cfg7.win 2).blk t).view.emb j)
  refine msg_congr _ _ _ _ _ _ ?_ ?_
  · show V c main_v29 (((cfg7.win 1).blk t).view.emb (ix2 ((j : S6400x64.Idx) 0) (0 : Fin 1))) = V c main_v29 (ix2 ((((cfg7.win 2).blk t).view.emb j) 0) (0 : Fin 1))
    refine congrArg (V c main_v29) ?_
    · funext a; apply Fin.ext
      match a with
      | ⟨0, _⟩ => show win7_1.index t (0 : Fin 2) * 6400 + 1 * (j 0).val = win7_2.index t (0 : Fin 2) * 6400 + 1 * (j 0).val; omega
      | ⟨1, _⟩ => show win7_1.index t (1 : Fin 2) * 1 + 1 * 0 = 0; omega
  · show V c main_v48 (((cfg7.win 0).blk t).view.emb j) = V c main_v48 (((cfg7.win 2).blk t).view.emb j)
    have h0 : ((cfg7.win 0).blk t).view.emb j = ((cfg7.win 2).blk t).view.emb j := by
      funext a; apply Fin.ext
      match a with
      | ⟨0, _⟩ => show win7_0.index t (0 : Fin 2) * 6400 + 1 * (j 0).val = win7_2.index t (0 : Fin 2) * 6400 + 1 * (j 0).val; omega
      | ⟨1, _⟩ => show win7_0.index t (1 : Fin 2) * 64 + 1 * (j 1).val = win7_2.index t (1 : Fin 2) * 64 + 1 * (j 1).val; omega
    rw [h0]

/-- An index of the array is in point t's block iff each coordinate is in the block's range on its axis. -/
private theorem mem_blk7 (t : Fin cfg7.N) (i : S1600000x64.Idx) :
    i ∈ ((cfg7.win 2).blk t).view.set ↔ ∀ a : Fin 2, win7_2.index t a * S6400x64.size a ≤ (i a).val ∧ (i a).val < win7_2.index t a * S6400x64.size a + S6400x64.size a := by
  show i ∈ ((View.whole main_v49).slice (win7_2.rect t)).set ↔ _
  rw [View.set_slice_whole, Rect.mem_set_unit]
  exact Iff.rfl

/-- The blocks tile the array: row r is in the block of point r / 6400. -/
private theorem cover7 (i : S1600000x64.Idx) :
    ∃ t : Fin cfg7.N, (cfg7.win 2).flush t = true ∧ i ∈ ((cfg7.win 2).blk t).view.set := by
  have hi0 : (i 0).val < 1600000 := (i 0).isLt
  have hi1 : (i 1).val < 64 := (i 1).isLt
  have hN : cfg7.N = 250 := by decide +kernel
  have ht : (i 0).val / 6400 < cfg7.N := by rw [hN]; omega
  obtain ⟨e0, e1, e2, e3, e4, e5⟩ := idx_facts7 ⟨(i 0).val / 6400, ht⟩
  have e4' : win7_2.index ⟨(i 0).val / 6400, ht⟩ (0 : Fin 2) = (i 0).val / 6400 := e4
  refine ⟨⟨(i 0).val / 6400, ht⟩, flush7_2 _, ?_⟩
  rw [mem_blk7]
  intro a
  match a with
  | ⟨0, _⟩ => show win7_2.index ⟨(i 0).val / 6400, ht⟩ (0 : Fin 2) * 6400 ≤ (i 0).val ∧ (i 0).val < win7_2.index ⟨(i 0).val / 6400, ht⟩ (0 : Fin 2) * 6400 + 6400; omega
  | ⟨1, _⟩ => show win7_2.index ⟨(i 0).val / 6400, ht⟩ (1 : Fin 2) * 64 ≤ (i 1).val ∧ (i 1).val < win7_2.index ⟨(i 0).val / 6400, ht⟩ (1 : Fin 2) * 64 + 64; omega

/-- The message kernel's output array after the region: the messages of the gathered features and the normalisation. -/
theorem reg7_msg (c : Dev nD) :
    (dat7 V c).arrAt 2 cfg7.N = Cert.Gcn.msg (V c main_v48) (V c main_v29) :=
  (dat7 V c).arrAt_eq_of_cover 2 _ (fun t _ => flushed_eq7 V c t) (fun i => cover7 i)

end Cert.KernelIdeal.Val

end
-- ==== Proof.Reg8.lean ====
/-
  The output array of the combine-and-GELU step of a graph-convolution layer, as one function of its two inputs.

  The step walks 20 row blocks of 5000 rows. At block t it reads rows [5000·t, 5000·t + 5000) of the aggregated
  messages and of the self-loop term and writes the tanh form of GELU of their sum to the same rows of the output.
  Because that function's value at a row depends on that row of its operands only, a row block of the result is the
  function of the operands' row blocks; and the 20 blocks cover every row (row r lies in block r / 5000). So the whole
  output array is GELU of the sum, index by index.
-/
import proofs.«409755_j40252433498737_1_alg».proof.Proof.Gen.KernelIdeal.Frame
import proofs.«409755_j40252433498737_1_alg».proof.Proof.Spec
import proofs.«409755_j40252433498737_1_alg».proof.Proof.PayGeluSib
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The zero offset of a whole-block access, as a constant function. -/
private theorem hz8 : (![0, 0] : Fin 2 → Nat) = fun _ => 0 := funext fun a => by fin_cases a <;> rfl

/-- The block index maps, decided over the 20 points: all three windows sit at row block t, column block 0. -/
private theorem idx_facts8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = t.val
    ∧ win8_2.index t (1 : Fin 2) = 0 :=
  (by decide +kernel : ∀ t : Fin grid8.N, _)

/-- What point t writes back is row block t of GELU of the sum of the two input arrays: the inputs' blocks sit at
    the same rows as the output's block. -/
private theorem flushed8_eq (c : Dev nD) (t : Fin cfg8.N) :
    (dat8 V c).flushed 2 t
      = ((cfg8.win 2).blk t).view.read (Elt Ideal) (Cert.Gcn.comb (V c main_v52) (V c main_v47_1)) := by
  show (cfg8.win 2).cut (grid8.coords t) ((dat8 V c).after 2 t) = _
  rw [after8_2]
  unfold out8_2
  rw [View.canon_unit_zero hz8]
  simp only [View.ld_unit_zero (S := S5000x64) hz8]
  rw [pay_gelu8]
  obtain ⟨e0, e1, e2, e3, e4, e5⟩ := idx_facts8 t
  funext j
  have h0 : ((cfg8.win 0).blk t).view.emb j = ((cfg8.win 2).blk t).view.emb j := by
    funext a; apply Fin.ext
    match a with
    | ⟨0, _⟩ => show win8_0.index t (0 : Fin 2) * 5000 + 1 * (j 0).val = win8_2.index t (0 : Fin 2) * 5000 + 1 * (j 0).val; omega
    | ⟨1, _⟩ => show win8_0.index t (1 : Fin 2) * 64 + 1 * (j 1).val = win8_2.index t (1 : Fin 2) * 64 + 1 * (j 1).val; omega
  have h1 : ((cfg8.win 1).blk t).view.emb j = ((cfg8.win 2).blk t).view.emb j := by
    funext a; apply Fin.ext
    match a with
    | ⟨0, _⟩ => show win8_1.index t (0 : Fin 2) * 5000 + 1 * (j 0).val = win8_2.index t (0 : Fin 2) * 5000 + 1 * (j 0).val; omega
    | ⟨1, _⟩ => show win8_1.index t (1 : Fin 2) * 64 + 1 * (j 1).val = win8_2.index t (1 : Fin 2) * 64 + 1 * (j 1).val; omega
  have key : ∀ (A S : FVec Ideal S100000x64 .f32) (p q r : S100000x64.Idx), p = r → q = r →
      Cert.Gcn.gel (A p + S q) = Cert.Gcn.gel (A r + S r) := by
    intro A S p q r hp hq; rw [hp, hq]
  exact key (V c main_v52) (V c main_v47_1) _ _ _ h0 h1

/-- An index of the output array is in point t's block iff each coordinate is in the block's range on its axis. -/
private theorem mem_blk8 (t : Fin cfg8.N) (i : S100000x64.Idx) :
    i ∈ ((cfg8.win 2).blk t).view.set ↔ ∀ a : Fin 2, win8_2.index t a * S5000x64.size a ≤ (i a).val
      ∧ (i a).val < win8_2.index t a * S5000x64.size a + S5000x64.size a := by
  show i ∈ ((View.whole main_v53).slice (win8_2.rect t)).set ↔ _
  rw [View.set_slice_whole, Rect.mem_set_unit]
  exact Iff.rfl

/-- Every index of the output array lies in some point's block: row r in block r / 5000. -/
private theorem covered8 (i : S100000x64.Idx) :
    ∃ t : Fin cfg8.N, (cfg8.win 2).flush t = true ∧ i ∈ ((cfg8.win 2).blk t).view.set := by
  have hi0 : (i 0).val < 100000 := (i 0).isLt
  have hi1 : (i 1).val < 64 := (i 1).isLt
  let t : Fin cfg8.N := ⟨(i 0).val / 5000, by show (i 0).val / 5000 < 20; omega⟩
  obtain ⟨e0, e1, e2, e3, e4, e5⟩ := idx_facts8 t
  have ht : t.val = (i 0).val / 5000 := rfl
  refine ⟨t, flush8_2 t, ?_⟩
  rw [mem_blk8]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 64 ≤ (i 1).val ∧ (i 1).val < win8_2.index t (1 : Fin 2) * 64 + 64; omega

/-- The output array after the step: GELU of the aggregated messages plus the self-loop term, at every index. -/
theorem reg8_comb (c : Dev nD) :
    (dat8 V c).arrAt 2 cfg8.N = Cert.Gcn.comb (V c main_v52) (V c main_v47_1) :=
  (dat8 V c).arrAt_eq_of_cover 2 _ (fun t _ => flushed8_eq V c t) covered8

end Cert.KernelIdeal.Val

end
-- ==== Proof.Fold3.lean ====
/-
  The third layer and the pooling, read off the kernel program's run in the reference's terms. The layer's input
  is the second layer's output; its weight has 64 columns, so the product, the taken rows, the messages, the
  aggregate and the output are [·, 64] arrays; otherwise the five steps are the earlier layers'. After it both
  programs sum the outputs per graph and divide by the graph's node count (at least one): the same host operations
  on the same values.
-/
import proofs.«409755_j40252433498737_1_alg».proof.Proof.Gen.KernelIdeal.Frame
import proofs.«409755_j40252433498737_1_alg».proof.Proof.RefTerms
import proofs.«409755_j40252433498737_1_alg».proof.Proof.RefTerms2
import proofs.«409755_j40252433498737_1_alg».proof.Proof.RefBridge
import proofs.«409755_j40252433498737_1_alg».proof.Proof.PreTake
import proofs.«409755_j40252433498737_1_alg».proof.Proof.FoldKeep
import proofs.«409755_j40252433498737_1_alg».proof.Proof.Spec
import proofs.«409755_j40252433498737_1_alg».proof.Proof.Fold1
import proofs.«409755_j40252433498737_1_alg».proof.Proof.Fold2
import proofs.«409755_j40252433498737_1_alg».proof.Proof.Reg6
import proofs.«409755_j40252433498737_1_alg».proof.Proof.Reg7
import proofs.«409755_j40252433498737_1_alg».proof.Proof.Reg8
import Idealize.ShloMosaic.Lib.StableHlo.Run
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Value (res_main_v1 res_main_v3 res_main_v9 res_main_v10 res_main_v12 res_main_v13 res_main_v48 res_main_v62 res_main_v97 res_main_v111 res_main_v146)

variable (m : (ℓ : Loc nD τ sig) → Buf (Elt Ideal) ℓ) (ρ : Dev nD → PrngReg) (c : Dev nD)
variable (V0 : Valuation Cert.ReferenceIdeal.τ Cert.ReferenceIdeal.sig (Elt Ideal))

/-! ## The layer's input, weight, bias row and degree column -/

theorem W13_v45 (hpre : Cert.Pre_KernelIdeal m) (hA : Cert.Bridge.Agree m c V0) : W13 m ρ c (Proc.devRef .tc main_v45) = Cert.Bridge.geluR128 (res_main_v97 V0) :=
  (keep_main_v45_12_13 m ρ c).trans (W12_v45 m ρ c V0 hpre hA)

theorem W13_arg7 (hA : Cert.Bridge.Agree m c V0) : W13 m ρ c (Proc.devRef .tc main_arg7) = (V0 (Proc.devRef .tc Cert.ReferenceIdeal.main_arg7)) :=
  (keep_main_arg7_0_13 m ρ c).trans hA.a7.symm

theorem W12_arg8 (hA : Cert.Bridge.Agree m c V0) : W12 m ρ c (Proc.devRef .tc main_arg8) = (V0 (Proc.devRef .tc Cert.ReferenceIdeal.main_arg8)) :=
  (keep_main_arg8_0_12 m ρ c).trans hA.a8.symm

theorem W13_v46 (hA : Cert.Bridge.Agree m c V0) :
    W13 m ρ c (Proc.devRef .tc main_v46) = shapeCast S1x64 (V0 (Proc.devRef .tc Cert.ReferenceIdeal.main_arg8)) shapeCasts_S64_S1x64 := by
  show StableHlo.after hostOps6 _ (Proc.devRef .tc main_v46) = _
  after_results
  rw [W12_arg8 m ρ c V0 hA]
  rfl

theorem W13_v28 (hA : Cert.Bridge.Agree m c V0) :
    W13 m ρ c (Proc.devRef .tc main_v28) = shapeCast S100000x1 (res_main_v12 V0) shapeCasts_S100000_S100000x1 :=
  (keep_main_v28_7_13 m ρ c).trans (W7_v28 m ρ c V0 hA)

/-! ## The linear kernel -/

theorem W14_v47_0 (hpre : Cert.Pre_KernelIdeal m) (hA : Cert.Bridge.Agree m c V0) : W14 m ρ c (Proc.devRef .tc main_v47_0) = res_main_v111 V0 := by
  refine (W14_arr m ρ c 4).trans ((reg6_xl (V13 m ρ) c).trans ?_)
  show Cert.Gcn.lin (W13 m ρ c (Proc.devRef .tc main_v45)) (W13 m ρ c (Proc.devRef .tc main_arg7)) = _
  rw [W13_v45 m ρ c V0 hpre hA, W13_arg7 m ρ c V0 hA, Cert.Bridge.res_main_v111_eq]
  exact (Cert.Bridge.dot64_eq _ _).symm

theorem W14_v47_1 (hpre : Cert.Pre_KernelIdeal m) (hA : Cert.Bridge.Agree m c V0) :
    W14 m ρ c (Proc.devRef .tc main_v47_1)
      = Cert.Gcn.selfTerm (Cert.Bridge.geluR128 (res_main_v97 V0)) (V0 (Proc.devRef .tc Cert.ReferenceIdeal.main_arg7))
          (shapeCast S1x64 (V0 (Proc.devRef .tc Cert.ReferenceIdeal.main_arg8)) shapeCasts_S64_S1x64)
          (shapeCast S100000x1 (res_main_v12 V0) shapeCasts_S100000_S100000x1) := by
  refine (W14_arr m ρ c 5).trans ((reg6_self (V13 m ρ) c).trans ?_)
  show Cert.Gcn.selfTerm (W13 m ρ c (Proc.devRef .tc main_v45)) (W13 m ρ c (Proc.devRef .tc main_arg7))
      (W13 m ρ c (Proc.devRef .tc main_v46)) (W13 m ρ c (Proc.devRef .tc main_v28)) = _
  rw [W13_v45 m ρ c V0 hpre hA, W13_arg7 m ρ c V0 hA, W13_v46 m ρ c V0 hA, W13_v28 m ρ c V0 hA]

/-! ## The taken rows -/

theorem W14_v1 (hA : Cert.Bridge.Agree m c V0) : W14 m ρ c (Proc.devRef .tc main_v1) = res_main_v1 V0 :=
  (keep_main_v1_8_14 m ρ c).trans (W8_v1 m ρ c V0 hA)

theorem W15_v48R (hpre : Cert.Pre_KernelIdeal m) (hA : Cert.Bridge.Agree m c V0) :
    W15 m ρ c (Proc.devRef .tc main_v48)
      = Host.gather Cert.ReferenceIdeal.gather_S100000x64_S1600000x1_S1600000x64_1_0_n_n_0_1_164 (res_main_v111 V0) (Cert.Bridge.idxSrc V0) :=
  W15_v48 m ρ c (res_main_v111 V0) (W14_v47_0 m ρ c V0 hpre hA) (res_main_v1 V0) (W14_v1 m ρ c V0 hA) (src_ok m c V0 hpre hA)

/-! ## The message kernel -/

theorem W15_v29 (hA : Cert.Bridge.Agree m c V0) :
    W15 m ρ c (Proc.devRef .tc main_v29) = shapeCast S1600000x1 (Cert.Bridge.normR V0) shapeCasts_S1600000_S1600000x1 :=
  (keep_main_v29_9_15 m ρ c).trans (W9_v29 m ρ c V0 hA)

theorem W16_v49 (hpre : Cert.Pre_KernelIdeal m) (hA : Cert.Bridge.Agree m c V0) :
    W16 m ρ c (Proc.devRef .tc main_v49)
      = mulf (broadcastInDim S1600000x64 ![0, 1] Cert.ReferenceIdeal.Gen.bcast_S1600000x1_S1600000x64_0_1 (broadcastInDim S1600000x1 ![0] Cert.ReferenceIdeal.Gen.bcast_S1600000_S1600000x1_0 (Cert.Bridge.normR V0)))
          (Host.gather Cert.ReferenceIdeal.gather_S100000x64_S1600000x1_S1600000x64_1_0_n_n_0_1_164 (res_main_v111 V0) (Cert.Bridge.idxSrc V0)) := by
  refine (W16_arr m ρ c 2).trans ((reg7_msg (V15 m ρ) c).trans ?_)
  show Cert.Gcn.msg (W15 m ρ c (Proc.devRef .tc main_v48)) (W15 m ρ c (Proc.devRef .tc main_v29)) = _
  rw [W15_v48R m ρ c V0 hpre hA, W15_v29 m ρ c V0 hA]
  exact Cert.Bridge.msg64_eq _ _ _

/-! ## The scatter by destination -/

theorem W16_v3 (hA : Cert.Bridge.Agree m c V0) : W16 m ρ c (Proc.devRef .tc main_v3) = res_main_v3 V0 :=
  (keep_main_v3_10_16 m ρ c).trans (W10_v3 m ρ c V0 hA)

/-- The aggregate of layer 3, as the reference composes it. -/
abbrev agg3 : FVec Ideal S100000x64 .f32 :=
  Host.scatterAdd Cert.ReferenceIdeal.scatter_S100000x64_S1600000x1_S1600000x64_1_0_0_1
    (broadcastInDim S100000x64 ![] Cert.ReferenceIdeal.Gen.bcast_S_S100000x64 (constant S_ .f32 0x00000000#32))
    (broadcastInDim S1600000x1 ![0] Cert.ReferenceIdeal.Gen.bcast_S1600000_S1600000x1_0 (res_main_v3 V0))
    (mulf (broadcastInDim S1600000x64 ![0, 1] Cert.ReferenceIdeal.Gen.bcast_S1600000x1_S1600000x64_0_1 (broadcastInDim S1600000x1 ![0] Cert.ReferenceIdeal.Gen.bcast_S1600000_S1600000x1_0 (Cert.Bridge.normR V0)))
      (Host.gather Cert.ReferenceIdeal.gather_S100000x64_S1600000x1_S1600000x64_1_0_n_n_0_1_164 (res_main_v111 V0) (Cert.Bridge.idxSrc V0)))

theorem W17_v52 (hpre : Cert.Pre_KernelIdeal m) (hA : Cert.Bridge.Agree m c V0) :
    W17 m ρ c (Proc.devRef .tc main_v52) = agg3 V0 := by
  show StableHlo.after hostOps8 _ (Proc.devRef .tc main_v52) = _
  after_results
  rw [W16_v49 m ρ c V0 hpre hA, W16_v3 m ρ c V0 hA]
  rfl

/-! ## The combining kernel -/

theorem W17_v47_1 (hpre : Cert.Pre_KernelIdeal m) (hA : Cert.Bridge.Agree m c V0) :
    W17 m ρ c (Proc.devRef .tc main_v47_1)
      = Cert.Gcn.selfTerm (Cert.Bridge.geluR128 (res_main_v97 V0)) (V0 (Proc.devRef .tc Cert.ReferenceIdeal.main_arg7))
          (shapeCast S1x64 (V0 (Proc.devRef .tc Cert.ReferenceIdeal.main_arg8)) shapeCasts_S64_S1x64)
          (shapeCast S100000x1 (res_main_v12 V0) shapeCasts_S100000_S100000x1) :=
  (keep_main_v47_1_14_17 m ρ c).trans (W14_v47_1 m ρ c V0 hpre hA)

theorem W18_v53 (hpre : Cert.Pre_KernelIdeal m) (hA : Cert.Bridge.Agree m c V0) :
    W18 m ρ c (Proc.devRef .tc main_v53) = Cert.Bridge.geluR64 (res_main_v146 V0) := by
  refine (W18_arr m ρ c 2).trans ((reg8_comb (V17 m ρ) c).trans ?_)
  show Cert.Gcn.comb (W17 m ρ c (Proc.devRef .tc main_v52)) (W17 m ρ c (Proc.devRef .tc main_v47_1)) = _
  rw [W17_v52 m ρ c V0 hpre hA, W17_v47_1 m ρ c V0 hpre hA]
  have hXL : res_main_v111 V0 = Cert.Gcn.lin (Cert.Bridge.geluR128 (res_main_v97 V0)) (V0 (Proc.devRef .tc Cert.ReferenceIdeal.main_arg7)) :=
    Cert.Bridge.dot64_eq _ _
  refine (Cert.Bridge.layer64_eq _ _ _ _ _ _ _).trans ?_
  rw [← hXL, Cert.Bridge.res_main_v146_eq]
  rfl

/-! ## The mean over each graph -/

theorem W18_arg2 (hA : Cert.Bridge.Agree m c V0) : W18 m ρ c (Proc.devRef .tc main_arg2) = (V0 (Proc.devRef .tc Cert.ReferenceIdeal.main_arg2)) :=
  (keep_main_arg2_0_18 m ρ c).trans hA.a2.symm

set_option maxHeartbeats 2000000 in
/-- What the kernel program leaves in its result buffer is the reference's result term. -/
theorem W19_v65 (hpre : Cert.Pre_KernelIdeal m) (hA : Cert.Bridge.Agree m c V0) :
    W19 m ρ c (Proc.devRef .tc main_v65) = Cert.Bridge.resultR V0 := by
  show StableHlo.after hostOps9 _ (Proc.devRef .tc main_v65) = _
  after_results_simp
  rw [W18_v53 m ρ c V0 hpre hA, W18_arg2 m ρ c V0 hA]
  rfl

end Cert.KernelIdeal.Val

end
-- ==== Proof.lean ====
/-
  Three graph-convolution layers and a per-graph mean: the kernel program against its reference, over the extended
  reals, for edge lists whose source endpoints are node indices (0 ≤ s < 100000) and finite float inputs.

  Per layer the kernel program computes, in three row-blocked kernels, the product X·W with the self-loop term
  (X·W)·d + b, the edge messages norm · (X·W)[src], and GELU (tanh form) of the scattered messages plus the
  self-loop term; the reference computes the same product as one matrix product, the same messages as a broadcast
  product of gathered rows, and GELU of ((scattered messages + d·(X·W)) + b). The two agree because

  * a matrix product into a zero accumulator and a host matrix product are the same sum over the contracted axis,
    and a change of float format is the identity on extended reals;
  * the kernel program's masked row-take and the reference's plain gather agree when every index is in range, which
    is what the precondition says of the source endpoints (elsewhere the kernel program's fill value and the
    reference's clamped row differ);
  * (a + (l·d + b)) = ((a + d·l) + b) and x·(x·x) = (x·x)·x by commutativity and associativity of + and · on the
    extended reals: no distributive law, so no finiteness, is used;
  * everything else — degrees, normalisation, scatters, the final mean — is the same host operation on both sides.

  The kernel program's run is read boundary by boundary (host stretch, kernel, host stretch, …): each kernel's output
  array is one whole-array function of its input arrays because a row block of that function depends only on the
  same row block of the row-indexed operands, and the blocks tile the array. The three frames are the generated
  ones (the reference's is its run with the result dropped); the idealization's ledger is empty.
-/
import proofs.«409755_j40252433498737_1_alg».proof.Defs
import proofs.«409755_j40252433498737_1_alg».proof.Proof.Gen.Kernel
import proofs.«409755_j40252433498737_1_alg».proof.Proof.Gen.Kernel.Skeleton
import proofs.«409755_j40252433498737_1_alg».proof.Proof.Gen.Kernel.Launch
import proofs.«409755_j40252433498737_1_alg».proof.Proof.Gen.Kernel.Points
import proofs.«409755_j40252433498737_1_alg».proof.Proof.Gen.Kernel.Frame
import proofs.«409755_j40252433498737_1_alg».proof.Proof.Gen.KernelIdeal
import proofs.«409755_j40252433498737_1_alg».proof.Proof.Gen.KernelIdeal.Skeleton
import proofs.«409755_j40252433498737_1_alg».proof.Proof.Gen.KernelIdeal.Launch
import proofs.«409755_j40252433498737_1_alg».proof.Proof.Gen.KernelIdeal.Points
import proofs.«409755_j40252433498737_1_alg».proof.Proof.Gen.KernelIdeal.Frame
import proofs.«409755_j40252433498737_1_alg».proof.Proof.Gen.ReferenceIdeal
import proofs.«409755_j40252433498737_1_alg».proof.Proof.Gen.ReferenceIdeal.Run
import proofs.«409755_j40252433498737_1_alg».proof.Proof.Gen.Pre_finite_inputs
import proofs.«409755_j40252433498737_1_alg».proof.Proof.KRun
import proofs.«409755_j40252433498737_1_alg».proof.Proof.RefTerms
import proofs.«409755_j40252433498737_1_alg».proof.Proof.RefTerms2
import proofs.«409755_j40252433498737_1_alg».proof.Proof.Fold3
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From launch memories that agree on the nine arguments both programs end, their results one array: the
    reference's result term of its own launch contents, which the kernel program's fold of boundaries also reaches. -/
theorem algebraic : Cert.algebraic_KernelIdeal_ReferenceIdeal := by
  intro m ρ m' ρ' hpre hagree
  have hA : ∀ c, Cert.Bridge.Agree m c (StableHlo.launchContents m' c) := fun c =>
    ⟨(hagree c).1, (hagree c).2.1, (hagree c).2.2.1, (hagree c).2.2.2.1, (hagree c).2.2.2.2.1, (hagree c).2.2.2.2.2.1,
     (hagree c).2.2.2.2.2.2.1, (hagree c).2.2.2.2.2.2.2.1, (hagree c).2.2.2.2.2.2.2.2⟩
  refine ⟨fun c => Cert.Bridge.resultR (StableHlo.launchContents m' c), ?_, ?_⟩
  · exact (θ_run Cert.KernelIdeal.defs _ _).mono
      (fun r h c => ⟨(h c).1.trans (Cert.KernelIdeal.Val.W19_v65 m ρ c (StableHlo.launchContents m' c) hpre (hA c)), (h c).2⟩)
      (Cert.KernelIdeal.Val.run_val (F := Ideal) m ρ)
  · exact (θ_run Cert.ReferenceIdeal.defs _ _).mono (fun r h c => ⟨(h c).1.trans rfl, (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
